-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 22
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x1, .f32⟩
  | .local _ .vmem, ⟨11, _⟩ => ⟨S1024x1, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x1, .f32⟩
  | .local _ .vmem, ⟨17, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024x1_S1024x1 : S1024x1.ShapeCasts S1024x1
  reducesTo_S8192x1_S_d0_1 : S8192x1.ReducesTo [0, 1] S_
  h_S_ : 0 < S_.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 97
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x256, .f32⟩
  | .hbm, ⟨33, _⟩ => ⟨S_, .f32⟩
  | .hbm, ⟨34, _⟩ => ⟨S8192, .f32⟩
  | .hbm, ⟨35, _⟩ => ⟨S8192x256, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x256, .f32⟩
  | .hbm, ⟨64, _⟩ => ⟨S_, .f32⟩
  | .hbm, ⟨65, _⟩ => ⟨S8192, .f32⟩
  | .hbm, ⟨66, _⟩ => ⟨S8192x256, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S1x8192, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_v46 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_17 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_18 : Ref sig .tc := ⟨.hbm, 79, rfl⟩
abbrev main_v58 : Ref sig .tc := ⟨.hbm, 80, rfl⟩
abbrev main_v59 : Ref sig .tc := ⟨.hbm, 81, rfl⟩
abbrev main_cst_19 : Ref sig .tc := ⟨.hbm, 82, rfl⟩
abbrev main_v60 : Ref sig .tc := ⟨.hbm, 83, rfl⟩
abbrev main_v61 : Ref sig .tc := ⟨.hbm, 84, rfl⟩
abbrev main_cst_20 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_21 : Ref sig .tc := ⟨.hbm, 89, rfl⟩
abbrev main_v65 : Ref sig .tc := ⟨.hbm, 90, rfl⟩
abbrev main_cst_22 : Ref sig .tc := ⟨.hbm, 91, rfl⟩
abbrev main_v66 : Ref sig .tc := ⟨.hbm, 92, rfl⟩
abbrev main_cst_23 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Base.lean ====
/-
  Two facts about a rectangle that is its whole buffer (offset zero in every axis, extent the buffer's): the offset's
  spelling, and that every index of the buffer lies in it.
-/
import Idealize.ShloMosaic.Lib.Pipeline.FrameBody
import Idealize.ShloMosaic.Lib.Pipeline.Value

namespace Cert.Hand

open Idealize.ShloMosaic

/-- The offset of a rank-2 rectangle that is its whole buffer. -/
theorem hz2 : (![0, 0] : Fin 2 → Nat) = fun _ => 0 := funext fun a => by fin_cases a <;> rfl

/-- Every index lies in the rectangle that is the whole buffer. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

end Cert.Hand
-- ==== Proof.Bits.Body0.lean ====
/-
  The kernel body of pallas_call 0, run once per control case. The body reads its two input blocks whole, and its
  output block is one whole-buffer store: at a point whose column-tile coordinate is zero the block is first reset to
  zeros, so the value stored is the row sums added to zeros; at any other point it is the row sums added to what the
  block held.
-/
import proofs.«168475_j46866683134277_1_alg».proof.Proof.Base
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

/-- The body's one conditional: the column-tile coordinate is zero. -/
abbrev cond0 (i : grid0.Coords) : Prop :=
  (Scalar.cmpi .ne (Scalar.extui (Scalar.cmpi .eq (BitVec.ofNat 32 (i 1).val) 0#32)) 0#32) = 1#1

/-- It holds exactly at the first of every eight consecutive points (the column tile runs fastest). -/
theorem hcond0 : ∀ t : Fin cfg0.N, cond0 (grid0.coords t) ↔ t.val % 8 = 0 :=
  (by decide +kernel : ∀ t : Fin grid0.N, cond0 (grid0.coords t) ↔ t.val % 8 = 0)

set_option maxHeartbeats 4000000 in
/-- At a point that resets: the output block ends at the row sums added to zeros, the inputs as they were. -/
theorem sound_kernel0_A (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : cond0 i)
    (x0 x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay2 x0 x1 (k0_pay1 (F := F)))) -∗ K ⟨⟩))
      ⊢ wp frame (wpE (defs₀ (F := F)) Variants.none c none) E (cc0__mmd_partial_kernel i arg2 harg2 arg3 harg3 arg4 harg4) K := by
  simp only [cc0__mmd_partial_kernel_eq_skeleton]; unfold cc0__mmd_partial_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2,
    View.readCov_unit_zero (S := S1024x1) _ hz2]

set_option maxHeartbeats 4000000 in
/-- At any other point: the output block ends at the row sums added to what it held, the inputs as they were. -/
theorem sound_kernel0_B (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : ¬cond0 i)
    (x0 x1 : Vec F S1024x256 .f32) (xo : Vec F S1024x1 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k0_pay2 x0 x1 xo)) -∗ K ⟨⟩))
      ⊢ wp frame (wpE (defs₀ (F := F)) Variants.none c none) E (cc0__mmd_partial_kernel i arg2 harg2 arg3 harg3 arg4 harg4) K := by
  simp only [cc0__mmd_partial_kernel_eq_skeleton]; unfold cc0__mmd_partial_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2]

end Cert.Kernel.Hand

end
-- ==== Proof.Bits.Data0.lean ====
/-
  The proof data of pallas_call 0, at any contents `V` the region is entered from and any shares `q` its two input
  arrays are held at. After the body at point `t` each input's staging buffer holds its block, and the output's holds
  the accumulated row sums: the body's value over the two input blocks and what the point before left, restarted from
  zeros at every eighth point (the output block changes only then, and is written back just before).
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output's staging buffer holds after the body at position `n`: the body's value of the two input blocks
    there and of zeros (a point that resets) or of what position `n - 1` left (any other). -/
def outsAt0 (c : Dev nD) : (n : ℕ) → n < cfg0.N → Vec F S1024x1 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (outsAt0 c n (Nat.lt_of_succ_lt hn))

theorem outsAt0_A (c : Dev nD) (t : Fin cfg0.N) (h0 : t.val % 8 = 0) :
    outsAt0 V c t.val t.isLt = k0_pay2 (iblk0 V c 0 t) (iblk0 V c 1 t) (k0_pay1 (F := F)) := by
  obtain ⟨n, hn⟩ := t
  cases n with
  | zero => exact rfl
  | succ n => exact (if_pos h0).trans rfl

theorem outsAt0_B (c : Dev nD) (t : Fin cfg0.N) (h0 : ¬t.val % 8 = 0) :
    outsAt0 V c t.val t.isLt = k0_pay2 (iblk0 V c 0 t) (iblk0 V c 1 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

variable (q : Fin cfg0.W → PosShare TreeShare)

/-- The proof data: the arrays as the region finds them; the invariant the scoped rest and the generator register,
    untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q := q
  owed _ := 0

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = outsAt0 V c t.val t.isLt := by dsimp only [dat0]

/-- Each input's current staging buffer holds its block at every point, fetched there or not: unfetched, the block
    index has not moved. -/
theorem before0_0 (c : Dev nD) (t : Fin cfg0.N) (d) : (dat0 V q c).before 0 t d = iblk0 V c 0 t :=
  ((dat0 V q c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V q c).before 1 t d = iblk0 V c 1 t :=
  ((dat0 V q c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a point that does not reset, the output's staging buffer holds what the body left at the point before: the
    point is not the first, and the block was not written back in between. -/
theorem before0_2_B (c : Dev nD) (t : Fin cfg0.N) (h0 : ¬t.val % 8 = 0) (d) :
    (dat0 V q c).before 2 t d = outsAt0 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

set_option maxHeartbeats 1600000 in
/-- The body at any point: the inputs' buffers hold their blocks; the point either resets (the output's buffer may
    hold anything) or carries on from what the point before left. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  by_cases h0 : t.val % 8 = 0
  · rw [outsAt0_A V c t h0]
    iintro ⟨HΦ, Ho, ⟨%d0, H0⟩, ⟨%d1, H1⟩, ⟨%d2, H2⟩⟩
    iapply (sound_kernel0_A c Set.univ (grid0.coords t) _ _ _ _ _ _ ((hcond0 t).mpr h0) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt0_B V c t h0]
    simp only [before0_2_B V q c t h0]
    iintro ⟨HΦ, Ho, ⟨%d0, H0⟩, ⟨%d1, H1⟩, ⟨%d2, H2⟩⟩
    iapply (sound_kernel0_B c Set.univ (grid0.coords t) _ _ _ _ _ _ (fun h => h0 ((hcond0 t).mp h)) (iblk0 V c 0 t) (iblk0 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Region0

end Cert.Kernel.Hand

end
-- ==== Proof.Bits.Body1.lean ====
/-
  The kernel body of pallas_call 1, run once per control case. The body reads its two input blocks whole, and its
  output block is one whole-buffer store: at a point whose column-tile coordinate is zero the block is first reset to
  zeros, so the value stored is the row sums added to zeros; at any other point it is the row sums added to what the
  block held.
-/
import proofs.«168475_j46866683134277_1_alg».proof.Proof.Base
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

/-- The body's one conditional: the column-tile coordinate is zero. -/
abbrev cond1 (i : grid1.Coords) : Prop :=
  (Scalar.cmpi .ne (Scalar.extui (Scalar.cmpi .eq (BitVec.ofNat 32 (i 1).val) 0#32)) 0#32) = 1#1

/-- It holds exactly at the first of every eight consecutive points (the column tile runs fastest). -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 4000000 in
/-- At a point that resets: the output block ends at the row sums added to zeros, the inputs as they were. -/
theorem sound_kernel1_A (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : cond1 i)
    (x0 x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 x0 x1 (k1_pay1 (F := F)))) -∗ K ⟨⟩))
      ⊢ wp frame (wpE (defs₀ (F := F)) Variants.none c none) E (cc1__mmd_partial_kernel i arg2 harg2 arg3 harg3 arg4 harg4) K := by
  simp only [cc1__mmd_partial_kernel_eq_skeleton]; unfold cc1__mmd_partial_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2,
    View.readCov_unit_zero (S := S1024x1) _ hz2]

set_option maxHeartbeats 4000000 in
/-- At any other point: the output block ends at the row sums added to what it held, the inputs as they were. -/
theorem sound_kernel1_B (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : ¬cond1 i)
    (x0 x1 : Vec F S1024x256 .f32) (xo : Vec F S1024x1 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay2 x0 x1 xo)) -∗ K ⟨⟩))
      ⊢ wp frame (wpE (defs₀ (F := F)) Variants.none c none) E (cc1__mmd_partial_kernel i arg2 harg2 arg3 harg3 arg4 harg4) K := by
  simp only [cc1__mmd_partial_kernel_eq_skeleton]; unfold cc1__mmd_partial_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2]

end Cert.Kernel.Hand

end
-- ==== Proof.Bits.Data1.lean ====
/-
  The proof data of pallas_call 1, at any contents `V` the region is entered from and any shares `q` its two input
  arrays are held at. After the body at point `t` each input's staging buffer holds its block, and the output's holds
  the accumulated row sums: the body's value over the two input blocks and what the point before left, restarted from
  zeros at every eighth point (the output block changes only then, and is written back just before).
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output's staging buffer holds after the body at position `n`: the body's value of the two input blocks
    there and of zeros (a point that resets) or of what position `n - 1` left (any other). -/
def outsAt1 (c : Dev nD) : (n : ℕ) → n < cfg1.N → Vec F S1024x1 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (outsAt1 c n (Nat.lt_of_succ_lt hn))

theorem outsAt1_A (c : Dev nD) (t : Fin cfg1.N) (h0 : t.val % 8 = 0) :
    outsAt1 V c t.val t.isLt = k1_pay2 (iblk1 V c 0 t) (iblk1 V c 1 t) (k1_pay1 (F := F)) := by
  obtain ⟨n, hn⟩ := t
  cases n with
  | zero => exact rfl
  | succ n => exact (if_pos h0).trans rfl

theorem outsAt1_B (c : Dev nD) (t : Fin cfg1.N) (h0 : ¬t.val % 8 = 0) :
    outsAt1 V c t.val t.isLt = k1_pay2 (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

variable (q : Fin cfg1.W → PosShare TreeShare)

/-- The proof data: the arrays as the region finds them; the invariant the scoped rest and the generator register,
    untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q := q
  owed _ := 0

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = outsAt1 V c t.val t.isLt := by dsimp only [dat1]

/-- Each input's current staging buffer holds its block at every point, fetched there or not: unfetched, the block
    index has not moved. -/
theorem before1_0 (c : Dev nD) (t : Fin cfg1.N) (d) : (dat1 V q c).before 0 t d = iblk1 V c 0 t :=
  ((dat1 V q c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V q c).before 1 t d = iblk1 V c 1 t :=
  ((dat1 V q c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- At a point that does not reset, the output's staging buffer holds what the body left at the point before: the
    point is not the first, and the block was not written back in between. -/
theorem before1_2_B (c : Dev nD) (t : Fin cfg1.N) (h0 : ¬t.val % 8 = 0) (d) :
    (dat1 V q c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

set_option maxHeartbeats 1600000 in
/-- The body at any point: the inputs' buffers hold their blocks; the point either resets (the output's buffer may
    hold anything) or carries on from what the point before left. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  by_cases h0 : t.val % 8 = 0
  · rw [outsAt1_A V c t h0]
    iintro ⟨HΦ, Ho, ⟨%d0, H0⟩, ⟨%d1, H1⟩, ⟨%d2, H2⟩⟩
    iapply (sound_kernel1_A c Set.univ (grid1.coords t) _ _ _ _ _ _ ((hcond1 t).mpr h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_2_B V q c t h0]
    iintro ⟨HΦ, Ho, ⟨%d0, H0⟩, ⟨%d1, H1⟩, ⟨%d2, H2⟩⟩
    iapply (sound_kernel1_B c Set.univ (grid1.coords t) _ _ _ _ _ _ (fun h => h0 ((hcond1 t).mp h)) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Region1

end Cert.Kernel.Hand

end
-- ==== Proof.Bits.Body2.lean ====
/-
  The kernel body of pallas_call 2, run once per control case. The body reads its two input blocks whole, and its
  output block is one whole-buffer store: at a point whose column-tile coordinate is zero the block is first reset to
  zeros, so the value stored is the row sums added to zeros; at any other point it is the row sums added to what the
  block held.
-/
import proofs.«168475_j46866683134277_1_alg».proof.Proof.Base
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

/-- The body's one conditional: the column-tile coordinate is zero. -/
abbrev cond2 (i : grid2.Coords) : Prop :=
  (Scalar.cmpi .ne (Scalar.extui (Scalar.cmpi .eq (BitVec.ofNat 32 (i 1).val) 0#32)) 0#32) = 1#1

/-- It holds exactly at the first of every eight consecutive points (the column tile runs fastest). -/
theorem hcond2 : ∀ t : Fin cfg2.N, cond2 (grid2.coords t) ↔ t.val % 8 = 0 :=
  (by decide +kernel : ∀ t : Fin grid2.N, cond2 (grid2.coords t) ↔ t.val % 8 = 0)

set_option maxHeartbeats 4000000 in
/-- At a point that resets: the output block ends at the row sums added to zeros, the inputs as they were. -/
theorem sound_kernel2_A (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : cond2 i)
    (x0 x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k2_pay2 x0 x1 (k2_pay1 (F := F)))) -∗ K ⟨⟩))
      ⊢ wp frame (wpE (defs₀ (F := F)) Variants.none c none) E (cc2__mmd_partial_kernel i arg2 harg2 arg3 harg3 arg4 harg4) K := by
  simp only [cc2__mmd_partial_kernel_eq_skeleton]; unfold cc2__mmd_partial_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2,
    View.readCov_unit_zero (S := S1024x1) _ hz2]

set_option maxHeartbeats 4000000 in
/-- At any other point: the output block ends at the row sums added to what it held, the inputs as they were. -/
theorem sound_kernel2_B (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : ¬cond2 i)
    (x0 x1 : Vec F S1024x256 .f32) (xo : Vec F S1024x1 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k2_pay2 x0 x1 xo)) -∗ K ⟨⟩))
      ⊢ wp frame (wpE (defs₀ (F := F)) Variants.none c none) E (cc2__mmd_partial_kernel i arg2 harg2 arg3 harg3 arg4 harg4) K := by
  simp only [cc2__mmd_partial_kernel_eq_skeleton]; unfold cc2__mmd_partial_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2]

end Cert.Kernel.Hand

end
-- ==== Proof.Bits.Data2.lean ====
/-
  The proof data of pallas_call 2, at any contents `V` the region is entered from and any shares `q` its two input
  arrays are held at. After the body at point `t` each input's staging buffer holds its block, and the output's holds
  the accumulated row sums: the body's value over the two input blocks and what the point before left, restarted from
  zeros at every eighth point (the output block changes only then, and is written back just before).
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output's staging buffer holds after the body at position `n`: the body's value of the two input blocks
    there and of zeros (a point that resets) or of what position `n - 1` left (any other). -/
def outsAt2 (c : Dev nD) : (n : ℕ) → n < cfg2.N → Vec F S1024x1 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (outsAt2 c n (Nat.lt_of_succ_lt hn))

theorem outsAt2_A (c : Dev nD) (t : Fin cfg2.N) (h0 : t.val % 8 = 0) :
    outsAt2 V c t.val t.isLt = k2_pay2 (iblk2 V c 0 t) (iblk2 V c 1 t) (k2_pay1 (F := F)) := by
  obtain ⟨n, hn⟩ := t
  cases n with
  | zero => exact rfl
  | succ n => exact (if_pos h0).trans rfl

theorem outsAt2_B (c : Dev nD) (t : Fin cfg2.N) (h0 : ¬t.val % 8 = 0) :
    outsAt2 V c t.val t.isLt = k2_pay2 (iblk2 V c 0 t) (iblk2 V c 1 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

variable (q : Fin cfg2.W → PosShare TreeShare)

/-- The proof data: the arrays as the region finds them; the invariant the scoped rest and the generator register,
    untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q := q
  owed _ := 0

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = outsAt2 V c t.val t.isLt := by dsimp only [dat2]

/-- Each input's current staging buffer holds its block at every point, fetched there or not: unfetched, the block
    index has not moved. -/
theorem before2_0 (c : Dev nD) (t : Fin cfg2.N) (d) : (dat2 V q c).before 0 t d = iblk2 V c 0 t :=
  ((dat2 V q c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V q c).before 1 t d = iblk2 V c 1 t :=
  ((dat2 V q c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- At a point that does not reset, the output's staging buffer holds what the body left at the point before: the
    point is not the first, and the block was not written back in between. -/
theorem before2_2_B (c : Dev nD) (t : Fin cfg2.N) (h0 : ¬t.val % 8 = 0) (d) :
    (dat2 V q c).before 2 t d = outsAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

set_option maxHeartbeats 1600000 in
/-- The body at any point: the inputs' buffers hold their blocks; the point either resets (the output's buffer may
    hold anything) or carries on from what the point before left. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  by_cases h0 : t.val % 8 = 0
  · rw [outsAt2_A V c t h0]
    iintro ⟨HΦ, Ho, ⟨%d0, H0⟩, ⟨%d1, H1⟩, ⟨%d2, H2⟩⟩
    iapply (sound_kernel2_A c Set.univ (grid2.coords t) _ _ _ _ _ _ ((hcond2 t).mpr h0) (iblk2 V c 0 t) (iblk2 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt2_B V c t h0]
    simp only [before2_2_B V q c t h0]
    iintro ⟨HΦ, Ho, ⟨%d0, H0⟩, ⟨%d1, H1⟩, ⟨%d2, H2⟩⟩
    iapply (sound_kernel2_B c Set.univ (grid2.coords t) _ _ _ _ _ _ (fun h => h0 ((hcond2 t).mp h)) (iblk2 V c 0 t) (iblk2 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation2 (c : Dev nD) : BodyObligation (dat2 (F := F) V q c) (defs₀ (F := F)) Variants.none () Set.univ := fun t => by
  rw [bigSep_W2, bigSep_W2]
  exact sound_body2 V q c t

end Region2

end Cert.Kernel.Hand

end
-- ==== Proof.Bits.Family.lean ====
/-
  The buffers' contents at every boundary of @main, and every pipeline's proof data at its region's entry contents.
  @main is three kernel regions, each followed by a stretch of host operations. A region changes one array only, its
  output's, which it leaves at what the pipeline's write-backs make of it; a host stretch leaves what its operations
  compute. The first two regions read ONE array through both input windows, held by halves; the third reads two.
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Data0
import proofs.«168475_j46866683134277_1_alg».proof.Proof.Bits.Data1
import proofs.«168475_j46866683134277_1_alg».proof.Proof.Bits.Data2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares of a region whose two input windows read one array: a half each; the output's is not consulted. -/
abbrev qHalf : Fin 3 → PosShare TreeShare := fun w => match w with
  | ⟨0, _⟩ => fullShare.left
  | ⟨1, _⟩ => fullShare.right
  | ⟨2, _⟩ => fullShare
/-- The shares of a region whose input windows read distinct arrays. -/
abbrev qFull : Fin 3 → PosShare TreeShare := fun _ => fullShare

/-! ## The contents at each boundary -/

/-- Core `c`'s buffers at launch: region 0's entry. -/
abbrev Win0 : Dev nD → Valuation τ sig (Elt F) := fun c b => (s₀ m ρ).mem ((c : Dev nD), b)
abbrev Vin0 : (c : Dev nD) → (b : Ref sig .tc) → Buf (Elt F) ((c : Thread nD τ).loc b) := fun c b => Win0 m ρ c b
/-- At region 0's exit: its output array at what the write-backs leave, every other buffer as entered. -/
def Wout0 (c : Dev nD) : Valuation τ sig (Elt F) :=
  Function.update (Win0 m ρ c) (Proc.devRef .tc main_v0) ((dat0 (Vin0 m ρ) qHalf c).arrAt 2 cfg0.N)
abbrev Vout0 : (c : Dev nD) → (b : Ref sig .tc) → Buf (Elt F) ((c : Thread nD τ).loc b) := fun c b => Wout0 m ρ c b
/-- After the first host stretch: region 1's entry. -/
abbrev Win1 : Dev nD → Valuation τ sig (Elt F) := fun c => StableHlo.after hostOps1 (Wout0 m ρ c)
abbrev Vin1 : (c : Dev nD) → (b : Ref sig .tc) → Buf (Elt F) ((c : Thread nD τ).loc b) := fun c b => Win1 m ρ c b
/-- At region 1's exit. -/
def Wout1 (c : Dev nD) : Valuation τ sig (Elt F) :=
  Function.update (Win1 m ρ c) (Proc.devRef .tc main_v3) ((dat1 (Vin1 m ρ) qHalf c).arrAt 2 cfg1.N)
abbrev Vout1 : (c : Dev nD) → (b : Ref sig .tc) → Buf (Elt F) ((c : Thread nD τ).loc b) := fun c b => Wout1 m ρ c b
/-- After the second host stretch: region 2's entry. -/
abbrev Win2 : Dev nD → Valuation τ sig (Elt F) := fun c => StableHlo.after hostOps2 (Wout1 m ρ c)
abbrev Vin2 : (c : Dev nD) → (b : Ref sig .tc) → Buf (Elt F) ((c : Thread nD τ).loc b) := fun c b => Win2 m ρ c b
/-- At region 2's exit. -/
def Wout2 (c : Dev nD) : Valuation τ sig (Elt F) :=
  Function.update (Win2 m ρ c) (Proc.devRef .tc main_v7) ((dat2 (Vin2 m ρ) qFull c).arrAt 2 cfg2.N)
abbrev Vout2 : (c : Dev nD) → (b : Ref sig .tc) → Buf (Elt F) ((c : Thread nD τ).loc b) := fun c b => Wout2 m ρ c b
/-- After the last host stretch: what @main returns from. -/
abbrev Wend : Dev nD → Valuation τ sig (Elt F) := fun c => StableHlo.after hostOps3 (Wout2 m ρ c)

/-! ## What a region's exit contents hold -/

theorem Wout0_out (c : Dev nD) : Wout0 m ρ c (Proc.devRef .tc main_v0) = (dat0 (Vin0 m ρ) qHalf c).arrAt 2 cfg0.N := by
  unfold Wout0; exact Function.update_self _ _ _
theorem Wout0_of_ne (c : Dev nD) (b : Ref sig .tc) (hb : b ≠ main_v0) : Wout0 m ρ c (Proc.devRef .tc b) = Win0 m ρ c (Proc.devRef .tc b) := by
  unfold Wout0; exact Function.update_of_ne (StableHlo.devRef_ne_of_ne hb) _ _
theorem Wout1_out (c : Dev nD) : Wout1 m ρ c (Proc.devRef .tc main_v3) = (dat1 (Vin1 m ρ) qHalf c).arrAt 2 cfg1.N := by
  unfold Wout1; exact Function.update_self _ _ _
theorem Wout1_of_ne (c : Dev nD) (b : Ref sig .tc) (hb : b ≠ main_v3) : Wout1 m ρ c (Proc.devRef .tc b) = Win1 m ρ c (Proc.devRef .tc b) := by
  unfold Wout1; exact Function.update_of_ne (StableHlo.devRef_ne_of_ne hb) _ _
theorem Wout2_out (c : Dev nD) : Wout2 m ρ c (Proc.devRef .tc main_v7) = (dat2 (Vin2 m ρ) qFull c).arrAt 2 cfg2.N := by
  unfold Wout2; exact Function.update_self _ _ _
theorem Wout2_of_ne (c : Dev nD) (b : Ref sig .tc) (hb : b ≠ main_v7) : Wout2 m ρ c (Proc.devRef .tc b) = Win2 m ρ c (Proc.devRef .tc b) := by
  unfold Wout2; exact Function.update_of_ne (StableHlo.devRef_ne_of_ne hb) _ _

/-- At region 0's exit each of its arrays holds what the pipeline leaves: an input array is never written, so it
    holds its entry contents, which the exit contents keep; the output array is the one updated. -/
theorem hF0 (c : Dev nD) (w : Fin cfg0.W) : (dat0 (Vin0 m ρ) qHalf c).arrAt w cfg0.N = Vout0 m ρ c (Pipeline.arrRef spec0 w) := by
  match w with
  | ⟨0, _⟩ => exact (((dat0 (Vin0 m ρ) qHalf c).arrAt_in 0 rfl _).trans (A_eq0 (Vin0 m ρ) qHalf c 0)).trans (Wout0_of_ne m ρ c _ (by decide)).symm
  | ⟨1, _⟩ => exact (((dat0 (Vin0 m ρ) qHalf c).arrAt_in 1 rfl _).trans (A_eq0 (Vin0 m ρ) qHalf c 1)).trans (Wout0_of_ne m ρ c _ (by decide)).symm
  | ⟨2, _⟩ => exact (Wout0_out m ρ c).symm
/-- Every other buffer holds what it held at entry. -/
theorem hrest0 (c : Dev nD) : ∀ b, b ∉ Finset.univ.image (Pipeline.arrRef spec0) → Vout0 m ρ c b = Vin0 m ρ c b :=
  fun b hb => Wout0_of_ne m ρ c b fun e => hb (Finset.mem_image.mpr ⟨2, Finset.mem_univ _, e.symm⟩)

theorem hF1 (c : Dev nD) (w : Fin cfg1.W) : (dat1 (Vin1 m ρ) qHalf c).arrAt w cfg1.N = Vout1 m ρ c (Pipeline.arrRef spec1 w) := by
  match w with
  | ⟨0, _⟩ => exact (((dat1 (Vin1 m ρ) qHalf c).arrAt_in 0 rfl _).trans (A_eq1 (Vin1 m ρ) qHalf c 0)).trans (Wout1_of_ne m ρ c _ (by decide)).symm
  | ⟨1, _⟩ => exact (((dat1 (Vin1 m ρ) qHalf c).arrAt_in 1 rfl _).trans (A_eq1 (Vin1 m ρ) qHalf c 1)).trans (Wout1_of_ne m ρ c _ (by decide)).symm
  | ⟨2, _⟩ => exact (Wout1_out m ρ c).symm
theorem hrest1 (c : Dev nD) : ∀ b, b ∉ Finset.univ.image (Pipeline.arrRef spec1) → Vout1 m ρ c b = Vin1 m ρ c b :=
  fun b hb => Wout1_of_ne m ρ c b fun e => hb (Finset.mem_image.mpr ⟨2, Finset.mem_univ _, e.symm⟩)

theorem hF2 (c : Dev nD) (w : Fin cfg2.W) : (dat2 (Vin2 m ρ) qFull c).arrAt w cfg2.N = Vout2 m ρ c (Pipeline.arrRef spec2 w) := by
  match w with
  | ⟨0, _⟩ => exact (((dat2 (Vin2 m ρ) qFull c).arrAt_in 0 rfl _).trans (A_eq2 (Vin2 m ρ) qFull c 0)).trans (Wout2_of_ne m ρ c _ (by decide)).symm
  | ⟨1, _⟩ => exact (((dat2 (Vin2 m ρ) qFull c).arrAt_in 1 rfl _).trans (A_eq2 (Vin2 m ρ) qFull c 1)).trans (Wout2_of_ne m ρ c _ (by decide)).symm
  | ⟨2, _⟩ => exact (Wout2_out m ρ c).symm
theorem hrest2 (c : Dev nD) : ∀ b, b ∉ Finset.univ.image (Pipeline.arrRef spec2) → Vout2 m ρ c b = Vin2 m ρ c b :=
  fun b hb => Wout2_of_ne m ρ c b fun e => hb (Finset.mem_image.mpr ⟨2, Finset.mem_univ _, e.symm⟩)

/-! ## The proof data family and what rides beside the buffers -/

/-- The three pipelines, in @main's order. -/
abbrev p0 : Fin 3 := 0
abbrev p1 : Fin 3 := 1
abbrev p2 : Fin 3 := 2

/-- The prefetched tables' admissible contents: no pipeline has a table. -/
abbrev adm : (p : Fin 3) → (pcfgs (F := F) p).Adm := fun p => (cfgs p).toPCfg_adm
/-- Every pipeline's proof data, each at its region's entry contents: a literal match, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (Vin0 m ρ) qHalf c
  | ⟨1, _⟩ => fun c => dat1 (Vin1 m ρ) qHalf c
  | ⟨2, _⟩ => fun c => dat2 (Vin2 m ρ) qFull c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, none. -/
abbrev R (c : Dev nD) : sProp 𝕄 := iprop((∃ r, prngReg c r) ∗ ∃ W, owes (c : Thread nD τ) (0 : CellTallies nD τ sig Unit) W)

end Cert.Kernel.Hand

end
-- ==== Proof.Bits.Share0.lean ====
/-
  A pallas_call whose two input windows read ONE array. The core's unscoped buffers, each whole at the full share,
  split into the pipeline's arrays — the shared input array at its two half shares, one per window, the output array
  at the full share — beside every other unscoped buffer; and the same pieces, the two halves holding the same
  contents, join back into the unscoped buffers at any valuation that has the arrays at those contents and agrees
  with the old one elsewhere.
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the three windows' arrays are two: windows 0 and 1 read the same one. -/
private theorem image0 : Finset.univ.image (Pipeline.arrRef spec0) = {Pipeline.arrRef spec0 0, Pipeline.arrRef spec0 2} := by decide

private theorem ne0 : Pipeline.arrRef spec0 0 ≠ Pipeline.arrRef spec0 2 := by decide

/-- The distinct buffers behind the arrays, one by one. -/
private theorem arrBufs0_eq (c : Dev nD) (V : (b : Ref sig .tc) → Buf (Elt F) ((c : Thread nD τ).loc b)) :
    (Pipeline.arrBufs spec0 c V : sProp 𝕄)
      = iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))) := by
  unfold Pipeline.arrBufs
  rw [image0, bigSep_insert (by simpa using ne0), bigSep_singleton]
  rfl

/-- The pipeline's arrays, one by one: every array a whole buffer, the two input windows at the two halves of the
    full share, the output window at the full share. -/
private theorem arrays0_eq (c : Dev nD) (dat : Dat τ (Elt F) Unit ℕ (UR sig nD τ) ℕ cfg0 c)
    (hq0 : dat.q 0 = fullShare.left) (hq1 : dat.q 1 = fullShare.right)
    (F₀ : (w : Fin cfg0.W) → Buf (Elt F) ((cfg0.win w).arr.view.loc (c : Thread nD τ))) :
    (dat.arrays F₀ : sProp 𝕄)
      = iprop((((c : Thread nD τ).loc (Pipeline.arrRef spec0 0)) ↦{fullShare.left} F₀ 0)
          ∗ (((c : Thread nD τ).loc (Pipeline.arrRef spec0 1)) ↦{fullShare.right} F₀ 1)
          ∗ (((c : Thread nD τ).loc (Pipeline.arrRef spec0 2)) ↦{fullShare} F₀ 2)) := by
  have hs0 : dat.share 0 = fullShare.left := by
    show (if (cfg0.win 0).isOut = true then fullShare else dat.q 0) = _
    rw [if_neg (show ¬ (cfg0.win 0).isOut = true by decide), hq0]
  have hs1 : dat.share 1 = fullShare.right := by
    show (if (cfg0.win 1).isOut = true then fullShare else dat.q 1) = _
    rw [if_neg (show ¬ (cfg0.win 1).isOut = true by decide), hq1]
  have hs2 : dat.share 2 = fullShare := by
    show (if (cfg0.win 2).isOut = true then fullShare else dat.q 2) = _
    rw [if_pos (show (cfg0.win 2).isOut = true by decide)]
  have hw : (dat.arrays F₀ : sProp 𝕄)
      = bigSep Finset.univ fun w : Fin 3 => (((c : Thread nD τ).loc (Pipeline.arrRef spec0 w)) ↦{dat.share w} F₀ w : sProp 𝕄) := by
    unfold Dat.arrays
    exact bigSep_congr fun w _ => by rw [(arr_whole0 w).set_eq_univ]
  rw [hw, bigSep_W0, hs0, hs1, hs2]

/-- JOIN. The two halves of the shared array at the same contents, and the output array, are the buffers behind
    the arrays, each whole at the full share. -/
private theorem arrBufs_of_arrays0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (F₀ : (w : Fin cfg0.W) → Buf (Elt F) ((cfg0.win w).arr.view.loc (c : Thread nD τ)))
    (hF : ∀ w, F₀ w = V (Pipeline.arrRef spec0 w)) :
    (dat.arrays F₀ : sProp 𝕄) ⊢ Pipeline.arrBufs spec0 c V := by
  rw [arrays0_eq c dat hq0 hq1, arrBufs0_eq, hF 0, hF 1, hF 2]
  show iprop((((c : Thread nD τ).loc (Pipeline.arrRef spec0 0)) ↦{fullShare.left} V (Pipeline.arrRef spec0 0))
          ∗ (((c : Thread nD τ).loc (Pipeline.arrRef spec0 0)) ↦{fullShare.right} V (Pipeline.arrRef spec0 0))
          ∗ (((c : Thread nD τ).loc (Pipeline.arrRef spec0 2)) ↦{fullShare} V (Pipeline.arrRef spec0 2)))
      ⊢ (iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))) : sProp 𝕄)
  iintro ⟨Hl, Hr, Ho⟩
  isplitr [Ho]
  · iapply (pointsTo_share (PosShare.mem_left_op_right fullShare)).2
    isplitl [Hl] <;> iassumption
  · iexact Ho

/-- SPLIT. The buffers behind the arrays, each whole at the full share, are the pipeline's arrays at the same
    contents: the shared array's full share is dealt to its two windows by halves. -/
private theorem arrays_of_arrBufs0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (F₀ : (w : Fin cfg0.W) → Buf (Elt F) ((cfg0.win w).arr.view.loc (c : Thread nD τ)))
    (hF : ∀ w, F₀ w = V (Pipeline.arrRef spec0 w)) :
    (Pipeline.arrBufs spec0 c V : sProp 𝕄) ⊢ dat.arrays F₀ := by
  rw [arrays0_eq c dat hq0 hq1, arrBufs0_eq, hF 0, hF 1, hF 2]
  show (iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))) : sProp 𝕄)
      ⊢ iprop((((c : Thread nD τ).loc (Pipeline.arrRef spec0 0)) ↦{fullShare.left} V (Pipeline.arrRef spec0 0))
          ∗ (((c : Thread nD τ).loc (Pipeline.arrRef spec0 0)) ↦{fullShare.right} V (Pipeline.arrRef spec0 0))
          ∗ (((c : Thread nD τ).loc (Pipeline.arrRef spec0 2)) ↦{fullShare} V (Pipeline.arrRef spec0 2)))
  iintro ⟨Hi, Ho⟩
  ihave H := (pointsTo_share (PosShare.mem_left_op_right fullShare)).1 $$ Hi
  icases H with ⟨Hl, Hr⟩
  isplitl [Hl]; · iexact Hl
  isplitl [Hr]; · iexact Hr
  iexact Ho

/-- ENTRY. The unscoped buffers at `V` are the pipeline's arrays at the proof data's entry contents, the shared input
    array dealt to its two windows by halves, and the unscoped rest. -/
theorem arrays_of_unscopedBufs0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (hA : ∀ w, dat.A w = V (Pipeline.arrRef spec0 w)) :
    (unscopedBufs c V : sProp 𝕄) ⊢ iprop(dat.arrays dat.A ∗ Pipeline.unscopedRest spec0 c V) := by
  rw [Pipeline.PerCore.unscopedBufs_split₀ (fun (_ : Dev nD) (_ : Unit) => cfg0) () c winFacts₀0.arr_unscoped
    (Ix := Unit) (Name := ℕ) (U := UR sig nD τ) (Lvl := ℕ) V]
  iintro ⟨Ha, Hrest⟩
  isplitl [Ha]
  · iapply (arrays_of_arrBufs0 c dat hq0 hq1 V dat.A hA); iexact Ha
  · iexact Hrest

/-- EXIT. The pipeline's arrays at contents `F₀` — the two windows on the shared array then hold the same contents —
    and the unscoped rest at `V` are the unscoped buffers at any `V'` that has the arrays at `F₀` and agrees with `V`
    off them. -/
theorem unscopedBufs_of_arrays0 (c : Dev nD) (dat : Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (F₀ : (w : Fin cfg0.W) → Buf (Elt F) ((cfg0.win w).arr.view.loc (c : Thread nD τ)))
    (hF : ∀ w, F₀ w = V' (Pipeline.arrRef spec0 w))
    (hrest : ∀ b, b ∉ Finset.univ.image (Pipeline.arrRef spec0) → V' b = V b) :
    iprop(dat.arrays F₀ ∗ Pipeline.unscopedRest spec0 c V) ⊢ (unscopedBufs c V' : sProp 𝕄) := by
  have hR : (Pipeline.unscopedRest spec0 c V : sProp 𝕄) = Pipeline.unscopedRest spec0 c V' := by
    unfold Pipeline.unscopedRest
    exact bigSep_congr fun b hb => by rw [hrest b (Finset.mem_sdiff.mp hb).2]
  rw [Pipeline.PerCore.unscopedBufs_split₀ (fun (_ : Dev nD) (_ : Unit) => cfg0) () c winFacts₀0.arr_unscoped
    (Ix := Unit) (Name := ℕ) (U := UR sig nD τ) (Lvl := ℕ) V', hR]
  iintro ⟨Ha, Hrest⟩
  isplitl [Ha]
  · iapply (arrBufs_of_arrays0 c dat hq0 hq1 V' F₀ hF); iexact Ha
  · iexact Hrest

end Cert.Kernel.Hand

end
-- ==== Proof.Bits.Seg0.lean ====
/-
  The kernel region of pallas_call 0 of @main as a segment over the thread state "every unscoped buffer at the boundary's
  contents, the generator register at some state, nothing owed". Entered from the buffers at `Win0`, left at
  `Wout0`. Its arrays are split out of the unscoped buffers at entry, the array both input windows read dealt to them
  by halves, and put back at exit at the contents the pipeline leaves; the generator register goes into the region
  invariant and comes back; the kernel has no semaphore of its own and owes nothing.
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Family
import proofs.«168475_j46866683134277_1_alg».proof.Proof.Bits.Share0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv p0 where
  win := winFacts₀0
  block_pos := block_pos0
  stage_whole := stage_whole0
  K := PEmpty
  osem k := k.elim
  ho := Pipeline.OwnSemFacts.none _
  hbody c := (body_obligation0 (Vin0 m ρ) qHalf c).loose
  hwaits := Pipeline.hwaits_of_owed_zero _ _ _ _ L lv p0 fun _ _ => rfl
  pre c := iprop(StableHlo.held (c : Thread nD τ) (Pipeline.ucRefs τ sig) (Win0 m ρ c) ∗ R c)
  post c := iprop(StableHlo.held (c : Thread nD τ) (Pipeline.ucRefs τ sig) (Wout0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := arrays_of_unscopedBufs0 c (pdats m ρ p0 c) rfl rfl (Vin0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ p0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ p0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 c (pdats m ρ p0 c) rfl rfl (Vin0 m ρ c) (Vout0 m ρ c)
      ((pdats m ρ p0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Share1.lean ====
/-
  A pallas_call whose two input windows read ONE array. The core's unscoped buffers, each whole at the full share,
  split into the pipeline's arrays — the shared input array at its two half shares, one per window, the output array
  at the full share — beside every other unscoped buffer; and the same pieces, the two halves holding the same
  contents, join back into the unscoped buffers at any valuation that has the arrays at those contents and agrees
  with the old one elsewhere.
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the three windows' arrays are two: windows 0 and 1 read the same one. -/
private theorem image0 : Finset.univ.image (Pipeline.arrRef spec1) = {Pipeline.arrRef spec1 0, Pipeline.arrRef spec1 2} := by decide

private theorem ne0 : Pipeline.arrRef spec1 0 ≠ Pipeline.arrRef spec1 2 := by decide

/-- The distinct buffers behind the arrays, one by one. -/
private theorem arrBufs0_eq (c : Dev nD) (V : (b : Ref sig .tc) → Buf (Elt F) ((c : Thread nD τ).loc b)) :
    (Pipeline.arrBufs spec1 c V : sProp 𝕄)
      = iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))) := by
  unfold Pipeline.arrBufs
  rw [image0, bigSep_insert (by simpa using ne0), bigSep_singleton]
  rfl

/-- The pipeline's arrays, one by one: every array a whole buffer, the two input windows at the two halves of the
    full share, the output window at the full share. -/
private theorem arrays0_eq (c : Dev nD) (dat : Dat τ (Elt F) Unit ℕ (UR sig nD τ) ℕ cfg1 c)
    (hq0 : dat.q 0 = fullShare.left) (hq1 : dat.q 1 = fullShare.right)
    (F₀ : (w : Fin cfg1.W) → Buf (Elt F) ((cfg1.win w).arr.view.loc (c : Thread nD τ))) :
    (dat.arrays F₀ : sProp 𝕄)
      = iprop((((c : Thread nD τ).loc (Pipeline.arrRef spec1 0)) ↦{fullShare.left} F₀ 0)
          ∗ (((c : Thread nD τ).loc (Pipeline.arrRef spec1 1)) ↦{fullShare.right} F₀ 1)
          ∗ (((c : Thread nD τ).loc (Pipeline.arrRef spec1 2)) ↦{fullShare} F₀ 2)) := by
  have hs0 : dat.share 0 = fullShare.left := by
    show (if (cfg1.win 0).isOut = true then fullShare else dat.q 0) = _
    rw [if_neg (show ¬ (cfg1.win 0).isOut = true by decide), hq0]
  have hs1 : dat.share 1 = fullShare.right := by
    show (if (cfg1.win 1).isOut = true then fullShare else dat.q 1) = _
    rw [if_neg (show ¬ (cfg1.win 1).isOut = true by decide), hq1]
  have hs2 : dat.share 2 = fullShare := by
    show (if (cfg1.win 2).isOut = true then fullShare else dat.q 2) = _
    rw [if_pos (show (cfg1.win 2).isOut = true by decide)]
  have hw : (dat.arrays F₀ : sProp 𝕄)
      = bigSep Finset.univ fun w : Fin 3 => (((c : Thread nD τ).loc (Pipeline.arrRef spec1 w)) ↦{dat.share w} F₀ w : sProp 𝕄) := by
    unfold Dat.arrays
    exact bigSep_congr fun w _ => by rw [(arr_whole1 w).set_eq_univ]
  rw [hw, bigSep_W1, hs0, hs1, hs2]

/-- JOIN. The two halves of the shared array at the same contents, and the output array, are the buffers behind
    the arrays, each whole at the full share. -/
private theorem arrBufs_of_arrays0 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (F₀ : (w : Fin cfg1.W) → Buf (Elt F) ((cfg1.win w).arr.view.loc (c : Thread nD τ)))
    (hF : ∀ w, F₀ w = V (Pipeline.arrRef spec1 w)) :
    (dat.arrays F₀ : sProp 𝕄) ⊢ Pipeline.arrBufs spec1 c V := by
  rw [arrays0_eq c dat hq0 hq1, arrBufs0_eq, hF 0, hF 1, hF 2]
  show iprop((((c : Thread nD τ).loc (Pipeline.arrRef spec1 0)) ↦{fullShare.left} V (Pipeline.arrRef spec1 0))
          ∗ (((c : Thread nD τ).loc (Pipeline.arrRef spec1 0)) ↦{fullShare.right} V (Pipeline.arrRef spec1 0))
          ∗ (((c : Thread nD τ).loc (Pipeline.arrRef spec1 2)) ↦{fullShare} V (Pipeline.arrRef spec1 2)))
      ⊢ (iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))) : sProp 𝕄)
  iintro ⟨Hl, Hr, Ho⟩
  isplitr [Ho]
  · iapply (pointsTo_share (PosShare.mem_left_op_right fullShare)).2
    isplitl [Hl] <;> iassumption
  · iexact Ho

/-- SPLIT. The buffers behind the arrays, each whole at the full share, are the pipeline's arrays at the same
    contents: the shared array's full share is dealt to its two windows by halves. -/
private theorem arrays_of_arrBufs0 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (F₀ : (w : Fin cfg1.W) → Buf (Elt F) ((cfg1.win w).arr.view.loc (c : Thread nD τ)))
    (hF : ∀ w, F₀ w = V (Pipeline.arrRef spec1 w)) :
    (Pipeline.arrBufs spec1 c V : sProp 𝕄) ⊢ dat.arrays F₀ := by
  rw [arrays0_eq c dat hq0 hq1, arrBufs0_eq, hF 0, hF 1, hF 2]
  show (iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))) : sProp 𝕄)
      ⊢ iprop((((c : Thread nD τ).loc (Pipeline.arrRef spec1 0)) ↦{fullShare.left} V (Pipeline.arrRef spec1 0))
          ∗ (((c : Thread nD τ).loc (Pipeline.arrRef spec1 0)) ↦{fullShare.right} V (Pipeline.arrRef spec1 0))
          ∗ (((c : Thread nD τ).loc (Pipeline.arrRef spec1 2)) ↦{fullShare} V (Pipeline.arrRef spec1 2)))
  iintro ⟨Hi, Ho⟩
  ihave H := (pointsTo_share (PosShare.mem_left_op_right fullShare)).1 $$ Hi
  icases H with ⟨Hl, Hr⟩
  isplitl [Hl]; · iexact Hl
  isplitl [Hr]; · iexact Hr
  iexact Ho

/-- ENTRY. The unscoped buffers at `V` are the pipeline's arrays at the proof data's entry contents, the shared input
    array dealt to its two windows by halves, and the unscoped rest. -/
theorem arrays_of_unscopedBufs1 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (hA : ∀ w, dat.A w = V (Pipeline.arrRef spec1 w)) :
    (unscopedBufs c V : sProp 𝕄) ⊢ iprop(dat.arrays dat.A ∗ Pipeline.unscopedRest spec1 c V) := by
  rw [Pipeline.PerCore.unscopedBufs_split₀ (fun (_ : Dev nD) (_ : Unit) => cfg1) () c winFacts₀1.arr_unscoped
    (Ix := Unit) (Name := ℕ) (U := UR sig nD τ) (Lvl := ℕ) V]
  iintro ⟨Ha, Hrest⟩
  isplitl [Ha]
  · iapply (arrays_of_arrBufs0 c dat hq0 hq1 V dat.A hA); iexact Ha
  · iexact Hrest

/-- EXIT. The pipeline's arrays at contents `F₀` — the two windows on the shared array then hold the same contents —
    and the unscoped rest at `V` are the unscoped buffers at any `V'` that has the arrays at `F₀` and agrees with `V`
    off them. -/
theorem unscopedBufs_of_arrays1 (c : Dev nD) (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (F₀ : (w : Fin cfg1.W) → Buf (Elt F) ((cfg1.win w).arr.view.loc (c : Thread nD τ)))
    (hF : ∀ w, F₀ w = V' (Pipeline.arrRef spec1 w))
    (hrest : ∀ b, b ∉ Finset.univ.image (Pipeline.arrRef spec1) → V' b = V b) :
    iprop(dat.arrays F₀ ∗ Pipeline.unscopedRest spec1 c V) ⊢ (unscopedBufs c V' : sProp 𝕄) := by
  have hR : (Pipeline.unscopedRest spec1 c V : sProp 𝕄) = Pipeline.unscopedRest spec1 c V' := by
    unfold Pipeline.unscopedRest
    exact bigSep_congr fun b hb => by rw [hrest b (Finset.mem_sdiff.mp hb).2]
  rw [Pipeline.PerCore.unscopedBufs_split₀ (fun (_ : Dev nD) (_ : Unit) => cfg1) () c winFacts₀1.arr_unscoped
    (Ix := Unit) (Name := ℕ) (U := UR sig nD τ) (Lvl := ℕ) V', hR]
  iintro ⟨Ha, Hrest⟩
  isplitl [Ha]
  · iapply (arrBufs_of_arrays0 c dat hq0 hq1 V' F₀ hF); iexact Ha
  · iexact Hrest

end Cert.Kernel.Hand

end
-- ==== Proof.Bits.Seg1.lean ====
/-
  The kernel region of pallas_call 1 of @main as a segment over the thread state "every unscoped buffer at the boundary's
  contents, the generator register at some state, nothing owed". Entered from the buffers at `Win1`, left at
  `Wout1`. Its arrays are split out of the unscoped buffers at entry, the array both input windows read dealt to them
  by halves, and put back at exit at the contents the pipeline leaves; the generator register goes into the region
  invariant and comes back; the kernel has no semaphore of its own and owes nothing.
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Family
import proofs.«168475_j46866683134277_1_alg».proof.Proof.Bits.Share1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv p1 where
  win := winFacts₀1
  block_pos := block_pos1
  stage_whole := stage_whole1
  K := PEmpty
  osem k := k.elim
  ho := Pipeline.OwnSemFacts.none _
  hbody c := (body_obligation1 (Vin1 m ρ) qHalf c).loose
  hwaits := Pipeline.hwaits_of_owed_zero _ _ _ _ L lv p1 fun _ _ => rfl
  pre c := iprop(StableHlo.held (c : Thread nD τ) (Pipeline.ucRefs τ sig) (Win1 m ρ c) ∗ R c)
  post c := iprop(StableHlo.held (c : Thread nD τ) (Pipeline.ucRefs τ sig) (Wout1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := arrays_of_unscopedBufs1 c (pdats m ρ p1 c) rfl rfl (Vin1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ p1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ p1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m ρ p1 c) rfl rfl (Vin1 m ρ c) (Vout1 m ρ c)
      ((pdats m ρ p1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Seg2.lean ====
/-
  The kernel region of pallas_call 2 of @main as a segment over the thread state "every unscoped buffer at the boundary's
  contents, the generator register at some state, nothing owed". Entered from the buffers at `Win2`, left at
  `Wout2`. Its three arrays are distinct buffers, each held at the full share: they are split out of the unscoped
  buffers at entry and put back at exit at the contents the pipeline leaves; the generator register goes into the region
  invariant and comes back; the kernel has no semaphore of its own and owes nothing.
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Family
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv p2 where
  win := launch2.win.to₀
  block_pos := launch2.block_pos
  stage_whole := launch2.stage_whole
  K := PEmpty
  osem k := k.elim
  ho := Pipeline.OwnSemFacts.none _
  hbody c := (body_obligation2 (Vin2 m ρ) qFull c).loose
  hwaits := Pipeline.hwaits_of_owed_zero _ _ _ _ L lv p2 fun _ _ => rfl
  pre c := iprop(StableHlo.held (c : Thread nD τ) (Pipeline.ucRefs τ sig) (Win2 m ρ c) ∗ R c)
  post c := iprop(StableHlo.held (c : Thread nD τ) (Pipeline.ucRefs τ sig) (Wout2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := p2) (pcfgs (F := F)) adm (pdats m ρ) launch2.win launch2.arr_whole c
      ((pdats m ρ p2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ p2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ p2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := p2) (pcfgs (F := F)) adm (Ix := Unit) (Name := ℕ) (U := UR sig nD τ) (Lvl := ℕ)
      launch2.win launch2.arr_whole c (pdats m ρ) ((pdats m ρ p2 c).share_full fun _ => rfl)
      (Vin2 m ρ c) (Vout2 m ρ c) ((pdats m ρ p2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Run.lean ====
/-
  The run of @main. Its six items in order — a kernel region, then a stretch of host operations, three times — are
  the launch theorem's segments, each entered from the thread state the one before it left. Every weakly fair
  execution from any memory with zero counters terminates, nothing faulting, and every final state holds each
  unscoped buffer at the contents the fold through the items gives (`Wend`): in particular the two argument arrays
  as launched (no item writes them), and the result at the host tail's value of the three regions' outputs.
-/
import proofs.«168475_j46866683134277_1_alg».proof.Proof.Gen.Kernel.Launch
import proofs.«168475_j46866683134277_1_alg».proof.Proof.Gen.Kernel.Skeleton
import proofs.«168475_j46866683134277_1_alg».proof.Proof.Gen.Kernel.Points
import proofs.«168475_j46866683134277_1_alg».proof.Proof.Bits.Seg0
import proofs.«168475_j46866683134277_1_alg».proof.Proof.Bits.Seg1
import proofs.«168475_j46866683134277_1_alg».proof.Proof.Bits.Seg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`, `R` riding along: its exit
    state is those references at the stretch's value of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at
    some state. -/
abbrev Tₙ (c : Dev nD) : sProp 𝕄 := iprop(StableHlo.held (c : Thread nD τ) (Pipeline.ucRefs τ sig) (Wend m ρ c) ∗ ∃ r, prngReg c r)

/-- @main's six segments in order. -/
abbrev segs : List (Pipeline.Seg (pcfgs (F := F)) adm (pdats m ρ) () defs₀ 𝒱₀ L lv) :=
  [ .region (reg0 m ρ),
    .host (hseg hostOps1 hostOps1_sub hostOps1_fresh (Wout0 m ρ)),
    .region (reg1 m ρ),
    .host (hseg hostOps2 hostOps2_sub hostOps2_fresh (Wout1 m ρ)),
    .region (reg2 m ρ),
    .host (hseg hostOps3 hostOps3_sub hostOps3_fresh (Wout2 m ρ)) ]

/-- @main IS the run of the segments. -/
theorem main_run (c : Dev nD) : main (F := F) c = Pipeline.Seg.run (segs m ρ) := (main_chain c).trans (by chain_rfl)

set_option backward.isDefEq.respectTransparency.types false in
/-- THE RUN: every final state holds every unscoped buffer at the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Win0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (Wend m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Win0 m ρ c)
        from Pipeline.unscopedBufs_held c (Win0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

/-! ## The arguments end as launched -/

theorem after_hostOps1_main_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps2_main_arg0 (W : Valuation τ sig (Elt F)) :
    StableHlo.after hostOps2 W (Proc.devRef .tc main_arg0) = W (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps3_main_arg0 (W : Valuation τ sig (Elt F)) :
    StableHlo.after hostOps3 W (Proc.devRef .tc main_arg0) = W (Proc.devRef .tc main_arg0) :=
  StableHlo.after_of_forall_not_mem (b := Proc.devRef .tc main_arg0) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps1_main_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps2_main_arg1 (W : Valuation τ sig (Elt F)) :
    StableHlo.after hostOps2 W (Proc.devRef .tc main_arg1) = W (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps3_main_arg1 (W : Valuation τ sig (Elt F)) :
    StableHlo.after hostOps3 W (Proc.devRef .tc main_arg1) = W (Proc.devRef .tc main_arg1) :=
  StableHlo.after_of_forall_not_mem (b := Proc.devRef .tc main_arg1) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))

theorem Wend_main_arg0 (c : Dev nD) : Wend m ρ c (Proc.devRef .tc main_arg0) = m ((c : Thread nD τ).loc main_arg0) :=
  (after_hostOps3_main_arg0 _).trans <| (Wout2_of_ne m ρ c main_arg0 (by decide)).trans <| (after_hostOps2_main_arg0 _).trans <|
    (Wout1_of_ne m ρ c main_arg0 (by decide)).trans <| (after_hostOps1_main_arg0 _).trans <| (Wout0_of_ne m ρ c main_arg0 (by decide)).trans rfl
theorem Wend_main_arg1 (c : Dev nD) : Wend m ρ c (Proc.devRef .tc main_arg1) = m ((c : Thread nD τ).loc main_arg1) :=
  (after_hostOps3_main_arg1 _).trans <| (Wout2_of_ne m ρ c main_arg1 (by decide)).trans <| (after_hostOps2_main_arg1 _).trans <|
    (Wout1_of_ne m ρ c main_arg1 (by decide)).trans <| (after_hostOps1_main_arg1 _).trans <| (Wout0_of_ne m ρ c main_arg1 (by decide)).trans rfl

/-- THE FRAME, at any instance: @main terminates, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Wend_main_arg0 m ρ c),
     (h c _ (mem_uc main_arg1 (by decide))).trans (Wend_main_arg1 m ρ c)⟩) (run_all m ρ)

end Cert.Kernel.Hand

end
-- ==== Proof.Body0.lean ====
/-
  The kernel body of pallas_call 0, run once per control case. The body reads its two input blocks whole, and its
  output block is one whole-buffer store: at a point whose column-tile coordinate is zero the block is first reset to
  zeros, so the value stored is the row sums added to zeros; at any other point it is the row sums added to what the
  block held.
-/
import proofs.«168475_j46866683134277_1_alg».proof.Proof.Base
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

/-- The body's one conditional: the column-tile coordinate is zero. -/
abbrev cond0 (i : grid0.Coords) : Prop :=
  (Scalar.cmpi .ne (Scalar.extui (Scalar.cmpi .eq (BitVec.ofNat 32 (i 1).val) 0#32)) 0#32) = 1#1

/-- It holds exactly at the first of every eight consecutive points (the column tile runs fastest). -/
theorem hcond0 : ∀ t : Fin cfg0.N, cond0 (grid0.coords t) ↔ t.val % 8 = 0 :=
  (by decide +kernel : ∀ t : Fin grid0.N, cond0 (grid0.coords t) ↔ t.val % 8 = 0)

set_option maxHeartbeats 4000000 in
/-- At a point that resets: the output block ends at the row sums added to zeros, the inputs as they were. -/
theorem sound_kernel0_A (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : cond0 i)
    (x0 x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay2 x0 x1 (k0_pay1 (F := F)))) -∗ K ⟨⟩))
      ⊢ wp frame (wpE (defs₀ (F := F)) Variants.none c none) E (cc0__mmd_partial_kernel i arg2 harg2 arg3 harg3 arg4 harg4) K := by
  simp only [cc0__mmd_partial_kernel_eq_skeleton]; unfold cc0__mmd_partial_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2,
    View.readCov_unit_zero (S := S1024x1) _ hz2]

set_option maxHeartbeats 4000000 in
/-- At any other point: the output block ends at the row sums added to what it held, the inputs as they were. -/
theorem sound_kernel0_B (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : ¬cond0 i)
    (x0 x1 : Vec F S1024x256 .f32) (xo : Vec F S1024x1 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k0_pay2 x0 x1 xo)) -∗ K ⟨⟩))
      ⊢ wp frame (wpE (defs₀ (F := F)) Variants.none c none) E (cc0__mmd_partial_kernel i arg2 harg2 arg3 harg3 arg4 harg4) K := by
  simp only [cc0__mmd_partial_kernel_eq_skeleton]; unfold cc0__mmd_partial_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2]

end Cert.KernelIdeal.Hand

end
-- ==== Proof.Data0.lean ====
/-
  The proof data of pallas_call 0, at any contents `V` the region is entered from and any shares `q` its two input
  arrays are held at. After the body at point `t` each input's staging buffer holds its block, and the output's holds
  the accumulated row sums: the body's value over the two input blocks and what the point before left, restarted from
  zeros at every eighth point (the output block changes only then, and is written back just before).
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output's staging buffer holds after the body at position `n`: the body's value of the two input blocks
    there and of zeros (a point that resets) or of what position `n - 1` left (any other). -/
def outsAt0 (c : Dev nD) : (n : ℕ) → n < cfg0.N → Vec F S1024x1 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (outsAt0 c n (Nat.lt_of_succ_lt hn))

theorem outsAt0_A (c : Dev nD) (t : Fin cfg0.N) (h0 : t.val % 8 = 0) :
    outsAt0 V c t.val t.isLt = k0_pay2 (iblk0 V c 0 t) (iblk0 V c 1 t) (k0_pay1 (F := F)) := by
  obtain ⟨n, hn⟩ := t
  cases n with
  | zero => exact rfl
  | succ n => exact (if_pos h0).trans rfl

theorem outsAt0_B (c : Dev nD) (t : Fin cfg0.N) (h0 : ¬t.val % 8 = 0) :
    outsAt0 V c t.val t.isLt = k0_pay2 (iblk0 V c 0 t) (iblk0 V c 1 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

variable (q : Fin cfg0.W → PosShare TreeShare)

/-- The proof data: the arrays as the region finds them; the invariant the scoped rest and the generator register,
    untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q := q
  owed _ := 0

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = outsAt0 V c t.val t.isLt := by dsimp only [dat0]

/-- Each input's current staging buffer holds its block at every point, fetched there or not: unfetched, the block
    index has not moved. -/
theorem before0_0 (c : Dev nD) (t : Fin cfg0.N) (d) : (dat0 V q c).before 0 t d = iblk0 V c 0 t :=
  ((dat0 V q c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V q c).before 1 t d = iblk0 V c 1 t :=
  ((dat0 V q c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a point that does not reset, the output's staging buffer holds what the body left at the point before: the
    point is not the first, and the block was not written back in between. -/
theorem before0_2_B (c : Dev nD) (t : Fin cfg0.N) (h0 : ¬t.val % 8 = 0) (d) :
    (dat0 V q c).before 2 t d = outsAt0 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

set_option maxHeartbeats 1600000 in
/-- The body at any point: the inputs' buffers hold their blocks; the point either resets (the output's buffer may
    hold anything) or carries on from what the point before left. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  by_cases h0 : t.val % 8 = 0
  · rw [outsAt0_A V c t h0]
    iintro ⟨HΦ, Ho, ⟨%d0, H0⟩, ⟨%d1, H1⟩, ⟨%d2, H2⟩⟩
    iapply (sound_kernel0_A c Set.univ (grid0.coords t) _ _ _ _ _ _ ((hcond0 t).mpr h0) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt0_B V c t h0]
    simp only [before0_2_B V q c t h0]
    iintro ⟨HΦ, Ho, ⟨%d0, H0⟩, ⟨%d1, H1⟩, ⟨%d2, H2⟩⟩
    iapply (sound_kernel0_B c Set.univ (grid0.coords t) _ _ _ _ _ _ (fun h => h0 ((hcond0 t).mp h)) (iblk0 V c 0 t) (iblk0 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Region0

end Cert.KernelIdeal.Hand

end
-- ==== Proof.Body1.lean ====
/-
  The kernel body of pallas_call 1, run once per control case. The body reads its two input blocks whole, and its
  output block is one whole-buffer store: at a point whose column-tile coordinate is zero the block is first reset to
  zeros, so the value stored is the row sums added to zeros; at any other point it is the row sums added to what the
  block held.
-/
import proofs.«168475_j46866683134277_1_alg».proof.Proof.Base
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

/-- The body's one conditional: the column-tile coordinate is zero. -/
abbrev cond1 (i : grid1.Coords) : Prop :=
  (Scalar.cmpi .ne (Scalar.extui (Scalar.cmpi .eq (BitVec.ofNat 32 (i 1).val) 0#32)) 0#32) = 1#1

/-- It holds exactly at the first of every eight consecutive points (the column tile runs fastest). -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 4000000 in
/-- At a point that resets: the output block ends at the row sums added to zeros, the inputs as they were. -/
theorem sound_kernel1_A (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : cond1 i)
    (x0 x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 x0 x1 (k1_pay1 (F := F)))) -∗ K ⟨⟩))
      ⊢ wp frame (wpE (defs₀ (F := F)) Variants.none c none) E (cc1__mmd_partial_kernel i arg2 harg2 arg3 harg3 arg4 harg4) K := by
  simp only [cc1__mmd_partial_kernel_eq_skeleton]; unfold cc1__mmd_partial_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2,
    View.readCov_unit_zero (S := S1024x1) _ hz2]

set_option maxHeartbeats 4000000 in
/-- At any other point: the output block ends at the row sums added to what it held, the inputs as they were. -/
theorem sound_kernel1_B (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : ¬cond1 i)
    (x0 x1 : Vec F S1024x256 .f32) (xo : Vec F S1024x1 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay2 x0 x1 xo)) -∗ K ⟨⟩))
      ⊢ wp frame (wpE (defs₀ (F := F)) Variants.none c none) E (cc1__mmd_partial_kernel i arg2 harg2 arg3 harg3 arg4 harg4) K := by
  simp only [cc1__mmd_partial_kernel_eq_skeleton]; unfold cc1__mmd_partial_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2]

end Cert.KernelIdeal.Hand

end
-- ==== Proof.Data1.lean ====
/-
  The proof data of pallas_call 1, at any contents `V` the region is entered from and any shares `q` its two input
  arrays are held at. After the body at point `t` each input's staging buffer holds its block, and the output's holds
  the accumulated row sums: the body's value over the two input blocks and what the point before left, restarted from
  zeros at every eighth point (the output block changes only then, and is written back just before).
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output's staging buffer holds after the body at position `n`: the body's value of the two input blocks
    there and of zeros (a point that resets) or of what position `n - 1` left (any other). -/
def outsAt1 (c : Dev nD) : (n : ℕ) → n < cfg1.N → Vec F S1024x1 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (outsAt1 c n (Nat.lt_of_succ_lt hn))

theorem outsAt1_A (c : Dev nD) (t : Fin cfg1.N) (h0 : t.val % 8 = 0) :
    outsAt1 V c t.val t.isLt = k1_pay2 (iblk1 V c 0 t) (iblk1 V c 1 t) (k1_pay1 (F := F)) := by
  obtain ⟨n, hn⟩ := t
  cases n with
  | zero => exact rfl
  | succ n => exact (if_pos h0).trans rfl

theorem outsAt1_B (c : Dev nD) (t : Fin cfg1.N) (h0 : ¬t.val % 8 = 0) :
    outsAt1 V c t.val t.isLt = k1_pay2 (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

variable (q : Fin cfg1.W → PosShare TreeShare)

/-- The proof data: the arrays as the region finds them; the invariant the scoped rest and the generator register,
    untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q := q
  owed _ := 0

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = outsAt1 V c t.val t.isLt := by dsimp only [dat1]

/-- Each input's current staging buffer holds its block at every point, fetched there or not: unfetched, the block
    index has not moved. -/
theorem before1_0 (c : Dev nD) (t : Fin cfg1.N) (d) : (dat1 V q c).before 0 t d = iblk1 V c 0 t :=
  ((dat1 V q c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V q c).before 1 t d = iblk1 V c 1 t :=
  ((dat1 V q c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- At a point that does not reset, the output's staging buffer holds what the body left at the point before: the
    point is not the first, and the block was not written back in between. -/
theorem before1_2_B (c : Dev nD) (t : Fin cfg1.N) (h0 : ¬t.val % 8 = 0) (d) :
    (dat1 V q c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

set_option maxHeartbeats 1600000 in
/-- The body at any point: the inputs' buffers hold their blocks; the point either resets (the output's buffer may
    hold anything) or carries on from what the point before left. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  by_cases h0 : t.val % 8 = 0
  · rw [outsAt1_A V c t h0]
    iintro ⟨HΦ, Ho, ⟨%d0, H0⟩, ⟨%d1, H1⟩, ⟨%d2, H2⟩⟩
    iapply (sound_kernel1_A c Set.univ (grid1.coords t) _ _ _ _ _ _ ((hcond1 t).mpr h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_2_B V q c t h0]
    iintro ⟨HΦ, Ho, ⟨%d0, H0⟩, ⟨%d1, H1⟩, ⟨%d2, H2⟩⟩
    iapply (sound_kernel1_B c Set.univ (grid1.coords t) _ _ _ _ _ _ (fun h => h0 ((hcond1 t).mp h)) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Region1

end Cert.KernelIdeal.Hand

end
-- ==== Proof.Body2.lean ====
/-
  The kernel body of pallas_call 2, run once per control case. The body reads its two input blocks whole, and its
  output block is one whole-buffer store: at a point whose column-tile coordinate is zero the block is first reset to
  zeros, so the value stored is the row sums added to zeros; at any other point it is the row sums added to what the
  block held.
-/
import proofs.«168475_j46866683134277_1_alg».proof.Proof.Base
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

/-- The body's one conditional: the column-tile coordinate is zero. -/
abbrev cond2 (i : grid2.Coords) : Prop :=
  (Scalar.cmpi .ne (Scalar.extui (Scalar.cmpi .eq (BitVec.ofNat 32 (i 1).val) 0#32)) 0#32) = 1#1

/-- It holds exactly at the first of every eight consecutive points (the column tile runs fastest). -/
theorem hcond2 : ∀ t : Fin cfg2.N, cond2 (grid2.coords t) ↔ t.val % 8 = 0 :=
  (by decide +kernel : ∀ t : Fin grid2.N, cond2 (grid2.coords t) ↔ t.val % 8 = 0)

set_option maxHeartbeats 4000000 in
/-- At a point that resets: the output block ends at the row sums added to zeros, the inputs as they were. -/
theorem sound_kernel2_A (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : cond2 i)
    (x0 x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k2_pay2 x0 x1 (k2_pay1 (F := F)))) -∗ K ⟨⟩))
      ⊢ wp frame (wpE (defs₀ (F := F)) Variants.none c none) E (cc2__mmd_partial_kernel i arg2 harg2 arg3 harg3 arg4 harg4) K := by
  simp only [cc2__mmd_partial_kernel_eq_skeleton]; unfold cc2__mmd_partial_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2,
    View.readCov_unit_zero (S := S1024x1) _ hz2]

set_option maxHeartbeats 4000000 in
/-- At any other point: the output block ends at the row sums added to what it held, the inputs as they were. -/
theorem sound_kernel2_B (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (hc : ¬cond2 i)
    (x0 x1 : Vec F S1024x256 .f32) (xo : Vec F S1024x1 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k2_pay2 x0 x1 xo)) -∗ K ⟨⟩))
      ⊢ wp frame (wpE (defs₀ (F := F)) Variants.none c none) E (cc2__mmd_partial_kernel i arg2 harg2 arg3 harg3 arg4 harg4) K := by
  simp only [cc2__mmd_partial_kernel_eq_skeleton]; unfold cc2__mmd_partial_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, mem_unit_zero hz2 inb_S1024x1_S1024x1_0_0 y⟩)]
  sl_unfold_words
  rw [View.canon_cons_unit_zero hz2]
  simp only [View.readAt_eq_ld, View.ld_unit_zero (S := S1024x256) hz2, View.ld_unit_zero (S := S1024x1) hz2]

end Cert.KernelIdeal.Hand

end
-- ==== Proof.Data2.lean ====
/-
  The proof data of pallas_call 2, at any contents `V` the region is entered from and any shares `q` its two input
  arrays are held at. After the body at point `t` each input's staging buffer holds its block, and the output's holds
  the accumulated row sums: the body's value over the two input blocks and what the point before left, restarted from
  zeros at every eighth point (the output block changes only then, and is written back just before).
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output's staging buffer holds after the body at position `n`: the body's value of the two input blocks
    there and of zeros (a point that resets) or of what position `n - 1` left (any other). -/
def outsAt2 (c : Dev nD) : (n : ℕ) → n < cfg2.N → Vec F S1024x1 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (outsAt2 c n (Nat.lt_of_succ_lt hn))

theorem outsAt2_A (c : Dev nD) (t : Fin cfg2.N) (h0 : t.val % 8 = 0) :
    outsAt2 V c t.val t.isLt = k2_pay2 (iblk2 V c 0 t) (iblk2 V c 1 t) (k2_pay1 (F := F)) := by
  obtain ⟨n, hn⟩ := t
  cases n with
  | zero => exact rfl
  | succ n => exact (if_pos h0).trans rfl

theorem outsAt2_B (c : Dev nD) (t : Fin cfg2.N) (h0 : ¬t.val % 8 = 0) :
    outsAt2 V c t.val t.isLt = k2_pay2 (iblk2 V c 0 t) (iblk2 V c 1 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

variable (q : Fin cfg2.W → PosShare TreeShare)

/-- The proof data: the arrays as the region finds them; the invariant the scoped rest and the generator register,
    untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q := q
  owed _ := 0

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = outsAt2 V c t.val t.isLt := by dsimp only [dat2]

/-- Each input's current staging buffer holds its block at every point, fetched there or not: unfetched, the block
    index has not moved. -/
theorem before2_0 (c : Dev nD) (t : Fin cfg2.N) (d) : (dat2 V q c).before 0 t d = iblk2 V c 0 t :=
  ((dat2 V q c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V q c).before 1 t d = iblk2 V c 1 t :=
  ((dat2 V q c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- At a point that does not reset, the output's staging buffer holds what the body left at the point before: the
    point is not the first, and the block was not written back in between. -/
theorem before2_2_B (c : Dev nD) (t : Fin cfg2.N) (h0 : ¬t.val % 8 = 0) (d) :
    (dat2 V q c).before 2 t d = outsAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-- What the body is called with at point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

set_option maxHeartbeats 1600000 in
/-- The body at any point: the inputs' buffers hold their blocks; the point either resets (the output's buffer may
    hold anything) or carries on from what the point before left. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  by_cases h0 : t.val % 8 = 0
  · rw [outsAt2_A V c t h0]
    iintro ⟨HΦ, Ho, ⟨%d0, H0⟩, ⟨%d1, H1⟩, ⟨%d2, H2⟩⟩
    iapply (sound_kernel2_A c Set.univ (grid2.coords t) _ _ _ _ _ _ ((hcond2 t).mpr h0) (iblk2 V c 0 t) (iblk2 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt2_B V c t h0]
    simp only [before2_2_B V q c t h0]
    iintro ⟨HΦ, Ho, ⟨%d0, H0⟩, ⟨%d1, H1⟩, ⟨%d2, H2⟩⟩
    iapply (sound_kernel2_B c Set.univ (grid2.coords t) _ _ _ _ _ _ (fun h => h0 ((hcond2 t).mp h)) (iblk2 V c 0 t) (iblk2 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation2 (c : Dev nD) : BodyObligation (dat2 (F := F) V q c) (defs₀ (F := F)) Variants.none () Set.univ := fun t => by
  rw [bigSep_W2, bigSep_W2]
  exact sound_body2 V q c t

end Region2

end Cert.KernelIdeal.Hand

end
-- ==== Proof.Family.lean ====
/-
  The buffers' contents at every boundary of @main, and every pipeline's proof data at its region's entry contents.
  @main is three kernel regions, each followed by a stretch of host operations. A region changes one array only, its
  output's, which it leaves at what the pipeline's write-backs make of it; a host stretch leaves what its operations
  compute. The first two regions read ONE array through both input windows, held by halves; the third reads two.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Data0
import proofs.«168475_j46866683134277_1_alg».proof.Proof.Data1
import proofs.«168475_j46866683134277_1_alg».proof.Proof.Data2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares of a region whose two input windows read one array: a half each; the output's is not consulted. -/
abbrev qHalf : Fin 3 → PosShare TreeShare := fun w => match w with
  | ⟨0, _⟩ => fullShare.left
  | ⟨1, _⟩ => fullShare.right
  | ⟨2, _⟩ => fullShare
/-- The shares of a region whose input windows read distinct arrays. -/
abbrev qFull : Fin 3 → PosShare TreeShare := fun _ => fullShare

/-! ## The contents at each boundary -/

/-- Core `c`'s buffers at launch: region 0's entry. -/
abbrev Win0 : Dev nD → Valuation τ sig (Elt F) := fun c b => (s₀ m ρ).mem ((c : Dev nD), b)
abbrev Vin0 : (c : Dev nD) → (b : Ref sig .tc) → Buf (Elt F) ((c : Thread nD τ).loc b) := fun c b => Win0 m ρ c b
/-- At region 0's exit: its output array at what the write-backs leave, every other buffer as entered. -/
def Wout0 (c : Dev nD) : Valuation τ sig (Elt F) :=
  Function.update (Win0 m ρ c) (Proc.devRef .tc main_v0) ((dat0 (Vin0 m ρ) qHalf c).arrAt 2 cfg0.N)
abbrev Vout0 : (c : Dev nD) → (b : Ref sig .tc) → Buf (Elt F) ((c : Thread nD τ).loc b) := fun c b => Wout0 m ρ c b
/-- After the first host stretch: region 1's entry. -/
abbrev Win1 : Dev nD → Valuation τ sig (Elt F) := fun c => StableHlo.after hostOps1 (Wout0 m ρ c)
abbrev Vin1 : (c : Dev nD) → (b : Ref sig .tc) → Buf (Elt F) ((c : Thread nD τ).loc b) := fun c b => Win1 m ρ c b
/-- At region 1's exit. -/
def Wout1 (c : Dev nD) : Valuation τ sig (Elt F) :=
  Function.update (Win1 m ρ c) (Proc.devRef .tc main_v3) ((dat1 (Vin1 m ρ) qHalf c).arrAt 2 cfg1.N)
abbrev Vout1 : (c : Dev nD) → (b : Ref sig .tc) → Buf (Elt F) ((c : Thread nD τ).loc b) := fun c b => Wout1 m ρ c b
/-- After the second host stretch: region 2's entry. -/
abbrev Win2 : Dev nD → Valuation τ sig (Elt F) := fun c => StableHlo.after hostOps2 (Wout1 m ρ c)
abbrev Vin2 : (c : Dev nD) → (b : Ref sig .tc) → Buf (Elt F) ((c : Thread nD τ).loc b) := fun c b => Win2 m ρ c b
/-- At region 2's exit. -/
def Wout2 (c : Dev nD) : Valuation τ sig (Elt F) :=
  Function.update (Win2 m ρ c) (Proc.devRef .tc main_v7) ((dat2 (Vin2 m ρ) qFull c).arrAt 2 cfg2.N)
abbrev Vout2 : (c : Dev nD) → (b : Ref sig .tc) → Buf (Elt F) ((c : Thread nD τ).loc b) := fun c b => Wout2 m ρ c b
/-- After the last host stretch: what @main returns from. -/
abbrev Wend : Dev nD → Valuation τ sig (Elt F) := fun c => StableHlo.after hostOps3 (Wout2 m ρ c)

/-! ## What a region's exit contents hold -/

theorem Wout0_out (c : Dev nD) : Wout0 m ρ c (Proc.devRef .tc main_v0) = (dat0 (Vin0 m ρ) qHalf c).arrAt 2 cfg0.N := by
  unfold Wout0; exact Function.update_self _ _ _
theorem Wout0_of_ne (c : Dev nD) (b : Ref sig .tc) (hb : b ≠ main_v0) : Wout0 m ρ c (Proc.devRef .tc b) = Win0 m ρ c (Proc.devRef .tc b) := by
  unfold Wout0; exact Function.update_of_ne (StableHlo.devRef_ne_of_ne hb) _ _
theorem Wout1_out (c : Dev nD) : Wout1 m ρ c (Proc.devRef .tc main_v3) = (dat1 (Vin1 m ρ) qHalf c).arrAt 2 cfg1.N := by
  unfold Wout1; exact Function.update_self _ _ _
theorem Wout1_of_ne (c : Dev nD) (b : Ref sig .tc) (hb : b ≠ main_v3) : Wout1 m ρ c (Proc.devRef .tc b) = Win1 m ρ c (Proc.devRef .tc b) := by
  unfold Wout1; exact Function.update_of_ne (StableHlo.devRef_ne_of_ne hb) _ _
theorem Wout2_out (c : Dev nD) : Wout2 m ρ c (Proc.devRef .tc main_v7) = (dat2 (Vin2 m ρ) qFull c).arrAt 2 cfg2.N := by
  unfold Wout2; exact Function.update_self _ _ _
theorem Wout2_of_ne (c : Dev nD) (b : Ref sig .tc) (hb : b ≠ main_v7) : Wout2 m ρ c (Proc.devRef .tc b) = Win2 m ρ c (Proc.devRef .tc b) := by
  unfold Wout2; exact Function.update_of_ne (StableHlo.devRef_ne_of_ne hb) _ _

/-- At region 0's exit each of its arrays holds what the pipeline leaves: an input array is never written, so it
    holds its entry contents, which the exit contents keep; the output array is the one updated. -/
theorem hF0 (c : Dev nD) (w : Fin cfg0.W) : (dat0 (Vin0 m ρ) qHalf c).arrAt w cfg0.N = Vout0 m ρ c (Pipeline.arrRef spec0 w) := by
  match w with
  | ⟨0, _⟩ => exact (((dat0 (Vin0 m ρ) qHalf c).arrAt_in 0 rfl _).trans (A_eq0 (Vin0 m ρ) qHalf c 0)).trans (Wout0_of_ne m ρ c _ (by decide)).symm
  | ⟨1, _⟩ => exact (((dat0 (Vin0 m ρ) qHalf c).arrAt_in 1 rfl _).trans (A_eq0 (Vin0 m ρ) qHalf c 1)).trans (Wout0_of_ne m ρ c _ (by decide)).symm
  | ⟨2, _⟩ => exact (Wout0_out m ρ c).symm
/-- Every other buffer holds what it held at entry. -/
theorem hrest0 (c : Dev nD) : ∀ b, b ∉ Finset.univ.image (Pipeline.arrRef spec0) → Vout0 m ρ c b = Vin0 m ρ c b :=
  fun b hb => Wout0_of_ne m ρ c b fun e => hb (Finset.mem_image.mpr ⟨2, Finset.mem_univ _, e.symm⟩)

theorem hF1 (c : Dev nD) (w : Fin cfg1.W) : (dat1 (Vin1 m ρ) qHalf c).arrAt w cfg1.N = Vout1 m ρ c (Pipeline.arrRef spec1 w) := by
  match w with
  | ⟨0, _⟩ => exact (((dat1 (Vin1 m ρ) qHalf c).arrAt_in 0 rfl _).trans (A_eq1 (Vin1 m ρ) qHalf c 0)).trans (Wout1_of_ne m ρ c _ (by decide)).symm
  | ⟨1, _⟩ => exact (((dat1 (Vin1 m ρ) qHalf c).arrAt_in 1 rfl _).trans (A_eq1 (Vin1 m ρ) qHalf c 1)).trans (Wout1_of_ne m ρ c _ (by decide)).symm
  | ⟨2, _⟩ => exact (Wout1_out m ρ c).symm
theorem hrest1 (c : Dev nD) : ∀ b, b ∉ Finset.univ.image (Pipeline.arrRef spec1) → Vout1 m ρ c b = Vin1 m ρ c b :=
  fun b hb => Wout1_of_ne m ρ c b fun e => hb (Finset.mem_image.mpr ⟨2, Finset.mem_univ _, e.symm⟩)

theorem hF2 (c : Dev nD) (w : Fin cfg2.W) : (dat2 (Vin2 m ρ) qFull c).arrAt w cfg2.N = Vout2 m ρ c (Pipeline.arrRef spec2 w) := by
  match w with
  | ⟨0, _⟩ => exact (((dat2 (Vin2 m ρ) qFull c).arrAt_in 0 rfl _).trans (A_eq2 (Vin2 m ρ) qFull c 0)).trans (Wout2_of_ne m ρ c _ (by decide)).symm
  | ⟨1, _⟩ => exact (((dat2 (Vin2 m ρ) qFull c).arrAt_in 1 rfl _).trans (A_eq2 (Vin2 m ρ) qFull c 1)).trans (Wout2_of_ne m ρ c _ (by decide)).symm
  | ⟨2, _⟩ => exact (Wout2_out m ρ c).symm
theorem hrest2 (c : Dev nD) : ∀ b, b ∉ Finset.univ.image (Pipeline.arrRef spec2) → Vout2 m ρ c b = Vin2 m ρ c b :=
  fun b hb => Wout2_of_ne m ρ c b fun e => hb (Finset.mem_image.mpr ⟨2, Finset.mem_univ _, e.symm⟩)

/-! ## The proof data family and what rides beside the buffers -/

/-- The three pipelines, in @main's order. -/
abbrev p0 : Fin 3 := 0
abbrev p1 : Fin 3 := 1
abbrev p2 : Fin 3 := 2

/-- The prefetched tables' admissible contents: no pipeline has a table. -/
abbrev adm : (p : Fin 3) → (pcfgs (F := F) p).Adm := fun p => (cfgs p).toPCfg_adm
/-- Every pipeline's proof data, each at its region's entry contents: a literal match, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (Vin0 m ρ) qHalf c
  | ⟨1, _⟩ => fun c => dat1 (Vin1 m ρ) qHalf c
  | ⟨2, _⟩ => fun c => dat2 (Vin2 m ρ) qFull c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, none. -/
abbrev R (c : Dev nD) : sProp 𝕄 := iprop((∃ r, prngReg c r) ∗ ∃ W, owes (c : Thread nD τ) (0 : CellTallies nD τ sig Unit) W)

end Cert.KernelIdeal.Hand

end
-- ==== Proof.Share0.lean ====
/-
  A pallas_call whose two input windows read ONE array. The core's unscoped buffers, each whole at the full share,
  split into the pipeline's arrays — the shared input array at its two half shares, one per window, the output array
  at the full share — beside every other unscoped buffer; and the same pieces, the two halves holding the same
  contents, join back into the unscoped buffers at any valuation that has the arrays at those contents and agrees
  with the old one elsewhere.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the three windows' arrays are two: windows 0 and 1 read the same one. -/
private theorem image0 : Finset.univ.image (Pipeline.arrRef spec0) = {Pipeline.arrRef spec0 0, Pipeline.arrRef spec0 2} := by decide

private theorem ne0 : Pipeline.arrRef spec0 0 ≠ Pipeline.arrRef spec0 2 := by decide

/-- The distinct buffers behind the arrays, one by one. -/
private theorem arrBufs0_eq (c : Dev nD) (V : (b : Ref sig .tc) → Buf (Elt F) ((c : Thread nD τ).loc b)) :
    (Pipeline.arrBufs spec0 c V : sProp 𝕄)
      = iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))) := by
  unfold Pipeline.arrBufs
  rw [image0, bigSep_insert (by simpa using ne0), bigSep_singleton]
  rfl

/-- The pipeline's arrays, one by one: every array a whole buffer, the two input windows at the two halves of the
    full share, the output window at the full share. -/
private theorem arrays0_eq (c : Dev nD) (dat : Dat τ (Elt F) Unit ℕ (UR sig nD τ) ℕ cfg0 c)
    (hq0 : dat.q 0 = fullShare.left) (hq1 : dat.q 1 = fullShare.right)
    (F₀ : (w : Fin cfg0.W) → Buf (Elt F) ((cfg0.win w).arr.view.loc (c : Thread nD τ))) :
    (dat.arrays F₀ : sProp 𝕄)
      = iprop((((c : Thread nD τ).loc (Pipeline.arrRef spec0 0)) ↦{fullShare.left} F₀ 0)
          ∗ (((c : Thread nD τ).loc (Pipeline.arrRef spec0 1)) ↦{fullShare.right} F₀ 1)
          ∗ (((c : Thread nD τ).loc (Pipeline.arrRef spec0 2)) ↦{fullShare} F₀ 2)) := by
  have hs0 : dat.share 0 = fullShare.left := by
    show (if (cfg0.win 0).isOut = true then fullShare else dat.q 0) = _
    rw [if_neg (show ¬ (cfg0.win 0).isOut = true by decide), hq0]
  have hs1 : dat.share 1 = fullShare.right := by
    show (if (cfg0.win 1).isOut = true then fullShare else dat.q 1) = _
    rw [if_neg (show ¬ (cfg0.win 1).isOut = true by decide), hq1]
  have hs2 : dat.share 2 = fullShare := by
    show (if (cfg0.win 2).isOut = true then fullShare else dat.q 2) = _
    rw [if_pos (show (cfg0.win 2).isOut = true by decide)]
  have hw : (dat.arrays F₀ : sProp 𝕄)
      = bigSep Finset.univ fun w : Fin 3 => (((c : Thread nD τ).loc (Pipeline.arrRef spec0 w)) ↦{dat.share w} F₀ w : sProp 𝕄) := by
    unfold Dat.arrays
    exact bigSep_congr fun w _ => by rw [(arr_whole0 w).set_eq_univ]
  rw [hw, bigSep_W0, hs0, hs1, hs2]

/-- JOIN. The two halves of the shared array at the same contents, and the output array, are the buffers behind
    the arrays, each whole at the full share. -/
private theorem arrBufs_of_arrays0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (F₀ : (w : Fin cfg0.W) → Buf (Elt F) ((cfg0.win w).arr.view.loc (c : Thread nD τ)))
    (hF : ∀ w, F₀ w = V (Pipeline.arrRef spec0 w)) :
    (dat.arrays F₀ : sProp 𝕄) ⊢ Pipeline.arrBufs spec0 c V := by
  rw [arrays0_eq c dat hq0 hq1, arrBufs0_eq, hF 0, hF 1, hF 2]
  show iprop((((c : Thread nD τ).loc (Pipeline.arrRef spec0 0)) ↦{fullShare.left} V (Pipeline.arrRef spec0 0))
          ∗ (((c : Thread nD τ).loc (Pipeline.arrRef spec0 0)) ↦{fullShare.right} V (Pipeline.arrRef spec0 0))
          ∗ (((c : Thread nD τ).loc (Pipeline.arrRef spec0 2)) ↦{fullShare} V (Pipeline.arrRef spec0 2)))
      ⊢ (iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))) : sProp 𝕄)
  iintro ⟨Hl, Hr, Ho⟩
  isplitr [Ho]
  · iapply (pointsTo_share (PosShare.mem_left_op_right fullShare)).2
    isplitl [Hl] <;> iassumption
  · iexact Ho

/-- SPLIT. The buffers behind the arrays, each whole at the full share, are the pipeline's arrays at the same
    contents: the shared array's full share is dealt to its two windows by halves. -/
private theorem arrays_of_arrBufs0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (F₀ : (w : Fin cfg0.W) → Buf (Elt F) ((cfg0.win w).arr.view.loc (c : Thread nD τ)))
    (hF : ∀ w, F₀ w = V (Pipeline.arrRef spec0 w)) :
    (Pipeline.arrBufs spec0 c V : sProp 𝕄) ⊢ dat.arrays F₀ := by
  rw [arrays0_eq c dat hq0 hq1, arrBufs0_eq, hF 0, hF 1, hF 2]
  show (iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))) : sProp 𝕄)
      ⊢ iprop((((c : Thread nD τ).loc (Pipeline.arrRef spec0 0)) ↦{fullShare.left} V (Pipeline.arrRef spec0 0))
          ∗ (((c : Thread nD τ).loc (Pipeline.arrRef spec0 0)) ↦{fullShare.right} V (Pipeline.arrRef spec0 0))
          ∗ (((c : Thread nD τ).loc (Pipeline.arrRef spec0 2)) ↦{fullShare} V (Pipeline.arrRef spec0 2)))
  iintro ⟨Hi, Ho⟩
  ihave H := (pointsTo_share (PosShare.mem_left_op_right fullShare)).1 $$ Hi
  icases H with ⟨Hl, Hr⟩
  isplitl [Hl]; · iexact Hl
  isplitl [Hr]; · iexact Hr
  iexact Ho

/-- ENTRY. The unscoped buffers at `V` are the pipeline's arrays at the proof data's entry contents, the shared input
    array dealt to its two windows by halves, and the unscoped rest. -/
theorem arrays_of_unscopedBufs0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (hA : ∀ w, dat.A w = V (Pipeline.arrRef spec0 w)) :
    (unscopedBufs c V : sProp 𝕄) ⊢ iprop(dat.arrays dat.A ∗ Pipeline.unscopedRest spec0 c V) := by
  rw [Pipeline.PerCore.unscopedBufs_split₀ (fun (_ : Dev nD) (_ : Unit) => cfg0) () c winFacts₀0.arr_unscoped
    (Ix := Unit) (Name := ℕ) (U := UR sig nD τ) (Lvl := ℕ) V]
  iintro ⟨Ha, Hrest⟩
  isplitl [Ha]
  · iapply (arrays_of_arrBufs0 c dat hq0 hq1 V dat.A hA); iexact Ha
  · iexact Hrest

/-- EXIT. The pipeline's arrays at contents `F₀` — the two windows on the shared array then hold the same contents —
    and the unscoped rest at `V` are the unscoped buffers at any `V'` that has the arrays at `F₀` and agrees with `V`
    off them. -/
theorem unscopedBufs_of_arrays0 (c : Dev nD) (dat : Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (F₀ : (w : Fin cfg0.W) → Buf (Elt F) ((cfg0.win w).arr.view.loc (c : Thread nD τ)))
    (hF : ∀ w, F₀ w = V' (Pipeline.arrRef spec0 w))
    (hrest : ∀ b, b ∉ Finset.univ.image (Pipeline.arrRef spec0) → V' b = V b) :
    iprop(dat.arrays F₀ ∗ Pipeline.unscopedRest spec0 c V) ⊢ (unscopedBufs c V' : sProp 𝕄) := by
  have hR : (Pipeline.unscopedRest spec0 c V : sProp 𝕄) = Pipeline.unscopedRest spec0 c V' := by
    unfold Pipeline.unscopedRest
    exact bigSep_congr fun b hb => by rw [hrest b (Finset.mem_sdiff.mp hb).2]
  rw [Pipeline.PerCore.unscopedBufs_split₀ (fun (_ : Dev nD) (_ : Unit) => cfg0) () c winFacts₀0.arr_unscoped
    (Ix := Unit) (Name := ℕ) (U := UR sig nD τ) (Lvl := ℕ) V', hR]
  iintro ⟨Ha, Hrest⟩
  isplitl [Ha]
  · iapply (arrBufs_of_arrays0 c dat hq0 hq1 V' F₀ hF); iexact Ha
  · iexact Hrest

end Cert.KernelIdeal.Hand

end
-- ==== Proof.Seg0.lean ====
/-
  The kernel region of pallas_call 0 of @main as a segment over the thread state "every unscoped buffer at the boundary's
  contents, the generator register at some state, nothing owed". Entered from the buffers at `Win0`, left at
  `Wout0`. Its arrays are split out of the unscoped buffers at entry, the array both input windows read dealt to them
  by halves, and put back at exit at the contents the pipeline leaves; the generator register goes into the region
  invariant and comes back; the kernel has no semaphore of its own and owes nothing.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Family
import proofs.«168475_j46866683134277_1_alg».proof.Proof.Share0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv p0 where
  win := winFacts₀0
  block_pos := block_pos0
  stage_whole := stage_whole0
  K := PEmpty
  osem k := k.elim
  ho := Pipeline.OwnSemFacts.none _
  hbody c := (body_obligation0 (Vin0 m ρ) qHalf c).loose
  hwaits := Pipeline.hwaits_of_owed_zero _ _ _ _ L lv p0 fun _ _ => rfl
  pre c := iprop(StableHlo.held (c : Thread nD τ) (Pipeline.ucRefs τ sig) (Win0 m ρ c) ∗ R c)
  post c := iprop(StableHlo.held (c : Thread nD τ) (Pipeline.ucRefs τ sig) (Wout0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := arrays_of_unscopedBufs0 c (pdats m ρ p0 c) rfl rfl (Vin0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ p0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ p0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 c (pdats m ρ p0 c) rfl rfl (Vin0 m ρ c) (Vout0 m ρ c)
      ((pdats m ρ p0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Share1.lean ====
/-
  A pallas_call whose two input windows read ONE array. The core's unscoped buffers, each whole at the full share,
  split into the pipeline's arrays — the shared input array at its two half shares, one per window, the output array
  at the full share — beside every other unscoped buffer; and the same pieces, the two halves holding the same
  contents, join back into the unscoped buffers at any valuation that has the arrays at those contents and agrees
  with the old one elsewhere.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the three windows' arrays are two: windows 0 and 1 read the same one. -/
private theorem image0 : Finset.univ.image (Pipeline.arrRef spec1) = {Pipeline.arrRef spec1 0, Pipeline.arrRef spec1 2} := by decide

private theorem ne0 : Pipeline.arrRef spec1 0 ≠ Pipeline.arrRef spec1 2 := by decide

/-- The distinct buffers behind the arrays, one by one. -/
private theorem arrBufs0_eq (c : Dev nD) (V : (b : Ref sig .tc) → Buf (Elt F) ((c : Thread nD τ).loc b)) :
    (Pipeline.arrBufs spec1 c V : sProp 𝕄)
      = iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))) := by
  unfold Pipeline.arrBufs
  rw [image0, bigSep_insert (by simpa using ne0), bigSep_singleton]
  rfl

/-- The pipeline's arrays, one by one: every array a whole buffer, the two input windows at the two halves of the
    full share, the output window at the full share. -/
private theorem arrays0_eq (c : Dev nD) (dat : Dat τ (Elt F) Unit ℕ (UR sig nD τ) ℕ cfg1 c)
    (hq0 : dat.q 0 = fullShare.left) (hq1 : dat.q 1 = fullShare.right)
    (F₀ : (w : Fin cfg1.W) → Buf (Elt F) ((cfg1.win w).arr.view.loc (c : Thread nD τ))) :
    (dat.arrays F₀ : sProp 𝕄)
      = iprop((((c : Thread nD τ).loc (Pipeline.arrRef spec1 0)) ↦{fullShare.left} F₀ 0)
          ∗ (((c : Thread nD τ).loc (Pipeline.arrRef spec1 1)) ↦{fullShare.right} F₀ 1)
          ∗ (((c : Thread nD τ).loc (Pipeline.arrRef spec1 2)) ↦{fullShare} F₀ 2)) := by
  have hs0 : dat.share 0 = fullShare.left := by
    show (if (cfg1.win 0).isOut = true then fullShare else dat.q 0) = _
    rw [if_neg (show ¬ (cfg1.win 0).isOut = true by decide), hq0]
  have hs1 : dat.share 1 = fullShare.right := by
    show (if (cfg1.win 1).isOut = true then fullShare else dat.q 1) = _
    rw [if_neg (show ¬ (cfg1.win 1).isOut = true by decide), hq1]
  have hs2 : dat.share 2 = fullShare := by
    show (if (cfg1.win 2).isOut = true then fullShare else dat.q 2) = _
    rw [if_pos (show (cfg1.win 2).isOut = true by decide)]
  have hw : (dat.arrays F₀ : sProp 𝕄)
      = bigSep Finset.univ fun w : Fin 3 => (((c : Thread nD τ).loc (Pipeline.arrRef spec1 w)) ↦{dat.share w} F₀ w : sProp 𝕄) := by
    unfold Dat.arrays
    exact bigSep_congr fun w _ => by rw [(arr_whole1 w).set_eq_univ]
  rw [hw, bigSep_W1, hs0, hs1, hs2]

/-- JOIN. The two halves of the shared array at the same contents, and the output array, are the buffers behind
    the arrays, each whole at the full share. -/
private theorem arrBufs_of_arrays0 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (F₀ : (w : Fin cfg1.W) → Buf (Elt F) ((cfg1.win w).arr.view.loc (c : Thread nD τ)))
    (hF : ∀ w, F₀ w = V (Pipeline.arrRef spec1 w)) :
    (dat.arrays F₀ : sProp 𝕄) ⊢ Pipeline.arrBufs spec1 c V := by
  rw [arrays0_eq c dat hq0 hq1, arrBufs0_eq, hF 0, hF 1, hF 2]
  show iprop((((c : Thread nD τ).loc (Pipeline.arrRef spec1 0)) ↦{fullShare.left} V (Pipeline.arrRef spec1 0))
          ∗ (((c : Thread nD τ).loc (Pipeline.arrRef spec1 0)) ↦{fullShare.right} V (Pipeline.arrRef spec1 0))
          ∗ (((c : Thread nD τ).loc (Pipeline.arrRef spec1 2)) ↦{fullShare} V (Pipeline.arrRef spec1 2)))
      ⊢ (iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))) : sProp 𝕄)
  iintro ⟨Hl, Hr, Ho⟩
  isplitr [Ho]
  · iapply (pointsTo_share (PosShare.mem_left_op_right fullShare)).2
    isplitl [Hl] <;> iassumption
  · iexact Ho

/-- SPLIT. The buffers behind the arrays, each whole at the full share, are the pipeline's arrays at the same
    contents: the shared array's full share is dealt to its two windows by halves. -/
private theorem arrays_of_arrBufs0 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (F₀ : (w : Fin cfg1.W) → Buf (Elt F) ((cfg1.win w).arr.view.loc (c : Thread nD τ)))
    (hF : ∀ w, F₀ w = V (Pipeline.arrRef spec1 w)) :
    (Pipeline.arrBufs spec1 c V : sProp 𝕄) ⊢ dat.arrays F₀ := by
  rw [arrays0_eq c dat hq0 hq1, arrBufs0_eq, hF 0, hF 1, hF 2]
  show (iprop((((c : Thread nD τ).loc (Pipeline.arrRef spec1 0)) ↦{fullShare} V (Pipeline.arrRef spec1 0))
          ∗ (((c : Thread nD τ).loc (Pipeline.arrRef spec1 2)) ↦{fullShare} V (Pipeline.arrRef spec1 2))) : sProp 𝕄)
      ⊢ iprop((((c : Thread nD τ).loc (Pipeline.arrRef spec1 0)) ↦{fullShare.left} V (Pipeline.arrRef spec1 0))
          ∗ (((c : Thread nD τ).loc (Pipeline.arrRef spec1 0)) ↦{fullShare.right} V (Pipeline.arrRef spec1 0))
          ∗ (((c : Thread nD τ).loc (Pipeline.arrRef spec1 2)) ↦{fullShare} V (Pipeline.arrRef spec1 2)))
  iintro ⟨Hi, Ho⟩
  ihave H := (pointsTo_share (PosShare.mem_left_op_right fullShare)).1 $$ Hi
  icases H with ⟨Hl, Hr⟩
  isplitl [Hl]; · iexact Hl
  isplitl [Hr]; · iexact Hr
  iexact Ho

/-- ENTRY. The unscoped buffers at `V` are the pipeline's arrays at the proof data's entry contents, the shared input
    array dealt to its two windows by halves, and the unscoped rest. -/
theorem arrays_of_unscopedBufs1 (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (hA : ∀ w, dat.A w = V (Pipeline.arrRef spec1 w)) :
    (unscopedBufs c V : sProp 𝕄) ⊢ iprop(dat.arrays dat.A ∗ Pipeline.unscopedRest spec1 c V) := by
  rw [Pipeline.PerCore.unscopedBufs_split₀ (fun (_ : Dev nD) (_ : Unit) => cfg1) () c winFacts₀1.arr_unscoped
    (Ix := Unit) (Name := ℕ) (U := UR sig nD τ) (Lvl := ℕ) V]
  iintro ⟨Ha, Hrest⟩
  isplitl [Ha]
  · iapply (arrays_of_arrBufs0 c dat hq0 hq1 V dat.A hA); iexact Ha
  · iexact Hrest

/-- EXIT. The pipeline's arrays at contents `F₀` — the two windows on the shared array then hold the same contents —
    and the unscoped rest at `V` are the unscoped buffers at any `V'` that has the arrays at `F₀` and agrees with `V`
    off them. -/
theorem unscopedBufs_of_arrays1 (c : Dev nD) (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (F₀ : (w : Fin cfg1.W) → Buf (Elt F) ((cfg1.win w).arr.view.loc (c : Thread nD τ)))
    (hF : ∀ w, F₀ w = V' (Pipeline.arrRef spec1 w))
    (hrest : ∀ b, b ∉ Finset.univ.image (Pipeline.arrRef spec1) → V' b = V b) :
    iprop(dat.arrays F₀ ∗ Pipeline.unscopedRest spec1 c V) ⊢ (unscopedBufs c V' : sProp 𝕄) := by
  have hR : (Pipeline.unscopedRest spec1 c V : sProp 𝕄) = Pipeline.unscopedRest spec1 c V' := by
    unfold Pipeline.unscopedRest
    exact bigSep_congr fun b hb => by rw [hrest b (Finset.mem_sdiff.mp hb).2]
  rw [Pipeline.PerCore.unscopedBufs_split₀ (fun (_ : Dev nD) (_ : Unit) => cfg1) () c winFacts₀1.arr_unscoped
    (Ix := Unit) (Name := ℕ) (U := UR sig nD τ) (Lvl := ℕ) V', hR]
  iintro ⟨Ha, Hrest⟩
  isplitl [Ha]
  · iapply (arrBufs_of_arrays0 c dat hq0 hq1 V' F₀ hF); iexact Ha
  · iexact Hrest

end Cert.KernelIdeal.Hand

end
-- ==== Proof.Seg1.lean ====
/-
  The kernel region of pallas_call 1 of @main as a segment over the thread state "every unscoped buffer at the boundary's
  contents, the generator register at some state, nothing owed". Entered from the buffers at `Win1`, left at
  `Wout1`. Its arrays are split out of the unscoped buffers at entry, the array both input windows read dealt to them
  by halves, and put back at exit at the contents the pipeline leaves; the generator register goes into the region
  invariant and comes back; the kernel has no semaphore of its own and owes nothing.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Family
import proofs.«168475_j46866683134277_1_alg».proof.Proof.Share1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv p1 where
  win := winFacts₀1
  block_pos := block_pos1
  stage_whole := stage_whole1
  K := PEmpty
  osem k := k.elim
  ho := Pipeline.OwnSemFacts.none _
  hbody c := (body_obligation1 (Vin1 m ρ) qHalf c).loose
  hwaits := Pipeline.hwaits_of_owed_zero _ _ _ _ L lv p1 fun _ _ => rfl
  pre c := iprop(StableHlo.held (c : Thread nD τ) (Pipeline.ucRefs τ sig) (Win1 m ρ c) ∗ R c)
  post c := iprop(StableHlo.held (c : Thread nD τ) (Pipeline.ucRefs τ sig) (Wout1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := arrays_of_unscopedBufs1 c (pdats m ρ p1 c) rfl rfl (Vin1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ p1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ p1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m ρ p1 c) rfl rfl (Vin1 m ρ c) (Vout1 m ρ c)
      ((pdats m ρ p1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg2.lean ====
/-
  The kernel region of pallas_call 2 of @main as a segment over the thread state "every unscoped buffer at the boundary's
  contents, the generator register at some state, nothing owed". Entered from the buffers at `Win2`, left at
  `Wout2`. Its three arrays are distinct buffers, each held at the full share: they are split out of the unscoped
  buffers at entry and put back at exit at the contents the pipeline leaves; the generator register goes into the region
  invariant and comes back; the kernel has no semaphore of its own and owes nothing.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Family
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv p2 where
  win := launch2.win.to₀
  block_pos := launch2.block_pos
  stage_whole := launch2.stage_whole
  K := PEmpty
  osem k := k.elim
  ho := Pipeline.OwnSemFacts.none _
  hbody c := (body_obligation2 (Vin2 m ρ) qFull c).loose
  hwaits := Pipeline.hwaits_of_owed_zero _ _ _ _ L lv p2 fun _ _ => rfl
  pre c := iprop(StableHlo.held (c : Thread nD τ) (Pipeline.ucRefs τ sig) (Win2 m ρ c) ∗ R c)
  post c := iprop(StableHlo.held (c : Thread nD τ) (Pipeline.ucRefs τ sig) (Wout2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := p2) (pcfgs (F := F)) adm (pdats m ρ) launch2.win launch2.arr_whole c
      ((pdats m ρ p2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ p2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ p2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := p2) (pcfgs (F := F)) adm (Ix := Unit) (Name := ℕ) (U := UR sig nD τ) (Lvl := ℕ)
      launch2.win launch2.arr_whole c (pdats m ρ) ((pdats m ρ p2 c).share_full fun _ => rfl)
      (Vin2 m ρ c) (Vout2 m ρ c) ((pdats m ρ p2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/-
  The run of @main. Its six items in order — a kernel region, then a stretch of host operations, three times — are
  the launch theorem's segments, each entered from the thread state the one before it left. Every weakly fair
  execution from any memory with zero counters terminates, nothing faulting, and every final state holds each
  unscoped buffer at the contents the fold through the items gives (`Wend`): in particular the two argument arrays
  as launched (no item writes them), and the result at the host tail's value of the three regions' outputs.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Seg0
import proofs.«168475_j46866683134277_1_alg».proof.Proof.Seg1
import proofs.«168475_j46866683134277_1_alg».proof.Proof.Seg2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`, `R` riding along: its exit
    state is those references at the stretch's value of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at
    some state. -/
abbrev Tₙ (c : Dev nD) : sProp 𝕄 := iprop(StableHlo.held (c : Thread nD τ) (Pipeline.ucRefs τ sig) (Wend m ρ c) ∗ ∃ r, prngReg c r)

/-- @main's six segments in order. -/
abbrev segs : List (Pipeline.Seg (pcfgs (F := F)) adm (pdats m ρ) () defs₀ 𝒱₀ L lv) :=
  [ .region (reg0 m ρ),
    .host (hseg hostOps1 hostOps1_sub hostOps1_fresh (Wout0 m ρ)),
    .region (reg1 m ρ),
    .host (hseg hostOps2 hostOps2_sub hostOps2_fresh (Wout1 m ρ)),
    .region (reg2 m ρ),
    .host (hseg hostOps3 hostOps3_sub hostOps3_fresh (Wout2 m ρ)) ]

/-- @main IS the run of the segments. -/
theorem main_run (c : Dev nD) : main (F := F) c = Pipeline.Seg.run (segs m ρ) := (main_chain c).trans (by chain_rfl)

set_option backward.isDefEq.respectTransparency.types false in
/-- THE RUN: every final state holds every unscoped buffer at the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Win0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (Wend m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Win0 m ρ c)
        from Pipeline.unscopedBufs_held c (Win0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

/-! ## The arguments end as launched -/

theorem after_hostOps1_main_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps2_main_arg0 (W : Valuation τ sig (Elt F)) :
    StableHlo.after hostOps2 W (Proc.devRef .tc main_arg0) = W (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps3_main_arg0 (W : Valuation τ sig (Elt F)) :
    StableHlo.after hostOps3 W (Proc.devRef .tc main_arg0) = W (Proc.devRef .tc main_arg0) :=
  StableHlo.after_of_forall_not_mem (b := Proc.devRef .tc main_arg0) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps1_main_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps2_main_arg1 (W : Valuation τ sig (Elt F)) :
    StableHlo.after hostOps2 W (Proc.devRef .tc main_arg1) = W (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
theorem after_hostOps3_main_arg1 (W : Valuation τ sig (Elt F)) :
    StableHlo.after hostOps3 W (Proc.devRef .tc main_arg1) = W (Proc.devRef .tc main_arg1) :=
  StableHlo.after_of_forall_not_mem (b := Proc.devRef .tc main_arg1) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))

theorem Wend_main_arg0 (c : Dev nD) : Wend m ρ c (Proc.devRef .tc main_arg0) = m ((c : Thread nD τ).loc main_arg0) :=
  (after_hostOps3_main_arg0 _).trans <| (Wout2_of_ne m ρ c main_arg0 (by decide)).trans <| (after_hostOps2_main_arg0 _).trans <|
    (Wout1_of_ne m ρ c main_arg0 (by decide)).trans <| (after_hostOps1_main_arg0 _).trans <| (Wout0_of_ne m ρ c main_arg0 (by decide)).trans rfl
theorem Wend_main_arg1 (c : Dev nD) : Wend m ρ c (Proc.devRef .tc main_arg1) = m ((c : Thread nD τ).loc main_arg1) :=
  (after_hostOps3_main_arg1 _).trans <| (Wout2_of_ne m ρ c main_arg1 (by decide)).trans <| (after_hostOps2_main_arg1 _).trans <|
    (Wout1_of_ne m ρ c main_arg1 (by decide)).trans <| (after_hostOps1_main_arg1 _).trans <| (Wout0_of_ne m ρ c main_arg1 (by decide)).trans rfl

/-- THE FRAME, at any instance: @main terminates, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Wend_main_arg0 m ρ c),
     (h c _ (mem_uc main_arg1 (by decide))).trans (Wend_main_arg1 m ρ c)⟩) (run_all m ρ)

end Cert.KernelIdeal.Hand

end
-- ==== Proof.Spec.lean ====
/-
  The specification both programs are compared through, over the extended reals. For two arrays of 8192 rows of 256
  entries, every pair of rows (a, b) has the Gaussian weight exp(-1/2 · max(|a|² + |b|² - 2 a·b, 0) / 128); the
  statistic is sqrt(mean_xx + mean_yy - 2 · mean_xy), each mean the sum of the weights over all 8192² pairs divided
  by 2^26. The kernel scales by the f32 word for 2^-7 where the reference divides by 128: the same extended real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The input arrays' shape. -/
abbrev SX : Shape := ⟨2, ![8192, 256]⟩

/-- A pair of rows' weight as the kernel forms it: the squared norms and the inner product plain sums, the scale the
    f32 word of 2^-7 multiplied in. -/
def wk (a b : Fin 256 → EReal) : EReal :=
  Ideal.exp ((Ideal.ofBits .f32 0xBF000000#32
      * max (((∑ d, a d * a d) + (∑ d, b d * b d)) - Ideal.ofBits .f32 0x40000000#32 * (∑ d, a d * b d))
          (Ideal.ofBits .f32 0x00000000#32))
    * Ideal.ofBits .f32 0x3C000000#32)

/-- The same weight as the reference forms it: each squared norm a host sum from a zero initial value, the scale a
    division by the f32 word of 128. -/
def wr (a b : Fin 256 → EReal) : EReal :=
  Ideal.exp (Ideal.div (Ideal.ofBits .f32 0xBF000000#32
      * max (((Ideal.ofBits .f32 0x00000000#32 + ∑ d, a d * a d) + (Ideal.ofBits .f32 0x00000000#32 + ∑ d, b d * b d))
            - Ideal.ofBits .f32 0x40000000#32 * (∑ d, a d * b d))
          (Ideal.ofBits .f32 0x00000000#32))
    (Ideal.ofBits .f32 0x43000000#32))

/-- Row `n` of an array. -/
def row (A : SX.Idx → EReal) (n : Fin 8192) : Fin 256 → EReal := fun d => A (ix2 n d)

/-- The sum of the weights over all pairs of rows. -/
def pairSum (A B : SX.Idx → EReal) : EReal := ∑ n : Fin 8192, ∑ m : Fin 8192, wr (row A n) (row B m)

/-- The scalar tail both programs apply to the three sums: each a host sum from a zero initial value divided by the
    f32 word of 2^26, then mean_xx + mean_yy - 2 · mean_xy and its square root. -/
def tail (sxx syy sxy : EReal) : EReal :=
  Ideal.sqrt ((Ideal.div (Ideal.ofBits .f32 0x00000000#32 + sxx) (Ideal.ofBits .f32 0x4C800000#32)
        + Ideal.div (Ideal.ofBits .f32 0x00000000#32 + syy) (Ideal.ofBits .f32 0x4C800000#32))
      - Ideal.ofBits .f32 0x40000000#32 * Ideal.div (Ideal.ofBits .f32 0x00000000#32 + sxy) (Ideal.ofBits .f32 0x4C800000#32))

/-- The statistic. -/
def result (X Y : SX.Idx → EReal) : EReal := tail (pairSum X X) (pairSum Y Y) (pairSum X Y)

end Cert.Spec

end
-- ==== Proof.Tail.lean ====
/-
  What @main returns, read back through its three stretches of host operations: each region's output array is summed
  over both axes from a zero initial value and divided by the f32 word of 2^26; the first two quotients are added, twice
  the third is subtracted, and the square root is taken. Over the extended reals that is the specification's scalar
  tail at the three arrays' total sums. The input arrays are written by no operation and no region, so every region
  enters with them as launched.
-/
import proofs.«168475_j46866683134277_1_alg».proof.Proof.Family
import proofs.«168475_j46866683134277_1_alg».proof.Proof.Spec
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## Each stretch of host operations, read at the buffer a later stretch consumes -/

/-- The first stretch leaves at its quotient's buffer the total sum of region 0's output, from zero, over 2^26. -/
theorem after1_v2 (V : Valuation τ sig (Elt Ideal)) :
    StableHlo.after hostOps1 V (Proc.devRef .tc main_v2)
      = Host.divf (Host.reduceAdd (V (Proc.devRef .tc main_v0)) (constant (F := Ideal) S_ .f32 0x00000000#32) reducesTo_S8192x1_S_d0_1 h_S_)
          (constant (F := Ideal) S_ .f32 0x4C800000#32) := by
  after_results

/-- The second stretch leaves at the sum's buffer the first quotient plus its own. -/
theorem after2_v6 (V : Valuation τ sig (Elt Ideal)) :
    StableHlo.after hostOps2 V (Proc.devRef .tc main_v6)
      = addf (V (Proc.devRef .tc main_v2))
          (Host.divf (Host.reduceAdd (V (Proc.devRef .tc main_v3)) (constant (F := Ideal) S_ .f32 0x00000000#32) reducesTo_S8192x1_S_d0_1 h_S_)
            (constant (F := Ideal) S_ .f32 0x4C800000#32)) := by
  after_results

/-- The last stretch leaves at the result's buffer the square root of that sum less twice its own quotient. -/
theorem after3_v12 (V : Valuation τ sig (Elt Ideal)) :
    StableHlo.after hostOps3 V (Proc.devRef .tc main_v12)
      = Host.sqrt (subf (V (Proc.devRef .tc main_v6))
          (mulf (constant (F := Ideal) S_ .f32 0x40000000#32)
            (Host.divf (Host.reduceAdd (V (Proc.devRef .tc main_v7)) (constant (F := Ideal) S_ .f32 0x00000000#32) reducesTo_S8192x1_S_d0_1 h_S_)
              (constant (F := Ideal) S_ .f32 0x4C800000#32)))) := by
  after_results

/-! ## Buffers a stretch does not write -/

/-- No operation of the first stretch writes a buffer outside its four results. -/
theorem after1_of_not_written (V : Valuation τ sig (Elt Ideal)) (r : Ref sig .tc)
    (hr : r ∉ [main_cst, main_v1, main_cst_0, main_v2]) :
    StableHlo.after hostOps1 V (Proc.devRef .tc r) = V (Proc.devRef .tc r) :=
  StableHlo.after_of_writes_sub (W := [main_cst, main_v1, main_cst_0, main_v2]) hostOps1 V (by
    simp only [hostOps1, List.Forall, StableHlo.nullary_writes, StableHlo.binary_writes, List.map, List.toFinset_cons,
      List.toFinset_nil]
    decide) hr

/-- No operation of the second stretch writes a buffer outside its five results. -/
theorem after2_of_not_written (V : Valuation τ sig (Elt Ideal)) (r : Ref sig .tc)
    (hr : r ∉ [main_cst_1, main_v4, main_cst_2, main_v5, main_v6]) :
    StableHlo.after hostOps2 V (Proc.devRef .tc r) = V (Proc.devRef .tc r) :=
  StableHlo.after_of_writes_sub (W := [main_cst_1, main_v4, main_cst_2, main_v5, main_v6]) hostOps2 V (by
    simp only [hostOps2, List.Forall, StableHlo.nullary_writes, StableHlo.binary_writes, List.map, List.toFinset_cons,
      List.toFinset_nil]
    decide) hr

/-! ## The tail over three arrays -/

/-- At the extended reals the three stretches' arithmetic is the specification's scalar tail at the arrays' total
    sums: a host sum over every axis is its initial value plus the sum over every index. -/
theorem tail_read (O0 O1 O2 : Vec Ideal S8192x1 .f32) :
    (Host.sqrt (subf
        (addf
          (Host.divf (Host.reduceAdd O0 (constant (F := Ideal) S_ .f32 0x00000000#32) reducesTo_S8192x1_S_d0_1 h_S_)
            (constant (F := Ideal) S_ .f32 0x4C800000#32))
          (Host.divf (Host.reduceAdd O1 (constant (F := Ideal) S_ .f32 0x00000000#32) reducesTo_S8192x1_S_d0_1 h_S_)
            (constant (F := Ideal) S_ .f32 0x4C800000#32)))
        (mulf (constant (F := Ideal) S_ .f32 0x40000000#32)
          (Host.divf (Host.reduceAdd O2 (constant (F := Ideal) S_ .f32 0x00000000#32) reducesTo_S8192x1_S_d0_1 h_S_)
            (constant (F := Ideal) S_ .f32 0x4C800000#32)))) : Vec Ideal S_ .f32)
      = fun _ => Cert.Spec.tail (∑ i : S8192x1.Idx, O0 i) (∑ i : S8192x1.Idx, O1 i) (∑ i : S8192x1.Idx, O2 i) := by
  funext j
  simp only [Host.sqrt, subf, addf, mulf, Host.divf, Host.reduceAdd, constant, Ideal.hostUnary_sqrt_def, Ideal.subf_def,
    Ideal.addf_def, Ideal.mulf_def, Ideal.hostDivf_def, Ideal.ofBits_def, Ideal.hostReduceAdd_def]
  rw [Ideal.hostReduceAdd_total reducesTo_S8192x1_S_d0_1 (fun b => b.elim0) O0 _ j,
    Ideal.hostReduceAdd_total reducesTo_S8192x1_S_d0_1 (fun b => b.elim0) O1 _ j,
    Ideal.hostReduceAdd_total reducesTo_S8192x1_S_d0_1 (fun b => b.elim0) O2 _ j]
  rfl

/-! ## What @main returns -/

/-- The first quotient's buffer at region 1's entry: the first stretch wrote it from region 0's output. -/
theorem Win1_v2 (c : Dev nD) :
    Win1 m ρ c (Proc.devRef .tc main_v2)
      = Host.divf (Host.reduceAdd ((dat0 (Vin0 m ρ) qHalf c).arrAt 2 cfg0.N : Vec Ideal S8192x1 .f32)
            (constant (F := Ideal) S_ .f32 0x00000000#32) reducesTo_S8192x1_S_d0_1 h_S_)
          (constant (F := Ideal) S_ .f32 0x4C800000#32) := by
  show StableHlo.after hostOps1 (Wout0 m ρ c) (Proc.devRef .tc main_v2) = _
  rw [after1_v2, Wout0_out]

/-- The sum's buffer at the second stretch's exit: the first quotient, carried through region 1, plus the second. -/
theorem Win2_v6 (c : Dev nD) :
    Win2 m ρ c (Proc.devRef .tc main_v6)
      = addf
          (Host.divf (Host.reduceAdd ((dat0 (Vin0 m ρ) qHalf c).arrAt 2 cfg0.N : Vec Ideal S8192x1 .f32)
              (constant (F := Ideal) S_ .f32 0x00000000#32) reducesTo_S8192x1_S_d0_1 h_S_)
            (constant (F := Ideal) S_ .f32 0x4C800000#32))
          (Host.divf (Host.reduceAdd ((dat1 (Vin1 m ρ) qHalf c).arrAt 2 cfg1.N : Vec Ideal S8192x1 .f32)
              (constant (F := Ideal) S_ .f32 0x00000000#32) reducesTo_S8192x1_S_d0_1 h_S_)
            (constant (F := Ideal) S_ .f32 0x4C800000#32)) := by
  show StableHlo.after hostOps2 (Wout1 m ρ c) (Proc.devRef .tc main_v6) = _
  rw [after2_v6, Wout1_out, Wout1_of_ne m ρ c main_v2 (by decide), Win1_v2]

/-- @main's result: the specification's scalar tail at the three regions' outputs' total sums. -/
theorem Wend_result (c : Dev nD) :
    Wend m ρ c (Proc.devRef .tc main_v12) = fun _ => Cert.Spec.tail
      (∑ i : S8192x1.Idx, ((dat0 (Vin0 m ρ) qHalf c).arrAt 2 cfg0.N : Vec Ideal S8192x1 .f32) i)
      (∑ i : S8192x1.Idx, ((dat1 (Vin1 m ρ) qHalf c).arrAt 2 cfg1.N : Vec Ideal S8192x1 .f32) i)
      (∑ i : S8192x1.Idx, ((dat2 (Vin2 m ρ) qFull c).arrAt 2 cfg2.N : Vec Ideal S8192x1 .f32) i) := by
  show StableHlo.after hostOps3 (Wout2 m ρ c) (Proc.devRef .tc main_v12) = _
  rw [after3_v12, Wout2_out, Wout2_of_ne m ρ c main_v6 (by decide), Win2_v6]
  exact tail_read _ _ _

/-! ## The input arrays at every region's entry -/

/-- The second input array enters region 1 as launched. -/
theorem Vin1_main_arg1 (c : Dev nD) : Vin1 m ρ c main_arg1 = m ((c : Thread nD τ).loc main_arg1) :=
  calc Win1 m ρ c (Proc.devRef .tc main_arg1)
    _ = Wout0 m ρ c (Proc.devRef .tc main_arg1) := after1_of_not_written _ _ (by decide)
    _ = Win0 m ρ c (Proc.devRef .tc main_arg1) := Wout0_of_ne m ρ c main_arg1 (by decide)
    _ = m ((c : Thread nD τ).loc main_arg1) := rfl

/-- The first input array enters region 1 as launched. -/
theorem Vin1_main_arg0 (c : Dev nD) : Vin1 m ρ c main_arg0 = m ((c : Thread nD τ).loc main_arg0) :=
  calc Win1 m ρ c (Proc.devRef .tc main_arg0)
    _ = Wout0 m ρ c (Proc.devRef .tc main_arg0) := after1_of_not_written _ _ (by decide)
    _ = Win0 m ρ c (Proc.devRef .tc main_arg0) := Wout0_of_ne m ρ c main_arg0 (by decide)
    _ = m ((c : Thread nD τ).loc main_arg0) := rfl

/-- The first input array enters region 2 as launched. -/
theorem Vin2_main_arg0 (c : Dev nD) : Vin2 m ρ c main_arg0 = m ((c : Thread nD τ).loc main_arg0) :=
  calc Win2 m ρ c (Proc.devRef .tc main_arg0)
    _ = Wout1 m ρ c (Proc.devRef .tc main_arg0) := after2_of_not_written _ _ (by decide)
    _ = Win1 m ρ c (Proc.devRef .tc main_arg0) := Wout1_of_ne m ρ c main_arg0 (by decide)
    _ = m ((c : Thread nD τ).loc main_arg0) := Vin1_main_arg0 m ρ c

/-- The second input array enters region 2 as launched. -/
theorem Vin2_main_arg1 (c : Dev nD) : Vin2 m ρ c main_arg1 = m ((c : Thread nD τ).loc main_arg1) :=
  calc Win2 m ρ c (Proc.devRef .tc main_arg1)
    _ = Wout1 m ρ c (Proc.devRef .tc main_arg1) := after2_of_not_written _ _ (by decide)
    _ = Win1 m ρ c (Proc.devRef .tc main_arg1) := Wout1_of_ne m ρ c main_arg1 (by decide)
    _ = m ((c : Thread nD τ).loc main_arg1) := Vin1_main_arg1 m ρ c

end Cert.KernelIdeal.Hand

end
-- ==== Proof.PayIdx.lean ====
/-
  The kernel body's two stored values read at an index, over the extended reals. The first store writes the zero word
  everywhere. The second adds, to the column already in the output block, the row sums of the Gaussian weight matrix of
  the two input blocks: entry (p, s) of that matrix is exp(-1/2 · max(|a_p|² + |b_s|² - 2 a_p·b_s, 0) · 2^-7), the
  squared norms lane sums of squares, the inner products one matrix product contracting the feature axis of both blocks.
-/
import proofs.«168475_j46866683134277_1_alg».proof.Proof.Spec
import proofs.«168475_j46866683134277_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen Cert.Spec

/-! ## The keepdims column forms of the layout operations, read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sums -/

/-- The lane sum of a `[1024, 256]` block, read at row `p`: the plain sum of that row (no initial term). -/
theorem rowsum256_apply (v : FVec Ideal S1024x256 .f32) (p : Fin 1024) :
    multiReduction (F := Ideal) .add [1] S1024 v 0x00000000#32 reduces_S1024x256_S1024 (.inl rfl) rfl (ix1 p)
      = ∑ d : Fin 256, v (ix2 p d) := by
  refine (Ideal.multiReduction_add_single v 0x00000000#32 reduces_S1024x256_S1024 (.inl rfl) rfl (ix1 p)).trans ?_
  show ∑ d : Fin 256, v (reduces_S1024x256_S1024.lift (ix1 p) d) = ∑ d : Fin 256, v (ix2 p d)
  refine Finset.sum_congr rfl fun d _ => congrArg v ?_
  funext a
  apply Fin.ext
  match a with
  | ⟨0, _⟩ => rfl
  | ⟨1, _⟩ => rfl

/-- The lane sum of a `[1024, 1024]` matrix, read at row `p`: the plain sum of that row. -/
theorem rowsum1024_apply (v : FVec Ideal S1024x1024 .f32) (p : Fin 1024) :
    multiReduction (F := Ideal) .add [1] S1024 v 0x00000000#32 reduces_S1024x1024_S1024 (.inl rfl) rfl (ix1 p)
      = ∑ s : Fin 1024, v (ix2 p s) := by
  refine (Ideal.multiReduction_add_single v 0x00000000#32 reduces_S1024x1024_S1024 (.inl rfl) rfl (ix1 p)).trans ?_
  show ∑ s : Fin 1024, v (reduces_S1024x1024_S1024.lift (ix1 p) s) = ∑ s : Fin 1024, v (ix2 p s)
  refine Finset.sum_congr rfl fun s _ => congrArg v ?_
  funext a
  apply Fin.ext
  match a with
  | ⟨0, _⟩ => rfl
  | ⟨1, _⟩ => rfl

/-! ## The matrix product

The product's left operand index at output index `i` and contraction index `q` is `(i 0, q)`, its right operand index
`(i 1, q)`: one equation per operand axis. -/

theorem lhs_dot_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_dot_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_dot_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_dot_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The matrix product of two `[1024, 256]` blocks contracting the second axis of both, into a zero accumulator, read
    at `(p, s)`: the inner product of row `p` of the first with row `s` of the second. -/
theorem gram_apply (y0 y1 : FVec Ideal S1024x256 .bf16) (p s : Fin 1024) :
    matmul (F := Ideal) dot_S1024x256_S1024x256_S1024x1024_1_1_0_0_n_n none y0 y1 (constant (F := Ideal) S1024x1024 .f32 0x00000000#32) (ix2 p s)
      = ∑ d : Fin 256, y0 (ix2 p d) * y1 (ix2 s d) := by
  refine (Ideal.matmul_constant_zero_apply dot_S1024x256_S1024x256_S1024x1024_1_1_0_0_n_n none y0 y1 (ix2 p s)).trans ?_
  rw [← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p s) ((ValueIdx.contrEquiv1 dot_S1024x256_S1024x256_S1024x1024_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S1024x256_S1024x1024_1_1_0_0_n_n.rhsIdx (ix2 p s) ((ValueIdx.contrEquiv1 dot_S1024x256_S1024x256_S1024x1024_1_1_0_0_n_n 256 rfl rfl).symm k) = ix2 s k := funext fun a => Fin.ext (by
    match a with
    | ⟨0, _⟩ => exact rhs_dot_0 _ _
    | ⟨1, _⟩ => exact (rhs_dot_1 _ _).trans hk)
  rw [el, er]

/-! ## The second stored value, piece by piece -/

/-- The column of squared norms of a block's rows: the lane sums of the squares, kept as a `[1024, 1]` column. -/
def sqcol (v : FVec Ideal S1024x256 .f32) : FVec Ideal S1024x1 .f32 :=
  shapeCast S1024x1
    (multiReduction (F := Ideal) .add [1] S1024 (mulf v v) 0x00000000#32 reduces_S1024x256_S1024 (.inl rfl) rfl)
    shapeCasts_S1024_S1024x1

/-- The squared norm of row `p`. -/
theorem sqcol_apply (v : FVec Ideal S1024x256 .f32) (p : Fin 1024) (u : Fin 1) :
    sqcol v (ix2 p u) = ∑ d : Fin 256, v (ix2 p d) * v (ix2 p d) := by
  unfold sqcol
  refine (shapeCast_a_a1_apply _ shapeCasts_S1024_S1024x1 p u).trans ?_
  exact rowsum256_apply (mulf v v) p

/-- The matrix of Gaussian weights of the rows of two blocks, as the body forms it. -/
def wmat (x0 x1 : FVec Ideal S1024x256 .f32) : FVec Ideal S1024x1024 .f32 :=
  exp (mulf
    (mulf (broadcast S1024x1024 (Scalar.ofBits (F := Ideal) .f32 0xBF000000#32))
      (maximumf
        (subf
          (addf (broadcastTo S1024x1024 (sqcol x0) broadcasts_S1024x1_S1024x1024)
            (broadcastTo S1024x1024 (transpose S1x1024 [1, 0] (sqcol x1) transposes_S1024x1_p1_0_S1x1024)
              broadcasts_S1x1024_S1024x1024))
          (mulf (broadcast S1024x1024 (Scalar.ofBits (F := Ideal) .f32 0x40000000#32))
            (matmul (F := Ideal) dot_S1024x256_S1024x256_S1024x1024_1_1_0_0_n_n none
              (truncf .bf16 x0 bitsLt_bf16_f32) (truncf .bf16 x1 bitsLt_bf16_f32)
              (constant (F := Ideal) S1024x1024 .f32 0x00000000#32))))
        (broadcast S1024x1024 (Scalar.ofBits (F := Ideal) .f32 0x00000000#32))))
    (broadcast S1024x1024 (Scalar.ofBits (F := Ideal) .f32 0x3C000000#32)))

/-- Entry `(p, s)` of the weight matrix is the weight of row `p` of the first block and row `s` of the second. -/
theorem wmat_apply (x0 x1 : FVec Ideal S1024x256 .f32) (p s : Fin 1024) :
    wmat x0 x1 (ix2 p s) = wk (fun d => x0 (ix2 p d)) (fun d => x1 (ix2 s d)) := by
  have ha : broadcastTo S1024x1024 (sqcol x0) broadcasts_S1024x1_S1024x1024 (ix2 p s)
      = ∑ d : Fin 256, x0 (ix2 p d) * x0 (ix2 p d) :=
    (broadcastTo_a1_ab_apply (sqcol x0) broadcasts_S1024x1_S1024x1024 p s).trans (sqcol_apply x0 p 0)
  have hb : broadcastTo S1024x1024 (transpose S1x1024 [1, 0] (sqcol x1) transposes_S1024x1_p1_0_S1x1024)
        broadcasts_S1x1024_S1024x1024 (ix2 p s)
      = ∑ d : Fin 256, x1 (ix2 s d) * x1 (ix2 s d) :=
    ((broadcastTo_1b_ab_apply _ broadcasts_S1x1024_S1024x1024 p s).trans
      (transpose_ix2_apply (sqcol x1) transposes_S1024x1_p1_0_S1x1024 (0 : Fin 1) s)).trans (sqcol_apply x1 s 0)
  have hg : matmul (F := Ideal) dot_S1024x256_S1024x256_S1024x1024_1_1_0_0_n_n none
        (truncf .bf16 x0 bitsLt_bf16_f32) (truncf .bf16 x1 bitsLt_bf16_f32)
        (constant (F := Ideal) S1024x1024 .f32 0x00000000#32) (ix2 p s)
      = ∑ d : Fin 256, x0 (ix2 p d) * x1 (ix2 s d) :=
    gram_apply (truncf .bf16 x0 bitsLt_bf16_f32) (truncf .bf16 x1 bitsLt_bf16_f32) p s
  show Ideal.exp ((Ideal.ofBits .f32 0xBF000000#32
      * max ((broadcastTo S1024x1024 (sqcol x0) broadcasts_S1024x1_S1024x1024 (ix2 p s)
            + broadcastTo S1024x1024 (transpose S1x1024 [1, 0] (sqcol x1) transposes_S1024x1_p1_0_S1x1024)
                broadcasts_S1x1024_S1024x1024 (ix2 p s))
          - Ideal.ofBits .f32 0x40000000#32
            * matmul (F := Ideal) dot_S1024x256_S1024x256_S1024x1024_1_1_0_0_n_n none
                (truncf .bf16 x0 bitsLt_bf16_f32) (truncf .bf16 x1 bitsLt_bf16_f32)
                (constant (F := Ideal) S1024x1024 .f32 0x00000000#32) (ix2 p s))
          (Ideal.ofBits .f32 0x00000000#32))
    * Ideal.ofBits .f32 0x3C000000#32) = _
  rw [ha, hb, hg]
  rfl

/-- The second stored value is the column already in the output block plus the row sums of the weight matrix. -/
theorem pay2_eq (x0 x1 : Vec Ideal S1024x256 .f32) (xo : Vec Ideal S1024x1 .f32) :
    k0_pay2 (F := Ideal) x0 x1 xo
      = addf (shapeCast S1024x1 xo shapeCasts_S1024x1_S1024x1)
          (shapeCast S1024x1
            (multiReduction (F := Ideal) .add [1] S1024 (wmat x0 x1) 0x00000000#32 reduces_S1024x1024_S1024 (.inl rfl) rfl)
            shapeCasts_S1024_S1024x1) := rfl

/-! ## The two stored values at an index -/

/-- The first store writes the zero word at every row. -/
theorem pay1_apply (p : Fin 1024) : k0_pay1 (F := Ideal) (ix2 p (0 : Fin 1)) = Ideal.ofBits .f32 0x00000000#32 := rfl

/-- The second store writes, at row `p`, what the output block held there plus the sum over the second block's rows
    `s` of the weight of (row `p` of the first block, row `s` of the second). -/
theorem pay2_apply (x0 x1 : Vec Ideal S1024x256 .f32) (xo : Vec Ideal S1024x1 .f32) (p : Fin 1024) :
    k0_pay2 (F := Ideal) x0 x1 xo (ix2 p (0 : Fin 1))
      = xo (ix2 p (0 : Fin 1)) + ∑ s : Fin 1024, wk (fun d => x0 (ix2 p d)) (fun d => x1 (ix2 s d)) := by
  refine (congrFun (pay2_eq x0 x1 xo) (ix2 p (0 : Fin 1))).trans ?_
  refine (addf_apply _ _ _).trans ?_
  have h1 : shapeCast S1024x1 xo shapeCasts_S1024x1_S1024x1 (ix2 p (0 : Fin 1)) = xo (ix2 p (0 : Fin 1)) :=
    congrFun (shapeCast_self xo shapeCasts_S1024x1_S1024x1) _
  have h2 : shapeCast S1024x1
        (multiReduction (F := Ideal) .add [1] S1024 (wmat x0 x1) 0x00000000#32 reduces_S1024x1024_S1024 (.inl rfl) rfl)
        shapeCasts_S1024_S1024x1 (ix2 p (0 : Fin 1))
      = ∑ s : Fin 1024, wk (fun d => x0 (ix2 p d)) (fun d => x1 (ix2 s d)) :=
    ((shapeCast_a_a1_apply _ shapeCasts_S1024_S1024x1 p 0).trans (rowsum1024_apply (wmat x0 x1) p)).trans
      (Finset.sum_congr rfl fun s _ => wmat_apply x0 x1 p s)
  rw [h1, h2]

/-! ## The program's other two calls run the same body -/

theorem k1_pay1_eq : @k1_pay1 = @k0_pay1 := rfl
theorem k1_pay2_eq : @k1_pay2 = @k0_pay2 := rfl
theorem k2_pay1_eq : @k2_pay1 = @k0_pay1 := rfl
theorem k2_pay2_eq : @k2_pay2 = @k0_pay2 := rfl

end Cert.KernelIdeal.Hand

end
-- ==== Proof.Algebra.lean ====
/-
  Three algebraic facts the value legs share.

  * The two spellings of a pair of rows' weight agree on every pair of rows of extended reals: the f32 zero word
    denotes 0 and 0 + x = x; the word 0x43000000 denotes 128 and the word 0x3C000000 denotes 1/128, and dividing an
    extended real by the nonzero real 128 is multiplying it by 1/128, at the infinities too.
  * Eight consecutive tiles of 1024 indices are the 8192 indices: (jt, s) ↦ 1024 · jt + s is a bijection of
    Fin 8 × Fin 1024 with Fin 8192.
  * A sum over an array of one column is the sum over its rows.
-/
import proofs.«168475_j46866683134277_1_alg».proof.Proof.Spec
import Mathlib.Algebra.BigOperators.Fin
import Mathlib.Logic.Equiv.Fin.Basic

noncomputable section

namespace Cert.Spec

open Idealize.ShloMosaic Idealize.ShloMosaic.ValueIdx

/-- The f32 word 0x43000000 (sign 0, exponent field 134, fraction 0) denotes 2^23 · 2^(134 - 127 - 23) = 128. -/
theorem ofBits_128 : Ideal.ofBits .f32 0x43000000#32 = ((128 : ℝ) : EReal) := by
  simp [Ideal.ofBits, Ideal.ieee, -EReal.coe_mul]; norm_num

/-- The f32 word 0x3C000000 (sign 0, exponent field 120, fraction 0) denotes 2^23 · 2^(120 - 127 - 23) = 1/128. -/
theorem ofBits_inv128 : Ideal.ofBits .f32 0x3C000000#32 = ((1 / 128 : ℝ) : EReal) := by
  simp [Ideal.ofBits, Ideal.ieee, -EReal.coe_mul]; norm_num

/-- The kernel's weight of a pair of rows is the reference's. -/
theorem wk_eq_wr (a b : Fin 256 → EReal) : wk a b = wr a b := by
  unfold wk wr
  rw [ofBits_128, ofBits_inv128, Ideal.div_coe (by norm_num : (128 : ℝ) ≠ 0), Ideal.ofBits_zero_f32, zero_add,
    zero_add]

/-- Eight tiles of 1024 are the 8192 indices. -/
theorem sum_tiles {M : Type*} [AddCommMonoid M] (g : Fin 8192 → M) :
    ∑ jt : Fin 8, ∑ s : Fin 1024, g ⟨1024 * jt.val + s.val, by have := jt.isLt; have := s.isLt; omega⟩ = ∑ m : Fin 8192, g m := by
  -- the pairing (jt, s) ↦ s + 1024 · jt of Fin 8 × Fin 1024 with Fin (8 · 1024)
  have h := Equiv.sum_comp (finProdFinEquiv : Fin 8 × Fin 1024 ≃ Fin (8 * 1024)) (g : Fin (8 * 1024) → M)
  rw [Fintype.sum_prod_type] at h
  refine Eq.trans ?_ h
  refine Finset.sum_congr rfl fun jt _ => Finset.sum_congr rfl fun s _ => congrArg g (Fin.ext ?_)
  show 1024 * jt.val + s.val = s.val + 1024 * jt.val
  omega

/-- A sum over an array of one column is the sum over its rows. -/
theorem sum_col {M : Type*} [AddCommMonoid M] (f : (⟨2, ![8192, 1]⟩ : Shape).Idx → M) :
    ∑ i, f i = ∑ n : Fin 8192, f (ix2 n (0 : Fin 1)) := by
  rw [sum_idx2]
  exact Finset.sum_congr rfl fun n _ => Fin.sum_univ_one _

end Cert.Spec

end
-- ==== Proof.Cover0.lean ====
/-
  The first pallas_call's arrays, index by index. Its grid is 8 × 8 and the point t = 8·i + j (the column tile j runs
  fastest). The first input's block at t is rows 1024·i … 1024·i + 1023 of its array, the second input's is rows
  1024·j … 1024·j + 1023 of the same array, and the output's block is rows 1024·i … 1024·i + 1023 of a one-column
  array, written back at the last point of each row tile (j = 7). So row n of the output array ends holding row
  n mod 1024 of what the body left at the point 8·(n / 1024) + 7.
-/
import proofs.«168475_j46866683134277_1_alg».proof.Proof.Data0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The three printed index maps over the grid: the first input and the output move with the row tile t / 8, the
    second input with the column tile t % 8; no window moves along its second axis. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The first input's block at point t, at row p and column d, is the array's entry at row 1024·(t / 8) + p. -/
theorem iblk0_0_apply (c : Dev nD) (t : Fin cfg0.N) (p : Fin 1024) (d : Fin 256) :
    (iblk0 V c 0 t : Vec F S1024x256 .f32) (ix2 p d)
      = (V c (Pipeline.arrRef spec0 0) : Vec F S8192x256 .f32) (ix2 ⟨1024 * (t.val / 8) + p.val, by have := lt_of_lt_of_eq t.isLt (show cfg0.N = 64 from N_0); have := p.isLt; omega⟩ d) := by
  obtain ⟨e0, e1, -, -, -, -⟩ := idx_facts0 t
  unfold iblk0
  rw [View.read_apply]
  show V c (Pipeline.arrRef spec0 0) (((cfg0.win 0).blk t).view.emb (ix2 p d)) = _
  refine congrArg (V c (Pipeline.arrRef spec0 0)) ?_
  funext a
  apply Fin.ext
  match a with
  | ⟨0, _⟩ =>
    show win0_0.index t (0 : Fin 2) * 1024 + 1 * p.val = 1024 * (t.val / 8) + p.val
    rw [e0]; omega
  | ⟨1, _⟩ =>
    show win0_0.index t (1 : Fin 2) * 256 + 1 * d.val = d.val
    rw [e1]; omega

/-- The second input's block at point t, at row s and column d, is the array's entry at row 1024·(t % 8) + s. -/
theorem iblk0_1_apply (c : Dev nD) (t : Fin cfg0.N) (s : Fin 1024) (d : Fin 256) :
    (iblk0 V c 1 t : Vec F S1024x256 .f32) (ix2 s d)
      = (V c (Pipeline.arrRef spec0 1) : Vec F S8192x256 .f32) (ix2 ⟨1024 * (t.val % 8) + s.val, by have := s.isLt; omega⟩ d) := by
  obtain ⟨-, -, e2, e3, -, -⟩ := idx_facts0 t
  unfold iblk0
  rw [View.read_apply]
  show V c (Pipeline.arrRef spec0 1) (((cfg0.win 1).blk t).view.emb (ix2 s d)) = _
  refine congrArg (V c (Pipeline.arrRef spec0 1)) ?_
  funext a
  apply Fin.ext
  match a with
  | ⟨0, _⟩ =>
    show win0_1.index t (0 : Fin 2) * 1024 + 1 * s.val = 1024 * (t.val % 8) + s.val
    rw [e2]; omega
  | ⟨1, _⟩ =>
    show win0_1.index t (1 : Fin 2) * 256 + 1 * d.val = d.val
    rw [e3]; omega

/-- What the body left depends on the position only through its value. -/
theorem outsAt0_congr (c : Dev nD) {n n' : ℕ} (h : n = n') (hn : n < cfg0.N) (hn' : n' < cfg0.N) :
    outsAt0 V c n hn = outsAt0 V c n' hn' := by
  subst h; rfl

/-- The output array as ONE function of the row: row n holds row n % 1024 of what the body left at the last point
    of row tile n / 1024, the point 8·(n / 1024) + 7. -/
def G0 (c : Dev nD) : Vec F S8192x1 .f32 := fun i =>
  outsAt0 V c (8 * ((i 0).val / 1024) + 7)
    (by have := idx2_lt0 i; rw [show cfg0.N = 64 from N_0]; omega)
    (ix2 ⟨(i 0).val % 1024, Nat.mod_lt _ (by norm_num)⟩ (0 : Fin 1))

/-- At a point t that ends its row tile (t % 8 = 7), the array's row 1024·(t / 8) + r is row r of what the body left
    at t. -/
theorem G0_apply (c : Dev nD) (t : Fin cfg0.N) (h7 : t.val % 8 = 7) (i : S8192x1.Idx) (j : S1024x1.Idx)
    (h0 : (i 0).val = t.val / 8 * 1024 + (j 0).val) : G0 V c i = outsAt0 V c t.val t.isLt j := by
  have hj0 : (j 0).val < 1024 := idx2_lt0 j
  have hj1 : (j 1).val < 1 := idx2_lt1 j
  have hn : 8 * ((i 0).val / 1024) + 7 = t.val := by omega
  unfold G0
  refine (congrFun (outsAt0_congr V c hn _ t.isLt) _).trans ?_
  refine congrArg (outsAt0 V c t.val t.isLt) ?_
  funext a
  apply Fin.ext
  match a with
  | ⟨0, _⟩ => show (i 0).val % 1024 = (j 0).val; omega
  | ⟨1, _⟩ => show 0 = (j 1).val; omega

variable (q : Fin cfg0.W → PosShare TreeShare)

/-- What a point that ends its row tile writes back is its block of that one function. -/
theorem flushed0_2_eq (c : Dev nD) (t : Fin cfg0.N) (hf : (cfg0.win 2).flush t = true) :
    (dat0 V q c).flushed 2 t = ((cfg0.win 2).blk t).view.read (Elt F) (G0 V c) := by
  have h7 : t.val % 8 = 7 := (flush0_2 t).mp hf
  obtain ⟨-, -, -, -, e4, e5⟩ := idx_facts0 t
  show (cfg0.win 2).cut (grid0.coords t) ((dat0 V q c).after 2 t) = _
  rw [after0_2]
  funext y
  rw [View.read_apply]
  show outsAt0 V c t.val t.isLt ((cfg0.win 2).xinj (grid0.coords t) y) = G0 V c (((cfg0.win 2).blk t).view.emb y)
  exact (G0_apply V c t h7 _ _ (by
    show win0_2.index t (0 : Fin 2) * 1024 + 1 * (y 0).val = t.val / 8 * 1024 + (y 0).val
    rw [e4]; omega)).symm

/-- A row of the output array lies in point t's block iff each coordinate is in the block's range on its axis. -/
theorem mem_blk0_2 (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole (Pipeline.arrRef spec0 2)).slice (win0_2.rect t)).set ↔ _
  rw [View.set_slice_whole, Rect.mem_set_unit]
  exact Iff.rfl

/-- Every row is written back: row r by the point 8·(r / 1024) + 7, the last of its row tile. -/
theorem cover0_2 (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  obtain ⟨t, ht⟩ : ∃ t : Fin cfg0.N, t.val = 8 * ((i 0).val / 1024) + 7 :=
    ⟨⟨8 * ((i 0).val / 1024) + 7, by rw [show cfg0.N = 64 from N_0]; omega⟩, rfl⟩
  obtain ⟨-, -, -, -, e4, e5⟩ := idx_facts0 t
  refine ⟨t, (flush0_2 t).mpr (by omega), ?_⟩
  rw [mem_blk0_2]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1 ≤ (i 1).val ∧ (i 1).val < win0_2.index t (1 : Fin 2) * 1 + 1
    rw [e5]; omega

/-- So the output array after the run is that function. -/
theorem arr0_2_eq (c : Dev nD) : (dat0 V q c).arrAt 2 cfg0.N = G0 V c :=
  (dat0 V q c).arrAt_eq_of_cover 2 (G0 V c) (flushed0_2_eq V q c) cover0_2

/-- Row n of the output array after the run: row n % 1024 of what the body left at the point 8·(n / 1024) + 7. -/
theorem final0 (c : Dev nD) (n : Fin 8192) :
    ((dat0 V q c).arrAt 2 cfg0.N : Vec F S8192x1 .f32) (ix2 n (0 : Fin 1))
      = outsAt0 V c (8 * (n.val / 1024) + 7) (by have := n.isLt; rw [show cfg0.N = 64 from N_0]; omega)
          (ix2 ⟨n.val % 1024, Nat.mod_lt _ (by norm_num)⟩ (0 : Fin 1)) :=
  (congrFun (arr0_2_eq V q c) (ix2 n (0 : Fin 1))).trans rfl

end Region0

end Cert.KernelIdeal.Hand

end
-- ==== Proof.Val0.lean ====
/-
  The first kernel call's output array, summed. Point 8·i + j of the 8 × 8 grid adds, to row p of the output block,
  the weights of row 1024·i + p of the first array against the 1024 rows of tile j of the second. The block restarts
  from the zero word at j = 0 and is written back after j = 7, so the output array's entry n is the sum, over all
  8192 rows m of the second array, of the weight of (row n, row m); the array's sum is the sum over all pairs of rows.
-/
import proofs.«168475_j46866683134277_1_alg».proof.Proof.Data0
import proofs.«168475_j46866683134277_1_alg».proof.Proof.PayIdx
import proofs.«168475_j46866683134277_1_alg».proof.Proof.Algebra
import proofs.«168475_j46866683134277_1_alg».proof.Proof.Cover0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec

variable {F : FTy → Type} [FloatOps F]

local notation "𝕄" => MT nD τ sig Unit (Elt F) ℕ (UR sig nD τ) ℕ

/-! ## The two stored values of this call's body, at a row -/

/-- The first store writes 0 at every row. -/
theorem pay1_0 (p : Fin 1024) : k0_pay1 (F := Ideal) (ix2 p (0 : Fin 1)) = 0 :=
  (pay1_apply p).trans Ideal.ofBits_zero_f32

/-- The second store writes, at row `p`, what the output block held there plus the weights of row `p` of the first
    block against every row of the second. -/
theorem pay2_0 (x0 x1 : Vec Ideal S1024x256 .f32) (xo : Vec Ideal S1024x1 .f32) (p : Fin 1024) :
    k0_pay2 (F := Ideal) x0 x1 xo (ix2 p (0 : Fin 1))
      = xo (ix2 p (0 : Fin 1)) + ∑ s : Fin 1024, wk (fun d => x0 (ix2 p d)) (fun d => x1 (ix2 s d)) :=
  pay2_apply x0 x1 xo p

/-! ## Rows by tile -/

/-- Row `1024·i + p` of an array of 8192 rows. The index wraps at 8192, which keeps the function total; for `i < 8`
    it never does. -/
def tix0 (i : ℕ) (p : Fin 1024) : Fin 8192 := ⟨(1024 * i + p.val) % 8192, Nat.mod_lt _ (by norm_num)⟩

theorem tix0_eq (i : ℕ) (p : Fin 1024) (h : 1024 * i + p.val < 8192) : tix0 i p = ⟨1024 * i + p.val, h⟩ :=
  Fin.ext (Nat.mod_eq_of_lt h)

/-- The weights of row `n` of `A` against the 1024 rows of tile `jt` of `B`, summed. -/
def tileSum0 (A B : Vec Ideal S8192x256 .f32) (n : Fin 8192) (jt : ℕ) : EReal :=
  ∑ s : Fin 1024, wk (row A n) (row B (tix0 jt s))

/-- The last point of the row tile that holds row `n`. -/
theorem lastPt0 (n : Fin 8192) : 8 * (n.val / 1024) + 7 < cfg0.N := by
  rw [show cfg0.N = 64 from N_0]
  have := n.isLt
  omega

section Region0

variable (V : (c : Dev nD) → (b : Ref sig .tc) → Buf (Elt Ideal) ((c : Thread nD τ).loc b))
variable (c : Dev nD) (A B : Vec Ideal S8192x256 .f32)

/-- One point's contribution: with the first window's block at point `t` the rows of tile `t / 8` of `A` and the
    second's the rows of tile `t % 8` of `B`, the weights the body sums at row `p` are that row's against that tile. -/
theorem wkBlk0
    (hA : ∀ (t : Fin cfg0.N) (p : Fin 1024) (d : Fin 256),
      (iblk0 V c 0 t : Vec Ideal S1024x256 .f32) (ix2 p d) = A (ix2 (tix0 (t.val / 8) p) d))
    (hB : ∀ (t : Fin cfg0.N) (s : Fin 1024) (d : Fin 256),
      (iblk0 V c 1 t : Vec Ideal S1024x256 .f32) (ix2 s d) = B (ix2 (tix0 (t.val % 8) s) d))
    (t : Fin cfg0.N) (p : Fin 1024) :
    ∑ s : Fin 1024, wk (fun d => (iblk0 V c 0 t : Vec Ideal S1024x256 .f32) (ix2 p d))
        (fun d => (iblk0 V c 1 t : Vec Ideal S1024x256 .f32) (ix2 s d))
      = tileSum0 A B (tix0 (t.val / 8) p) (t.val % 8) :=
  Finset.sum_congr rfl fun s _ => congrArg₂ wk (funext fun d => hA t p d) (funext fun d => hB t s d)

/-- The output block after a point that restarts it: the point's own tile. -/
theorem stepA0
    (hA : ∀ (t : Fin cfg0.N) (p : Fin 1024) (d : Fin 256),
      (iblk0 V c 0 t : Vec Ideal S1024x256 .f32) (ix2 p d) = A (ix2 (tix0 (t.val / 8) p) d))
    (hB : ∀ (t : Fin cfg0.N) (s : Fin 1024) (d : Fin 256),
      (iblk0 V c 1 t : Vec Ideal S1024x256 .f32) (ix2 s d) = B (ix2 (tix0 (t.val % 8) s) d))
    (t : Fin cfg0.N) (h0 : t.val % 8 = 0) (p : Fin 1024) :
    (outsAt0 V c t.val t.isLt : Vec Ideal S1024x1 .f32) (ix2 p (0 : Fin 1))
      = tileSum0 A B (tix0 (t.val / 8) p) (t.val % 8) := by
  refine (congrFun (outsAt0_A V c t h0) (ix2 p (0 : Fin 1))).trans ?_
  refine (pay2_0 _ _ _ p).trans ?_
  rw [pay1_0, zero_add]
  exact wkBlk0 V c A B hA hB t p

/-- The output block after any other point: what the point before left, plus the point's own tile. -/
theorem stepB0
    (hA : ∀ (t : Fin cfg0.N) (p : Fin 1024) (d : Fin 256),
      (iblk0 V c 0 t : Vec Ideal S1024x256 .f32) (ix2 p d) = A (ix2 (tix0 (t.val / 8) p) d))
    (hB : ∀ (t : Fin cfg0.N) (s : Fin 1024) (d : Fin 256),
      (iblk0 V c 1 t : Vec Ideal S1024x256 .f32) (ix2 s d) = B (ix2 (tix0 (t.val % 8) s) d))
    (t : Fin cfg0.N) (h0 : ¬t.val % 8 = 0) (p : Fin 1024) :
    (outsAt0 V c t.val t.isLt : Vec Ideal S1024x1 .f32) (ix2 p (0 : Fin 1))
      = (outsAt0 V c (t.val - 1) (Nat.lt_of_le_of_lt (Nat.sub_le _ _) t.isLt) : Vec Ideal S1024x1 .f32) (ix2 p (0 : Fin 1))
        + tileSum0 A B (tix0 (t.val / 8) p) (t.val % 8) := by
  refine (congrFun (outsAt0_B V c t h0) (ix2 p (0 : Fin 1))).trans ?_
  refine (pay2_0 _ _ _ p).trans ?_
  rw [wkBlk0 V c A B hA hB t p]

/-- After point `n` of the grid, row `p` of the output block holds the weights of row `1024·(n / 8) + p` of `A`
    against the tiles `0 … n % 8` of `B`: by induction on the point, a restart at every eighth. -/
theorem acc0
    (hA : ∀ (t : Fin cfg0.N) (p : Fin 1024) (d : Fin 256),
      (iblk0 V c 0 t : Vec Ideal S1024x256 .f32) (ix2 p d) = A (ix2 (tix0 (t.val / 8) p) d))
    (hB : ∀ (t : Fin cfg0.N) (s : Fin 1024) (d : Fin 256),
      (iblk0 V c 1 t : Vec Ideal S1024x256 .f32) (ix2 s d) = B (ix2 (tix0 (t.val % 8) s) d))
    (n : ℕ) : ∀ (hn : n < cfg0.N) (p : Fin 1024),
    (outsAt0 V c n hn : Vec Ideal S1024x1 .f32) (ix2 p (0 : Fin 1))
      = ∑ jt ∈ Finset.range (n % 8 + 1), tileSum0 A B (tix0 (n / 8) p) jt := by
  induction n with
  | zero =>
    intro hn p
    exact (stepA0 V c A B hA hB ⟨0, hn⟩ rfl p).trans (Finset.sum_range_one _).symm
  | succ n ih =>
    intro hn p
    by_cases h0 : (n + 1) % 8 = 0
    · refine (stepA0 V c A B hA hB ⟨n + 1, hn⟩ h0 p).trans ?_
      show tileSum0 A B (tix0 ((n + 1) / 8) p) ((n + 1) % 8) = _
      rw [h0]
      exact (Finset.sum_range_one _).symm
    · refine (stepB0 V c A B hA hB ⟨n + 1, hn⟩ h0 p).trans ?_
      have e1 : (n + 1) % 8 = n % 8 + 1 := by omega
      have e2 : (n + 1) / 8 = n / 8 := by omega
      show (outsAt0 V c n (Nat.lt_of_succ_lt hn) : Vec Ideal S1024x1 .f32) (ix2 p (0 : Fin 1))
          + tileSum0 A B (tix0 ((n + 1) / 8) p) ((n + 1) % 8)
        = ∑ jt ∈ Finset.range ((n + 1) % 8 + 1), tileSum0 A B (tix0 ((n + 1) / 8) p) jt
      rw [ih, e2, e1]
      exact (Finset.sum_range_succ _ _).symm

/-- Row `n` of the output, as the last point of its row tile leaves it: the weights of row `n` of `A` against every
    row of `B`. -/
theorem rowOut0
    (hA : ∀ (t : Fin cfg0.N) (p : Fin 1024) (d : Fin 256),
      (iblk0 V c 0 t : Vec Ideal S1024x256 .f32) (ix2 p d) = A (ix2 (tix0 (t.val / 8) p) d))
    (hB : ∀ (t : Fin cfg0.N) (s : Fin 1024) (d : Fin 256),
      (iblk0 V c 1 t : Vec Ideal S1024x256 .f32) (ix2 s d) = B (ix2 (tix0 (t.val % 8) s) d))
    (n : Fin 8192) :
    (outsAt0 V c (8 * (n.val / 1024) + 7) (lastPt0 n) : Vec Ideal S1024x1 .f32)
        (ix2 (⟨n.val % 1024, Nat.mod_lt _ (by norm_num)⟩ : Fin 1024) (0 : Fin 1))
      = ∑ m : Fin 8192, wr (row A n) (row B m) := by
  have e1 : (8 * (n.val / 1024) + 7) % 8 + 1 = 8 := by omega
  have e2 : (8 * (n.val / 1024) + 7) / 8 = n.val / 1024 := by omega
  have e3 : tix0 (n.val / 1024) (⟨n.val % 1024, Nat.mod_lt _ (by norm_num)⟩ : Fin 1024) = n :=
    Fin.ext (by
      show (1024 * (n.val / 1024) + n.val % 1024) % 8192 = n.val
      have := n.isLt
      omega)
  rw [acc0 V c A B hA hB, e1, e2, e3, Finset.sum_range]
  refine Eq.trans ?_ ((sum_tiles fun m => wk (row A n) (row B m)).trans
    (Finset.sum_congr rfl fun m _ => wk_eq_wr _ _))
  refine Finset.sum_congr rfl fun jt _ => ?_
  unfold tileSum0
  refine Finset.sum_congr rfl fun s _ => ?_
  exact congrArg (fun m => wk (row A n) (row B m)) (tix0_eq _ _ _)

/-- The sum of an output array whose every row is what the last point of its row tile left there. -/
theorem sumOut0_of
    (hA : ∀ (t : Fin cfg0.N) (p : Fin 1024) (d : Fin 256),
      (iblk0 V c 0 t : Vec Ideal S1024x256 .f32) (ix2 p d) = A (ix2 (tix0 (t.val / 8) p) d))
    (hB : ∀ (t : Fin cfg0.N) (s : Fin 1024) (d : Fin 256),
      (iblk0 V c 1 t : Vec Ideal S1024x256 .f32) (ix2 s d) = B (ix2 (tix0 (t.val % 8) s) d))
    (O : Vec Ideal S8192x1 .f32)
    (hF : ∀ n : Fin 8192, O (ix2 n (0 : Fin 1))
      = (outsAt0 V c (8 * (n.val / 1024) + 7) (lastPt0 n) : Vec Ideal S1024x1 .f32)
          (ix2 (⟨n.val % 1024, Nat.mod_lt _ (by norm_num)⟩ : Fin 1024) (0 : Fin 1))) :
    ∑ i : S8192x1.Idx, O i = pairSum A B := by
  refine (sum_col O).trans ?_
  exact Finset.sum_congr rfl fun n _ => (hF n).trans (rowOut0 V c A B hA hB n)

end Region0

/-- The sum of the first kernel call's output array after the run is the sum of the weights over all pairs of rows of
    its two input arrays. (The sum is read as an extended real outright: the array's own type names its element type
    only through the window it belongs to.) -/
theorem sumOut0 (V : (c : Dev nD) → (b : Ref sig .tc) → Buf (Elt Ideal) ((c : Thread nD τ).loc b))
    (q : Fin cfg0.W → PosShare TreeShare) (c : Dev nD) :
    (∑ i : S8192x1.Idx, ((dat0 (F := Ideal) V q c).arrAt 2 cfg0.N : Vec Ideal S8192x1 .f32) i : EReal)
      = Cert.Spec.pairSum (V c (Pipeline.arrRef spec0 0) : Vec Ideal S8192x256 .f32)
          (V c (Pipeline.arrRef spec0 1) : Vec Ideal S8192x256 .f32) :=
  sumOut0_of V c _ _
    (fun t p d => (iblk0_0_apply V c t p d).trans
      (congrArg (fun n => (V c (Pipeline.arrRef spec0 0) : Vec Ideal S8192x256 .f32) (ix2 n d)) (tix0_eq _ _ _).symm))
    (fun t s d => (iblk0_1_apply V c t s d).trans
      (congrArg (fun n => (V c (Pipeline.arrRef spec0 1) : Vec Ideal S8192x256 .f32) (ix2 n d)) (tix0_eq _ _ _).symm))
    _ (fun n => final0 V q c n)

end Cert.KernelIdeal.Hand

end
-- ==== Proof.Cover1.lean ====
/-
  The first pallas_call's arrays, index by index. Its grid is 8 × 8 and the point t = 8·i + j (the column tile j runs
  fastest). The first input's block at t is rows 1024·i … 1024·i + 1023 of its array, the second input's is rows
  1024·j … 1024·j + 1023 of the same array, and the output's block is rows 1024·i … 1024·i + 1023 of a one-column
  array, written back at the last point of each row tile (j = 7). So row n of the output array ends holding row
  n mod 1024 of what the body left at the point 8·(n / 1024) + 7.
-/
import proofs.«168475_j46866683134277_1_alg».proof.Proof.Data1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The three printed index maps over the grid: the first input and the output move with the row tile t / 8, the
    second input with the column tile t % 8; no window moves along its second axis. -/
theorem idx_facts1 : ∀ t : Fin cfg1.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid1.N, _)

/-- The first input's block at point t, at row p and column d, is the array's entry at row 1024·(t / 8) + p. -/
theorem iblk1_0_apply (c : Dev nD) (t : Fin cfg1.N) (p : Fin 1024) (d : Fin 256) :
    (iblk1 V c 0 t : Vec F S1024x256 .f32) (ix2 p d)
      = (V c (Pipeline.arrRef spec1 0) : Vec F S8192x256 .f32) (ix2 ⟨1024 * (t.val / 8) + p.val, by have := lt_of_lt_of_eq t.isLt (show cfg1.N = 64 from N_1); have := p.isLt; omega⟩ d) := by
  obtain ⟨e0, e1, -, -, -, -⟩ := idx_facts1 t
  unfold iblk1
  rw [View.read_apply]
  show V c (Pipeline.arrRef spec1 0) (((cfg1.win 0).blk t).view.emb (ix2 p d)) = _
  refine congrArg (V c (Pipeline.arrRef spec1 0)) ?_
  funext a
  apply Fin.ext
  match a with
  | ⟨0, _⟩ =>
    show win0_0.index t (0 : Fin 2) * 1024 + 1 * p.val = 1024 * (t.val / 8) + p.val
    rw [e0]; omega
  | ⟨1, _⟩ =>
    show win0_0.index t (1 : Fin 2) * 256 + 1 * d.val = d.val
    rw [e1]; omega

/-- The second input's block at point t, at row s and column d, is the array's entry at row 1024·(t % 8) + s. -/
theorem iblk1_1_apply (c : Dev nD) (t : Fin cfg1.N) (s : Fin 1024) (d : Fin 256) :
    (iblk1 V c 1 t : Vec F S1024x256 .f32) (ix2 s d)
      = (V c (Pipeline.arrRef spec1 1) : Vec F S8192x256 .f32) (ix2 ⟨1024 * (t.val % 8) + s.val, by have := s.isLt; omega⟩ d) := by
  obtain ⟨-, -, e2, e3, -, -⟩ := idx_facts1 t
  unfold iblk1
  rw [View.read_apply]
  show V c (Pipeline.arrRef spec1 1) (((cfg1.win 1).blk t).view.emb (ix2 s d)) = _
  refine congrArg (V c (Pipeline.arrRef spec1 1)) ?_
  funext a
  apply Fin.ext
  match a with
  | ⟨0, _⟩ =>
    show win0_1.index t (0 : Fin 2) * 1024 + 1 * s.val = 1024 * (t.val % 8) + s.val
    rw [e2]; omega
  | ⟨1, _⟩ =>
    show win0_1.index t (1 : Fin 2) * 256 + 1 * d.val = d.val
    rw [e3]; omega

/-- What the body left depends on the position only through its value. -/
theorem outsAt1_congr (c : Dev nD) {n n' : ℕ} (h : n = n') (hn : n < cfg1.N) (hn' : n' < cfg1.N) :
    outsAt1 V c n hn = outsAt1 V c n' hn' := by
  subst h; rfl

/-- The output array as ONE function of the row: row n holds row n % 1024 of what the body left at the last point
    of row tile n / 1024, the point 8·(n / 1024) + 7. -/
def G1 (c : Dev nD) : Vec F S8192x1 .f32 := fun i =>
  outsAt1 V c (8 * ((i 0).val / 1024) + 7)
    (by have := idx2_lt0 i; rw [show cfg1.N = 64 from N_1]; omega)
    (ix2 ⟨(i 0).val % 1024, Nat.mod_lt _ (by norm_num)⟩ (0 : Fin 1))

/-- At a point t that ends its row tile (t % 8 = 7), the array's row 1024·(t / 8) + r is row r of what the body left
    at t. -/
theorem G1_apply (c : Dev nD) (t : Fin cfg1.N) (h7 : t.val % 8 = 7) (i : S8192x1.Idx) (j : S1024x1.Idx)
    (h0 : (i 0).val = t.val / 8 * 1024 + (j 0).val) : G1 V c i = outsAt1 V c t.val t.isLt j := by
  have hj0 : (j 0).val < 1024 := idx2_lt0 j
  have hj1 : (j 1).val < 1 := idx2_lt1 j
  have hn : 8 * ((i 0).val / 1024) + 7 = t.val := by omega
  unfold G1
  refine (congrFun (outsAt1_congr V c hn _ t.isLt) _).trans ?_
  refine congrArg (outsAt1 V c t.val t.isLt) ?_
  funext a
  apply Fin.ext
  match a with
  | ⟨0, _⟩ => show (i 0).val % 1024 = (j 0).val; omega
  | ⟨1, _⟩ => show 0 = (j 1).val; omega

variable (q : Fin cfg1.W → PosShare TreeShare)

/-- What a point that ends its row tile writes back is its block of that one function. -/
theorem flushed1_2_eq (c : Dev nD) (t : Fin cfg1.N) (hf : (cfg1.win 2).flush t = true) :
    (dat1 V q c).flushed 2 t = ((cfg1.win 2).blk t).view.read (Elt F) (G1 V c) := by
  have h7 : t.val % 8 = 7 := (flush1_2 t).mp hf
  obtain ⟨-, -, -, -, e4, e5⟩ := idx_facts1 t
  show (cfg1.win 2).cut (grid1.coords t) ((dat1 V q c).after 2 t) = _
  rw [after1_2]
  funext y
  rw [View.read_apply]
  show outsAt1 V c t.val t.isLt ((cfg1.win 2).xinj (grid1.coords t) y) = G1 V c (((cfg1.win 2).blk t).view.emb y)
  exact (G1_apply V c t h7 _ _ (by
    show win0_2.index t (0 : Fin 2) * 1024 + 1 * (y 0).val = t.val / 8 * 1024 + (y 0).val
    rw [e4]; omega)).symm

/-- A row of the output array lies in point t's block iff each coordinate is in the block's range on its axis. -/
theorem mem_blk1_2 (t : Fin cfg1.N) (i : S8192x1.Idx) :
    i ∈ ((cfg1.win 2).blk t).view.set ↔ ∀ a : Fin 2, win0_2.index t a * S1024x1.size a ≤ (i a).val
      ∧ (i a).val < win0_2.index t a * S1024x1.size a + S1024x1.size a := by
  show i ∈ ((View.whole (Pipeline.arrRef spec1 2)).slice (win0_2.rect t)).set ↔ _
  rw [View.set_slice_whole, Rect.mem_set_unit]
  exact Iff.rfl

/-- Every row is written back: row r by the point 8·(r / 1024) + 7, the last of its row tile. -/
theorem cover1_2 (i : S8192x1.Idx) :
    ∃ t : Fin cfg1.N, (cfg1.win 2).flush t = true ∧ i ∈ ((cfg1.win 2).blk t).view.set := by
  have hi0 : (i 0).val < 8192 := idx2_lt0 i
  have hi1 : (i 1).val < 1 := idx2_lt1 i
  obtain ⟨t, ht⟩ : ∃ t : Fin cfg1.N, t.val = 8 * ((i 0).val / 1024) + 7 :=
    ⟨⟨8 * ((i 0).val / 1024) + 7, by rw [show cfg1.N = 64 from N_1]; omega⟩, rfl⟩
  obtain ⟨-, -, -, -, e4, e5⟩ := idx_facts1 t
  refine ⟨t, (flush1_2 t).mpr (by omega), ?_⟩
  rw [mem_blk1_2]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1 ≤ (i 1).val ∧ (i 1).val < win0_2.index t (1 : Fin 2) * 1 + 1
    rw [e5]; omega

/-- So the output array after the run is that function. -/
theorem arr1_2_eq (c : Dev nD) : (dat1 V q c).arrAt 2 cfg1.N = G1 V c :=
  (dat1 V q c).arrAt_eq_of_cover 2 (G1 V c) (flushed1_2_eq V q c) cover1_2

/-- Row n of the output array after the run: row n % 1024 of what the body left at the point 8·(n / 1024) + 7. -/
theorem final1 (c : Dev nD) (n : Fin 8192) :
    ((dat1 V q c).arrAt 2 cfg1.N : Vec F S8192x1 .f32) (ix2 n (0 : Fin 1))
      = outsAt1 V c (8 * (n.val / 1024) + 7) (by have := n.isLt; rw [show cfg1.N = 64 from N_1]; omega)
          (ix2 ⟨n.val % 1024, Nat.mod_lt _ (by norm_num)⟩ (0 : Fin 1)) :=
  (congrFun (arr1_2_eq V q c) (ix2 n (0 : Fin 1))).trans rfl

end Region1

end Cert.KernelIdeal.Hand

end
-- ==== Proof.Val1.lean ====
/-
  The first kernel call's output array, summed. Point 8·i + j of the 8 × 8 grid adds, to row p of the output block,
  the weights of row 1024·i + p of the first array against the 1024 rows of tile j of the second. The block restarts
  from the zero word at j = 0 and is written back after j = 7, so the output array's entry n is the sum, over all
  8192 rows m of the second array, of the weight of (row n, row m); the array's sum is the sum over all pairs of rows.
-/
import proofs.«168475_j46866683134277_1_alg».proof.Proof.Data1
import proofs.«168475_j46866683134277_1_alg».proof.Proof.PayIdx
import proofs.«168475_j46866683134277_1_alg».proof.Proof.Algebra
import proofs.«168475_j46866683134277_1_alg».proof.Proof.Cover1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec

variable {F : FTy → Type} [FloatOps F]

local notation "𝕄" => MT nD τ sig Unit (Elt F) ℕ (UR sig nD τ) ℕ

/-! ## The two stored values of this call's body, at a row -/

/-- The first store writes 0 at every row. -/
theorem pay1_1 (p : Fin 1024) : k1_pay1 (F := Ideal) (ix2 p (0 : Fin 1)) = 0 :=
  (pay1_apply p).trans Ideal.ofBits_zero_f32

/-- The second store writes, at row `p`, what the output block held there plus the weights of row `p` of the first
    block against every row of the second. -/
theorem pay2_1 (x0 x1 : Vec Ideal S1024x256 .f32) (xo : Vec Ideal S1024x1 .f32) (p : Fin 1024) :
    k1_pay2 (F := Ideal) x0 x1 xo (ix2 p (0 : Fin 1))
      = xo (ix2 p (0 : Fin 1)) + ∑ s : Fin 1024, wk (fun d => x0 (ix2 p d)) (fun d => x1 (ix2 s d)) :=
  pay2_apply x0 x1 xo p

/-! ## Rows by tile -/

/-- Row `1024·i + p` of an array of 8192 rows. The index wraps at 8192, which keeps the function total; for `i < 8`
    it never does. -/
def tix1 (i : ℕ) (p : Fin 1024) : Fin 8192 := ⟨(1024 * i + p.val) % 8192, Nat.mod_lt _ (by norm_num)⟩

theorem tix1_eq (i : ℕ) (p : Fin 1024) (h : 1024 * i + p.val < 8192) : tix1 i p = ⟨1024 * i + p.val, h⟩ :=
  Fin.ext (Nat.mod_eq_of_lt h)

/-- The weights of row `n` of `A` against the 1024 rows of tile `jt` of `B`, summed. -/
def tileSum1 (A B : Vec Ideal S8192x256 .f32) (n : Fin 8192) (jt : ℕ) : EReal :=
  ∑ s : Fin 1024, wk (row A n) (row B (tix1 jt s))

/-- The last point of the row tile that holds row `n`. -/
theorem lastPt1 (n : Fin 8192) : 8 * (n.val / 1024) + 7 < cfg1.N := by
  rw [show cfg1.N = 64 from N_1]
  have := n.isLt
  omega

section Region1

variable (V : (c : Dev nD) → (b : Ref sig .tc) → Buf (Elt Ideal) ((c : Thread nD τ).loc b))
variable (c : Dev nD) (A B : Vec Ideal S8192x256 .f32)

/-- One point's contribution: with the first window's block at point `t` the rows of tile `t / 8` of `A` and the
    second's the rows of tile `t % 8` of `B`, the weights the body sums at row `p` are that row's against that tile. -/
theorem wkBlk1
    (hA : ∀ (t : Fin cfg1.N) (p : Fin 1024) (d : Fin 256),
      (iblk1 V c 0 t : Vec Ideal S1024x256 .f32) (ix2 p d) = A (ix2 (tix1 (t.val / 8) p) d))
    (hB : ∀ (t : Fin cfg1.N) (s : Fin 1024) (d : Fin 256),
      (iblk1 V c 1 t : Vec Ideal S1024x256 .f32) (ix2 s d) = B (ix2 (tix1 (t.val % 8) s) d))
    (t : Fin cfg1.N) (p : Fin 1024) :
    ∑ s : Fin 1024, wk (fun d => (iblk1 V c 0 t : Vec Ideal S1024x256 .f32) (ix2 p d))
        (fun d => (iblk1 V c 1 t : Vec Ideal S1024x256 .f32) (ix2 s d))
      = tileSum1 A B (tix1 (t.val / 8) p) (t.val % 8) :=
  Finset.sum_congr rfl fun s _ => congrArg₂ wk (funext fun d => hA t p d) (funext fun d => hB t s d)

/-- The output block after a point that restarts it: the point's own tile. -/
theorem stepA1
    (hA : ∀ (t : Fin cfg1.N) (p : Fin 1024) (d : Fin 256),
      (iblk1 V c 0 t : Vec Ideal S1024x256 .f32) (ix2 p d) = A (ix2 (tix1 (t.val / 8) p) d))
    (hB : ∀ (t : Fin cfg1.N) (s : Fin 1024) (d : Fin 256),
      (iblk1 V c 1 t : Vec Ideal S1024x256 .f32) (ix2 s d) = B (ix2 (tix1 (t.val % 8) s) d))
    (t : Fin cfg1.N) (h0 : t.val % 8 = 0) (p : Fin 1024) :
    (outsAt1 V c t.val t.isLt : Vec Ideal S1024x1 .f32) (ix2 p (0 : Fin 1))
      = tileSum1 A B (tix1 (t.val / 8) p) (t.val % 8) := by
  refine (congrFun (outsAt1_A V c t h0) (ix2 p (0 : Fin 1))).trans ?_
  refine (pay2_1 _ _ _ p).trans ?_
  rw [pay1_1, zero_add]
  exact wkBlk1 V c A B hA hB t p

/-- The output block after any other point: what the point before left, plus the point's own tile. -/
theorem stepB1
    (hA : ∀ (t : Fin cfg1.N) (p : Fin 1024) (d : Fin 256),
      (iblk1 V c 0 t : Vec Ideal S1024x256 .f32) (ix2 p d) = A (ix2 (tix1 (t.val / 8) p) d))
    (hB : ∀ (t : Fin cfg1.N) (s : Fin 1024) (d : Fin 256),
      (iblk1 V c 1 t : Vec Ideal S1024x256 .f32) (ix2 s d) = B (ix2 (tix1 (t.val % 8) s) d))
    (t : Fin cfg1.N) (h0 : ¬t.val % 8 = 0) (p : Fin 1024) :
    (outsAt1 V c t.val t.isLt : Vec Ideal S1024x1 .f32) (ix2 p (0 : Fin 1))
      = (outsAt1 V c (t.val - 1) (Nat.lt_of_le_of_lt (Nat.sub_le _ _) t.isLt) : Vec Ideal S1024x1 .f32) (ix2 p (0 : Fin 1))
        + tileSum1 A B (tix1 (t.val / 8) p) (t.val % 8) := by
  refine (congrFun (outsAt1_B V c t h0) (ix2 p (0 : Fin 1))).trans ?_
  refine (pay2_1 _ _ _ p).trans ?_
  rw [wkBlk1 V c A B hA hB t p]

/-- After point `n` of the grid, row `p` of the output block holds the weights of row `1024·(n / 8) + p` of `A`
    against the tiles `0 … n % 8` of `B`: by induction on the point, a restart at every eighth. -/
theorem acc1
    (hA : ∀ (t : Fin cfg1.N) (p : Fin 1024) (d : Fin 256),
      (iblk1 V c 0 t : Vec Ideal S1024x256 .f32) (ix2 p d) = A (ix2 (tix1 (t.val / 8) p) d))
    (hB : ∀ (t : Fin cfg1.N) (s : Fin 1024) (d : Fin 256),
      (iblk1 V c 1 t : Vec Ideal S1024x256 .f32) (ix2 s d) = B (ix2 (tix1 (t.val % 8) s) d))
    (n : ℕ) : ∀ (hn : n < cfg1.N) (p : Fin 1024),
    (outsAt1 V c n hn : Vec Ideal S1024x1 .f32) (ix2 p (0 : Fin 1))
      = ∑ jt ∈ Finset.range (n % 8 + 1), tileSum1 A B (tix1 (n / 8) p) jt := by
  induction n with
  | zero =>
    intro hn p
    exact (stepA1 V c A B hA hB ⟨0, hn⟩ rfl p).trans (Finset.sum_range_one _).symm
  | succ n ih =>
    intro hn p
    by_cases h0 : (n + 1) % 8 = 0
    · refine (stepA1 V c A B hA hB ⟨n + 1, hn⟩ h0 p).trans ?_
      show tileSum1 A B (tix1 ((n + 1) / 8) p) ((n + 1) % 8) = _
      rw [h0]
      exact (Finset.sum_range_one _).symm
    · refine (stepB1 V c A B hA hB ⟨n + 1, hn⟩ h0 p).trans ?_
      have e1 : (n + 1) % 8 = n % 8 + 1 := by omega
      have e2 : (n + 1) / 8 = n / 8 := by omega
      show (outsAt1 V c n (Nat.lt_of_succ_lt hn) : Vec Ideal S1024x1 .f32) (ix2 p (0 : Fin 1))
          + tileSum1 A B (tix1 ((n + 1) / 8) p) ((n + 1) % 8)
        = ∑ jt ∈ Finset.range ((n + 1) % 8 + 1), tileSum1 A B (tix1 ((n + 1) / 8) p) jt
      rw [ih, e2, e1]
      exact (Finset.sum_range_succ _ _).symm

/-- Row `n` of the output, as the last point of its row tile leaves it: the weights of row `n` of `A` against every
    row of `B`. -/
theorem rowOut1
    (hA : ∀ (t : Fin cfg1.N) (p : Fin 1024) (d : Fin 256),
      (iblk1 V c 0 t : Vec Ideal S1024x256 .f32) (ix2 p d) = A (ix2 (tix1 (t.val / 8) p) d))
    (hB : ∀ (t : Fin cfg1.N) (s : Fin 1024) (d : Fin 256),
      (iblk1 V c 1 t : Vec Ideal S1024x256 .f32) (ix2 s d) = B (ix2 (tix1 (t.val % 8) s) d))
    (n : Fin 8192) :
    (outsAt1 V c (8 * (n.val / 1024) + 7) (lastPt1 n) : Vec Ideal S1024x1 .f32)
        (ix2 (⟨n.val % 1024, Nat.mod_lt _ (by norm_num)⟩ : Fin 1024) (0 : Fin 1))
      = ∑ m : Fin 8192, wr (row A n) (row B m) := by
  have e1 : (8 * (n.val / 1024) + 7) % 8 + 1 = 8 := by omega
  have e2 : (8 * (n.val / 1024) + 7) / 8 = n.val / 1024 := by omega
  have e3 : tix1 (n.val / 1024) (⟨n.val % 1024, Nat.mod_lt _ (by norm_num)⟩ : Fin 1024) = n :=
    Fin.ext (by
      show (1024 * (n.val / 1024) + n.val % 1024) % 8192 = n.val
      have := n.isLt
      omega)
  rw [acc1 V c A B hA hB, e1, e2, e3, Finset.sum_range]
  refine Eq.trans ?_ ((sum_tiles fun m => wk (row A n) (row B m)).trans
    (Finset.sum_congr rfl fun m _ => wk_eq_wr _ _))
  refine Finset.sum_congr rfl fun jt _ => ?_
  unfold tileSum1
  refine Finset.sum_congr rfl fun s _ => ?_
  exact congrArg (fun m => wk (row A n) (row B m)) (tix1_eq _ _ _)

/-- The sum of an output array whose every row is what the last point of its row tile left there. -/
theorem sumOut1_of
    (hA : ∀ (t : Fin cfg1.N) (p : Fin 1024) (d : Fin 256),
      (iblk1 V c 0 t : Vec Ideal S1024x256 .f32) (ix2 p d) = A (ix2 (tix1 (t.val / 8) p) d))
    (hB : ∀ (t : Fin cfg1.N) (s : Fin 1024) (d : Fin 256),
      (iblk1 V c 1 t : Vec Ideal S1024x256 .f32) (ix2 s d) = B (ix2 (tix1 (t.val % 8) s) d))
    (O : Vec Ideal S8192x1 .f32)
    (hF : ∀ n : Fin 8192, O (ix2 n (0 : Fin 1))
      = (outsAt1 V c (8 * (n.val / 1024) + 7) (lastPt1 n) : Vec Ideal S1024x1 .f32)
          (ix2 (⟨n.val % 1024, Nat.mod_lt _ (by norm_num)⟩ : Fin 1024) (0 : Fin 1))) :
    ∑ i : S8192x1.Idx, O i = pairSum A B := by
  refine (sum_col O).trans ?_
  exact Finset.sum_congr rfl fun n _ => (hF n).trans (rowOut1 V c A B hA hB n)

end Region1

/-- The sum of the first kernel call's output array after the run is the sum of the weights over all pairs of rows of
    its two input arrays. (The sum is read as an extended real outright: the array's own type names its element type
    only through the window it belongs to.) -/
theorem sumOut1 (V : (c : Dev nD) → (b : Ref sig .tc) → Buf (Elt Ideal) ((c : Thread nD τ).loc b))
    (q : Fin cfg1.W → PosShare TreeShare) (c : Dev nD) :
    (∑ i : S8192x1.Idx, ((dat1 (F := Ideal) V q c).arrAt 2 cfg1.N : Vec Ideal S8192x1 .f32) i : EReal)
      = Cert.Spec.pairSum (V c (Pipeline.arrRef spec1 0) : Vec Ideal S8192x256 .f32)
          (V c (Pipeline.arrRef spec1 1) : Vec Ideal S8192x256 .f32) :=
  sumOut1_of V c _ _
    (fun t p d => (iblk1_0_apply V c t p d).trans
      (congrArg (fun n => (V c (Pipeline.arrRef spec1 0) : Vec Ideal S8192x256 .f32) (ix2 n d)) (tix1_eq _ _ _).symm))
    (fun t s d => (iblk1_1_apply V c t s d).trans
      (congrArg (fun n => (V c (Pipeline.arrRef spec1 1) : Vec Ideal S8192x256 .f32) (ix2 n d)) (tix1_eq _ _ _).symm))
    _ (fun n => final1 V q c n)

end Cert.KernelIdeal.Hand

end
-- ==== Proof.Cover2.lean ====
/-
  The first pallas_call's arrays, index by index. Its grid is 8 × 8 and the point t = 8·i + j (the column tile j runs
  fastest). The first input's block at t is rows 1024·i … 1024·i + 1023 of its array, the second input's is rows
  1024·j … 1024·j + 1023 of the same array, and the output's block is rows 1024·i … 1024·i + 1023 of a one-column
  array, written back at the last point of each row tile (j = 7). So row n of the output array ends holding row
  n mod 1024 of what the body left at the point 8·(n / 1024) + 7.
-/
import proofs.«168475_j46866683134277_1_alg».proof.Proof.Data2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- The three printed index maps over the grid: the first input and the output move with the row tile t / 8, the
    second input with the column tile t % 8; no window moves along its second axis. -/
theorem idx_facts2 : ∀ t : Fin cfg2.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid2.N, _)

/-- The first input's block at point t, at row p and column d, is the array's entry at row 1024·(t / 8) + p. -/
theorem iblk2_0_apply (c : Dev nD) (t : Fin cfg2.N) (p : Fin 1024) (d : Fin 256) :
    (iblk2 V c 0 t : Vec F S1024x256 .f32) (ix2 p d)
      = (V c (Pipeline.arrRef spec2 0) : Vec F S8192x256 .f32) (ix2 ⟨1024 * (t.val / 8) + p.val, by have := lt_of_lt_of_eq t.isLt (show cfg2.N = 64 from N_2); have := p.isLt; omega⟩ d) := by
  obtain ⟨e0, e1, -, -, -, -⟩ := idx_facts2 t
  unfold iblk2
  rw [View.read_apply]
  show V c (Pipeline.arrRef spec2 0) (((cfg2.win 0).blk t).view.emb (ix2 p d)) = _
  refine congrArg (V c (Pipeline.arrRef spec2 0)) ?_
  funext a
  apply Fin.ext
  match a with
  | ⟨0, _⟩ =>
    show win0_0.index t (0 : Fin 2) * 1024 + 1 * p.val = 1024 * (t.val / 8) + p.val
    rw [e0]; omega
  | ⟨1, _⟩ =>
    show win0_0.index t (1 : Fin 2) * 256 + 1 * d.val = d.val
    rw [e1]; omega

/-- The second input's block at point t, at row s and column d, is the array's entry at row 1024·(t % 8) + s. -/
theorem iblk2_1_apply (c : Dev nD) (t : Fin cfg2.N) (s : Fin 1024) (d : Fin 256) :
    (iblk2 V c 1 t : Vec F S1024x256 .f32) (ix2 s d)
      = (V c (Pipeline.arrRef spec2 1) : Vec F S8192x256 .f32) (ix2 ⟨1024 * (t.val % 8) + s.val, by have := s.isLt; omega⟩ d) := by
  obtain ⟨-, -, e2, e3, -, -⟩ := idx_facts2 t
  unfold iblk2
  rw [View.read_apply]
  show V c (Pipeline.arrRef spec2 1) (((cfg2.win 1).blk t).view.emb (ix2 s d)) = _
  refine congrArg (V c (Pipeline.arrRef spec2 1)) ?_
  funext a
  apply Fin.ext
  match a with
  | ⟨0, _⟩ =>
    show win0_1.index t (0 : Fin 2) * 1024 + 1 * s.val = 1024 * (t.val % 8) + s.val
    rw [e2]; omega
  | ⟨1, _⟩ =>
    show win0_1.index t (1 : Fin 2) * 256 + 1 * d.val = d.val
    rw [e3]; omega

/-- What the body left depends on the position only through its value. -/
theorem outsAt2_congr (c : Dev nD) {n n' : ℕ} (h : n = n') (hn : n < cfg2.N) (hn' : n' < cfg2.N) :
    outsAt2 V c n hn = outsAt2 V c n' hn' := by
  subst h; rfl

/-- The output array as ONE function of the row: row n holds row n % 1024 of what the body left at the last point
    of row tile n / 1024, the point 8·(n / 1024) + 7. -/
def G2 (c : Dev nD) : Vec F S8192x1 .f32 := fun i =>
  outsAt2 V c (8 * ((i 0).val / 1024) + 7)
    (by have := idx2_lt0 i; rw [show cfg2.N = 64 from N_2]; omega)
    (ix2 ⟨(i 0).val % 1024, Nat.mod_lt _ (by norm_num)⟩ (0 : Fin 1))

/-- At a point t that ends its row tile (t % 8 = 7), the array's row 1024·(t / 8) + r is row r of what the body left
    at t. -/
theorem G2_apply (c : Dev nD) (t : Fin cfg2.N) (h7 : t.val % 8 = 7) (i : S8192x1.Idx) (j : S1024x1.Idx)
    (h0 : (i 0).val = t.val / 8 * 1024 + (j 0).val) : G2 V c i = outsAt2 V c t.val t.isLt j := by
  have hj0 : (j 0).val < 1024 := idx2_lt0 j
  have hj1 : (j 1).val < 1 := idx2_lt1 j
  have hn : 8 * ((i 0).val / 1024) + 7 = t.val := by omega
  unfold G2
  refine (congrFun (outsAt2_congr V c hn _ t.isLt) _).trans ?_
  refine congrArg (outsAt2 V c t.val t.isLt) ?_
  funext a
  apply Fin.ext
  match a with
  | ⟨0, _⟩ => show (i 0).val % 1024 = (j 0).val; omega
  | ⟨1, _⟩ => show 0 = (j 1).val; omega

variable (q : Fin cfg2.W → PosShare TreeShare)

/-- What a point that ends its row tile writes back is its block of that one function. -/
theorem flushed2_2_eq (c : Dev nD) (t : Fin cfg2.N) (hf : (cfg2.win 2).flush t = true) :
    (dat2 V q c).flushed 2 t = ((cfg2.win 2).blk t).view.read (Elt F) (G2 V c) := by
  have h7 : t.val % 8 = 7 := (flush2_2 t).mp hf
  obtain ⟨-, -, -, -, e4, e5⟩ := idx_facts2 t
  show (cfg2.win 2).cut (grid2.coords t) ((dat2 V q c).after 2 t) = _
  rw [after2_2]
  funext y
  rw [View.read_apply]
  show outsAt2 V c t.val t.isLt ((cfg2.win 2).xinj (grid2.coords t) y) = G2 V c (((cfg2.win 2).blk t).view.emb y)
  exact (G2_apply V c t h7 _ _ (by
    show win0_2.index t (0 : Fin 2) * 1024 + 1 * (y 0).val = t.val / 8 * 1024 + (y 0).val
    rw [e4]; omega)).symm

/-- A row of the output array lies in point t's block iff each coordinate is in the block's range on its axis. -/
theorem mem_blk2_2 (t : Fin cfg2.N) (i : S8192x1.Idx) :
    i ∈ ((cfg2.win 2).blk t).view.set ↔ ∀ a : Fin 2, win0_2.index t a * S1024x1.size a ≤ (i a).val
      ∧ (i a).val < win0_2.index t a * S1024x1.size a + S1024x1.size a := by
  show i ∈ ((View.whole (Pipeline.arrRef spec2 2)).slice (win0_2.rect t)).set ↔ _
  rw [View.set_slice_whole, Rect.mem_set_unit]
  exact Iff.rfl

/-- Every row is written back: row r by the point 8·(r / 1024) + 7, the last of its row tile. -/
theorem cover2_2 (i : S8192x1.Idx) :
    ∃ t : Fin cfg2.N, (cfg2.win 2).flush t = true ∧ i ∈ ((cfg2.win 2).blk t).view.set := by
  have hi0 : (i 0).val < 8192 := idx2_lt0 i
  have hi1 : (i 1).val < 1 := idx2_lt1 i
  obtain ⟨t, ht⟩ : ∃ t : Fin cfg2.N, t.val = 8 * ((i 0).val / 1024) + 7 :=
    ⟨⟨8 * ((i 0).val / 1024) + 7, by rw [show cfg2.N = 64 from N_2]; omega⟩, rfl⟩
  obtain ⟨-, -, -, -, e4, e5⟩ := idx_facts2 t
  refine ⟨t, (flush2_2 t).mpr (by omega), ?_⟩
  rw [mem_blk2_2]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1 ≤ (i 1).val ∧ (i 1).val < win0_2.index t (1 : Fin 2) * 1 + 1
    rw [e5]; omega

/-- So the output array after the run is that function. -/
theorem arr2_2_eq (c : Dev nD) : (dat2 V q c).arrAt 2 cfg2.N = G2 V c :=
  (dat2 V q c).arrAt_eq_of_cover 2 (G2 V c) (flushed2_2_eq V q c) cover2_2

/-- Row n of the output array after the run: row n % 1024 of what the body left at the point 8·(n / 1024) + 7. -/
theorem final2 (c : Dev nD) (n : Fin 8192) :
    ((dat2 V q c).arrAt 2 cfg2.N : Vec F S8192x1 .f32) (ix2 n (0 : Fin 1))
      = outsAt2 V c (8 * (n.val / 1024) + 7) (by have := n.isLt; rw [show cfg2.N = 64 from N_2]; omega)
          (ix2 ⟨n.val % 1024, Nat.mod_lt _ (by norm_num)⟩ (0 : Fin 1)) :=
  (congrFun (arr2_2_eq V q c) (ix2 n (0 : Fin 1))).trans rfl

end Region2

end Cert.KernelIdeal.Hand

end
-- ==== Proof.Val2.lean ====
/-
  The first kernel call's output array, summed. Point 8·i + j of the 8 × 8 grid adds, to row p of the output block,
  the weights of row 1024·i + p of the first array against the 1024 rows of tile j of the second. The block restarts
  from the zero word at j = 0 and is written back after j = 7, so the output array's entry n is the sum, over all
  8192 rows m of the second array, of the weight of (row n, row m); the array's sum is the sum over all pairs of rows.
-/
import proofs.«168475_j46866683134277_1_alg».proof.Proof.Data2
import proofs.«168475_j46866683134277_1_alg».proof.Proof.PayIdx
import proofs.«168475_j46866683134277_1_alg».proof.Proof.Algebra
import proofs.«168475_j46866683134277_1_alg».proof.Proof.Cover2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec

variable {F : FTy → Type} [FloatOps F]

local notation "𝕄" => MT nD τ sig Unit (Elt F) ℕ (UR sig nD τ) ℕ

/-! ## The two stored values of this call's body, at a row -/

/-- The first store writes 0 at every row. -/
theorem pay1_2 (p : Fin 1024) : k2_pay1 (F := Ideal) (ix2 p (0 : Fin 1)) = 0 :=
  (pay1_apply p).trans Ideal.ofBits_zero_f32

/-- The second store writes, at row `p`, what the output block held there plus the weights of row `p` of the first
    block against every row of the second. -/
theorem pay2_2 (x0 x1 : Vec Ideal S1024x256 .f32) (xo : Vec Ideal S1024x1 .f32) (p : Fin 1024) :
    k2_pay2 (F := Ideal) x0 x1 xo (ix2 p (0 : Fin 1))
      = xo (ix2 p (0 : Fin 1)) + ∑ s : Fin 1024, wk (fun d => x0 (ix2 p d)) (fun d => x1 (ix2 s d)) :=
  pay2_apply x0 x1 xo p

/-! ## Rows by tile -/

/-- Row `1024·i + p` of an array of 8192 rows. The index wraps at 8192, which keeps the function total; for `i < 8`
    it never does. -/
def tix2 (i : ℕ) (p : Fin 1024) : Fin 8192 := ⟨(1024 * i + p.val) % 8192, Nat.mod_lt _ (by norm_num)⟩

theorem tix2_eq (i : ℕ) (p : Fin 1024) (h : 1024 * i + p.val < 8192) : tix2 i p = ⟨1024 * i + p.val, h⟩ :=
  Fin.ext (Nat.mod_eq_of_lt h)

/-- The weights of row `n` of `A` against the 1024 rows of tile `jt` of `B`, summed. -/
def tileSum2 (A B : Vec Ideal S8192x256 .f32) (n : Fin 8192) (jt : ℕ) : EReal :=
  ∑ s : Fin 1024, wk (row A n) (row B (tix2 jt s))

/-- The last point of the row tile that holds row `n`. -/
theorem lastPt2 (n : Fin 8192) : 8 * (n.val / 1024) + 7 < cfg2.N := by
  rw [show cfg2.N = 64 from N_2]
  have := n.isLt
  omega

section Region2

variable (V : (c : Dev nD) → (b : Ref sig .tc) → Buf (Elt Ideal) ((c : Thread nD τ).loc b))
variable (c : Dev nD) (A B : Vec Ideal S8192x256 .f32)

/-- One point's contribution: with the first window's block at point `t` the rows of tile `t / 8` of `A` and the
    second's the rows of tile `t % 8` of `B`, the weights the body sums at row `p` are that row's against that tile. -/
theorem wkBlk2
    (hA : ∀ (t : Fin cfg2.N) (p : Fin 1024) (d : Fin 256),
      (iblk2 V c 0 t : Vec Ideal S1024x256 .f32) (ix2 p d) = A (ix2 (tix2 (t.val / 8) p) d))
    (hB : ∀ (t : Fin cfg2.N) (s : Fin 1024) (d : Fin 256),
      (iblk2 V c 1 t : Vec Ideal S1024x256 .f32) (ix2 s d) = B (ix2 (tix2 (t.val % 8) s) d))
    (t : Fin cfg2.N) (p : Fin 1024) :
    ∑ s : Fin 1024, wk (fun d => (iblk2 V c 0 t : Vec Ideal S1024x256 .f32) (ix2 p d))
        (fun d => (iblk2 V c 1 t : Vec Ideal S1024x256 .f32) (ix2 s d))
      = tileSum2 A B (tix2 (t.val / 8) p) (t.val % 8) :=
  Finset.sum_congr rfl fun s _ => congrArg₂ wk (funext fun d => hA t p d) (funext fun d => hB t s d)

/-- The output block after a point that restarts it: the point's own tile. -/
theorem stepA2
    (hA : ∀ (t : Fin cfg2.N) (p : Fin 1024) (d : Fin 256),
      (iblk2 V c 0 t : Vec Ideal S1024x256 .f32) (ix2 p d) = A (ix2 (tix2 (t.val / 8) p) d))
    (hB : ∀ (t : Fin cfg2.N) (s : Fin 1024) (d : Fin 256),
      (iblk2 V c 1 t : Vec Ideal S1024x256 .f32) (ix2 s d) = B (ix2 (tix2 (t.val % 8) s) d))
    (t : Fin cfg2.N) (h0 : t.val % 8 = 0) (p : Fin 1024) :
    (outsAt2 V c t.val t.isLt : Vec Ideal S1024x1 .f32) (ix2 p (0 : Fin 1))
      = tileSum2 A B (tix2 (t.val / 8) p) (t.val % 8) := by
  refine (congrFun (outsAt2_A V c t h0) (ix2 p (0 : Fin 1))).trans ?_
  refine (pay2_2 _ _ _ p).trans ?_
  rw [pay1_2, zero_add]
  exact wkBlk2 V c A B hA hB t p

/-- The output block after any other point: what the point before left, plus the point's own tile. -/
theorem stepB2
    (hA : ∀ (t : Fin cfg2.N) (p : Fin 1024) (d : Fin 256),
      (iblk2 V c 0 t : Vec Ideal S1024x256 .f32) (ix2 p d) = A (ix2 (tix2 (t.val / 8) p) d))
    (hB : ∀ (t : Fin cfg2.N) (s : Fin 1024) (d : Fin 256),
      (iblk2 V c 1 t : Vec Ideal S1024x256 .f32) (ix2 s d) = B (ix2 (tix2 (t.val % 8) s) d))
    (t : Fin cfg2.N) (h0 : ¬t.val % 8 = 0) (p : Fin 1024) :
    (outsAt2 V c t.val t.isLt : Vec Ideal S1024x1 .f32) (ix2 p (0 : Fin 1))
      = (outsAt2 V c (t.val - 1) (Nat.lt_of_le_of_lt (Nat.sub_le _ _) t.isLt) : Vec Ideal S1024x1 .f32) (ix2 p (0 : Fin 1))
        + tileSum2 A B (tix2 (t.val / 8) p) (t.val % 8) := by
  refine (congrFun (outsAt2_B V c t h0) (ix2 p (0 : Fin 1))).trans ?_
  refine (pay2_2 _ _ _ p).trans ?_
  rw [wkBlk2 V c A B hA hB t p]

/-- After point `n` of the grid, row `p` of the output block holds the weights of row `1024·(n / 8) + p` of `A`
    against the tiles `0 … n % 8` of `B`: by induction on the point, a restart at every eighth. -/
theorem acc2
    (hA : ∀ (t : Fin cfg2.N) (p : Fin 1024) (d : Fin 256),
      (iblk2 V c 0 t : Vec Ideal S1024x256 .f32) (ix2 p d) = A (ix2 (tix2 (t.val / 8) p) d))
    (hB : ∀ (t : Fin cfg2.N) (s : Fin 1024) (d : Fin 256),
      (iblk2 V c 1 t : Vec Ideal S1024x256 .f32) (ix2 s d) = B (ix2 (tix2 (t.val % 8) s) d))
    (n : ℕ) : ∀ (hn : n < cfg2.N) (p : Fin 1024),
    (outsAt2 V c n hn : Vec Ideal S1024x1 .f32) (ix2 p (0 : Fin 1))
      = ∑ jt ∈ Finset.range (n % 8 + 1), tileSum2 A B (tix2 (n / 8) p) jt := by
  induction n with
  | zero =>
    intro hn p
    exact (stepA2 V c A B hA hB ⟨0, hn⟩ rfl p).trans (Finset.sum_range_one _).symm
  | succ n ih =>
    intro hn p
    by_cases h0 : (n + 1) % 8 = 0
    · refine (stepA2 V c A B hA hB ⟨n + 1, hn⟩ h0 p).trans ?_
      show tileSum2 A B (tix2 ((n + 1) / 8) p) ((n + 1) % 8) = _
      rw [h0]
      exact (Finset.sum_range_one _).symm
    · refine (stepB2 V c A B hA hB ⟨n + 1, hn⟩ h0 p).trans ?_
      have e1 : (n + 1) % 8 = n % 8 + 1 := by omega
      have e2 : (n + 1) / 8 = n / 8 := by omega
      show (outsAt2 V c n (Nat.lt_of_succ_lt hn) : Vec Ideal S1024x1 .f32) (ix2 p (0 : Fin 1))
          + tileSum2 A B (tix2 ((n + 1) / 8) p) ((n + 1) % 8)
        = ∑ jt ∈ Finset.range ((n + 1) % 8 + 1), tileSum2 A B (tix2 ((n + 1) / 8) p) jt
      rw [ih, e2, e1]
      exact (Finset.sum_range_succ _ _).symm

/-- Row `n` of the output, as the last point of its row tile leaves it: the weights of row `n` of `A` against every
    row of `B`. -/
theorem rowOut2
    (hA : ∀ (t : Fin cfg2.N) (p : Fin 1024) (d : Fin 256),
      (iblk2 V c 0 t : Vec Ideal S1024x256 .f32) (ix2 p d) = A (ix2 (tix2 (t.val / 8) p) d))
    (hB : ∀ (t : Fin cfg2.N) (s : Fin 1024) (d : Fin 256),
      (iblk2 V c 1 t : Vec Ideal S1024x256 .f32) (ix2 s d) = B (ix2 (tix2 (t.val % 8) s) d))
    (n : Fin 8192) :
    (outsAt2 V c (8 * (n.val / 1024) + 7) (lastPt2 n) : Vec Ideal S1024x1 .f32)
        (ix2 (⟨n.val % 1024, Nat.mod_lt _ (by norm_num)⟩ : Fin 1024) (0 : Fin 1))
      = ∑ m : Fin 8192, wr (row A n) (row B m) := by
  have e1 : (8 * (n.val / 1024) + 7) % 8 + 1 = 8 := by omega
  have e2 : (8 * (n.val / 1024) + 7) / 8 = n.val / 1024 := by omega
  have e3 : tix2 (n.val / 1024) (⟨n.val % 1024, Nat.mod_lt _ (by norm_num)⟩ : Fin 1024) = n :=
    Fin.ext (by
      show (1024 * (n.val / 1024) + n.val % 1024) % 8192 = n.val
      have := n.isLt
      omega)
  rw [acc2 V c A B hA hB, e1, e2, e3, Finset.sum_range]
  refine Eq.trans ?_ ((sum_tiles fun m => wk (row A n) (row B m)).trans
    (Finset.sum_congr rfl fun m _ => wk_eq_wr _ _))
  refine Finset.sum_congr rfl fun jt _ => ?_
  unfold tileSum2
  refine Finset.sum_congr rfl fun s _ => ?_
  exact congrArg (fun m => wk (row A n) (row B m)) (tix2_eq _ _ _)

/-- The sum of an output array whose every row is what the last point of its row tile left there. -/
theorem sumOut2_of
    (hA : ∀ (t : Fin cfg2.N) (p : Fin 1024) (d : Fin 256),
      (iblk2 V c 0 t : Vec Ideal S1024x256 .f32) (ix2 p d) = A (ix2 (tix2 (t.val / 8) p) d))
    (hB : ∀ (t : Fin cfg2.N) (s : Fin 1024) (d : Fin 256),
      (iblk2 V c 1 t : Vec Ideal S1024x256 .f32) (ix2 s d) = B (ix2 (tix2 (t.val % 8) s) d))
    (O : Vec Ideal S8192x1 .f32)
    (hF : ∀ n : Fin 8192, O (ix2 n (0 : Fin 1))
      = (outsAt2 V c (8 * (n.val / 1024) + 7) (lastPt2 n) : Vec Ideal S1024x1 .f32)
          (ix2 (⟨n.val % 1024, Nat.mod_lt _ (by norm_num)⟩ : Fin 1024) (0 : Fin 1))) :
    ∑ i : S8192x1.Idx, O i = pairSum A B := by
  refine (sum_col O).trans ?_
  exact Finset.sum_congr rfl fun n _ => (hF n).trans (rowOut2 V c A B hA hB n)

end Region2

/-- The sum of the first kernel call's output array after the run is the sum of the weights over all pairs of rows of
    its two input arrays. (The sum is read as an extended real outright: the array's own type names its element type
    only through the window it belongs to.) -/
theorem sumOut2 (V : (c : Dev nD) → (b : Ref sig .tc) → Buf (Elt Ideal) ((c : Thread nD τ).loc b))
    (q : Fin cfg2.W → PosShare TreeShare) (c : Dev nD) :
    (∑ i : S8192x1.Idx, ((dat2 (F := Ideal) V q c).arrAt 2 cfg2.N : Vec Ideal S8192x1 .f32) i : EReal)
      = Cert.Spec.pairSum (V c (Pipeline.arrRef spec2 0) : Vec Ideal S8192x256 .f32)
          (V c (Pipeline.arrRef spec2 1) : Vec Ideal S8192x256 .f32) :=
  sumOut2_of V c _ _
    (fun t p d => (iblk2_0_apply V c t p d).trans
      (congrArg (fun n => (V c (Pipeline.arrRef spec2 0) : Vec Ideal S8192x256 .f32) (ix2 n d)) (tix2_eq _ _ _).symm))
    (fun t s d => (iblk2_1_apply V c t s d).trans
      (congrArg (fun n => (V c (Pipeline.arrRef spec2 1) : Vec Ideal S8192x256 .f32) (ix2 n d)) (tix2_eq _ _ _).symm))
    _ (fun n => final2 V q c n)

end Cert.KernelIdeal.Hand

end
-- ==== Proof.KVal.lean ====
/-
  The idealized kernel program's value. Every final state of its run holds the result at the host tail's value of the
  three regions' output arrays; each array's sum is the spec's sum over all pairs of rows of the two arrays its region
  read; and each region still finds the argument arrays as launched. So the result is the statistic of the two
  argument arrays.
-/
import proofs.«168475_j46866683134277_1_alg».proof.Proof.Gen.KernelIdeal.Launch
import proofs.«168475_j46866683134277_1_alg».proof.Proof.Gen.KernelIdeal.Skeleton
import proofs.«168475_j46866683134277_1_alg».proof.Proof.Gen.KernelIdeal.Points
import proofs.«168475_j46866683134277_1_alg».proof.Proof.Run
import proofs.«168475_j46866683134277_1_alg».proof.Proof.Tail
import proofs.«168475_j46866683134277_1_alg».proof.Proof.Val0
import proofs.«168475_j46866683134277_1_alg».proof.Proof.Val1
import proofs.«168475_j46866683134277_1_alg».proof.Proof.Val2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The final contents of the result buffer: the statistic of the argument arrays as launched. -/
theorem Wend_value (c : Dev nD) :
    Wend m ρ c (Proc.devRef .tc main_v12)
      = fun _ => Cert.Spec.result (m ((c : Thread nD τ).loc main_arg0)) (m ((c : Thread nD τ).loc main_arg1)) := by
  rw [Wend_result m ρ c, sumOut0, sumOut1, sumOut2]
  show (fun _ => Cert.Spec.tail
      (Cert.Spec.pairSum (Vin0 m ρ c main_arg0) (Vin0 m ρ c main_arg0))
      (Cert.Spec.pairSum (Vin1 m ρ c main_arg1) (Vin1 m ρ c main_arg1))
      (Cert.Spec.pairSum (Vin2 m ρ c main_arg0) (Vin2 m ρ c main_arg1))) = _
  rw [Vin1_main_arg1, Vin2_main_arg0, Vin2_main_arg1]
  rfl

/-- THE VALUE: @main terminates, nothing faulting, with the result at the statistic of the argument arrays and the
    argument arrays as launched. -/
theorem value_run : θ_run defs (onTc (τ := τ) (main (F := Ideal))) ⟨m, fun _ => 0, ρ⟩ (fun r => ∀ c : Dev nD,
      r.2.mem ((c.tc : Thread nD τ).loc main_v12)
        = (fun _ => Cert.Spec.result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v12 (by decide))).trans (Wend_value m ρ c),
     (h c _ (mem_uc main_arg0 (by decide))).trans (Wend_main_arg0 m ρ c),
     (h c _ (mem_uc main_arg1 (by decide))).trans (Wend_main_arg1 m ρ c)⟩) (run_all m ρ)

end Cert.KernelIdeal.Hand

end
-- ==== Proof.RefValue.lean ====
/-
  The reference program's result as the specification's statistic. For each of the three pairs of arrays the
  reference forms, at every pair of rows, the squared norms as sums from zero, their sum minus twice the inner
  product, the maximum with zero, the product with -1/2, the quotient by 128 and the exponential: the
  specification's weight `wr` of the two rows. The sum over the whole 8192 × 8192 array is the double sum over the
  rows, the specification's `pairSum`; the scalar operations after it are the specification's `tail`.
-/
import proofs.«168475_j46866683134277_1_alg».proof.Proof.Spec
import proofs.«168475_j46866683134277_1_alg».proof.Proof.Gen.ReferenceIdeal.Run
import proofs.«168475_j46866683134277_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- An input array of the reference: 8192 rows of 256 extended reals. -/
abbrev Arr : Type := (⟨S8192x256, .f32⟩ : BufTy).Contents (Elt Ideal)

/-! ## The indices at which the three blocks read their rows

Every block reads entry `k` of row `n` (for the first squared norm and the inner product's left operand) and of row
`m` (for the second squared norm and the right operand); the generated index functions composed along the
broadcasts are these two indices, coordinate by coordinate. -/

/-! ### First block (both operands the first array) -/

/-- Entry `k` of row `n`, read through the row sum's index under the two broadcasts along a row. -/
theorem idx_row_xx (n m : Fin 8192) (k : Fin 256) :
    idx_main_v1 (idx_main_v4 (idx_main_v6 (ix2 n m))) k = ix2 n k :=
  funext fun a => by match a with | ⟨0, _⟩ => rfl | ⟨1, _⟩ => rfl

/-- Entry `k` of row `m`, read through the row sum's index under the two broadcasts along a column. -/
theorem idx_col_xx (n m : Fin 8192) (k : Fin 256) :
    idx_main_v3 (idx_main_v5 (idx_main_v7 (ix2 n m))) k = ix2 m k :=
  funext fun a => by match a with | ⟨0, _⟩ => rfl | ⟨1, _⟩ => rfl

/-- The inner product's left operand is read at row `n`. -/
theorem idx_lhs_xx (n m : Fin 8192) (k : Fin 256) : lidx_main_v9 (ix2 n m) k = ix2 n k :=
  funext fun a => by match a with | ⟨0, _⟩ => rfl | ⟨1, _⟩ => rfl

/-- The inner product's right operand is read at row `m`. -/
theorem idx_rhs_xx (n m : Fin 8192) (k : Fin 256) : ridx_main_v9 (ix2 n m) k = ix2 m k :=
  funext fun a => by match a with | ⟨0, _⟩ => rfl | ⟨1, _⟩ => rfl

/-! ### Second block (both operands the second array) -/

/-- Entry `k` of row `n`, read through the row sum's index under the two broadcasts along a row. -/
theorem idx_row_yy (n m : Fin 8192) (k : Fin 256) :
    idx_main_v23 (idx_main_v26 (idx_main_v28 (ix2 n m))) k = ix2 n k :=
  funext fun a => by match a with | ⟨0, _⟩ => rfl | ⟨1, _⟩ => rfl

/-- Entry `k` of row `m`, read through the row sum's index under the two broadcasts along a column. -/
theorem idx_col_yy (n m : Fin 8192) (k : Fin 256) :
    idx_main_v25 (idx_main_v27 (idx_main_v29 (ix2 n m))) k = ix2 m k :=
  funext fun a => by match a with | ⟨0, _⟩ => rfl | ⟨1, _⟩ => rfl

/-- The inner product's left operand is read at row `n`. -/
theorem idx_lhs_yy (n m : Fin 8192) (k : Fin 256) : lidx_main_v31 (ix2 n m) k = ix2 n k :=
  funext fun a => by match a with | ⟨0, _⟩ => rfl | ⟨1, _⟩ => rfl

/-- The inner product's right operand is read at row `m`. -/
theorem idx_rhs_yy (n m : Fin 8192) (k : Fin 256) : ridx_main_v31 (ix2 n m) k = ix2 m k :=
  funext fun a => by match a with | ⟨0, _⟩ => rfl | ⟨1, _⟩ => rfl

/-! ### Third block (the first array against the second) -/

/-- Entry `k` of row `n`, read through the row sum's index under the two broadcasts along a row. -/
theorem idx_row_xy (n m : Fin 8192) (k : Fin 256) :
    idx_main_v46 (idx_main_v49 (idx_main_v51 (ix2 n m))) k = ix2 n k :=
  funext fun a => by match a with | ⟨0, _⟩ => rfl | ⟨1, _⟩ => rfl

/-- Entry `k` of row `m`, read through the row sum's index under the two broadcasts along a column. -/
theorem idx_col_xy (n m : Fin 8192) (k : Fin 256) :
    idx_main_v48 (idx_main_v50 (idx_main_v52 (ix2 n m))) k = ix2 m k :=
  funext fun a => by match a with | ⟨0, _⟩ => rfl | ⟨1, _⟩ => rfl

/-- The inner product's left operand is read at row `n`. -/
theorem idx_lhs_xy (n m : Fin 8192) (k : Fin 256) : lidx_main_v54 (ix2 n m) k = ix2 n k :=
  funext fun a => by match a with | ⟨0, _⟩ => rfl | ⟨1, _⟩ => rfl

/-- The inner product's right operand is read at row `m`. -/
theorem idx_rhs_xy (n m : Fin 8192) (k : Fin 256) : ridx_main_v54 (ix2 n m) k = ix2 m k :=
  funext fun a => by match a with | ⟨0, _⟩ => rfl | ⟨1, _⟩ => rfl

/-! ## The weight of a pair of rows, block by block

At rows `n`, `m` each block's exponential is, operation by operation,
exp((-1/2 · max(((0 + Σ a²) + (0 + Σ b²)) - 2 · Σ a·b, 0)) / 128): the specification's `wr` of the two rows. -/

/-- The first block's exponential at rows `n`, `m` is the weight of rows `n` and `m` of the first array. -/
theorem blk_xx (x0 : Arr) (n m : Fin 8192) :
    val_main_v19 (F := Ideal) x0 (ix2 n m) = Cert.Spec.wr (Cert.Spec.row x0 n) (Cert.Spec.row x0 m) := by
  simp only [val_main_v19_apply, val_main_v18_apply, val_main_v17_apply, val_main_cst_4_apply, val_main_v16_apply,
    val_main_v15_apply, val_main_cst_3_apply, val_main_v14_apply, val_main_v13_apply, val_main_cst_2_apply,
    val_main_v12_apply, val_main_v11_apply, val_main_v10_apply, val_main_cst_1_apply, val_main_v9_apply,
    val_main_v8_apply, val_main_v7_apply, val_main_v6_apply, val_main_v5_apply, val_main_v4_apply, val_main_v3_apply,
    val_main_v2_apply, val_main_cst_0_apply, val_main_v1_apply, val_main_v0_apply, val_main_cst_apply]
  simp only [idx_row_xx, idx_col_xx, idx_lhs_xx, idx_rhs_xx, Ideal.hostUnary_exp_def, Ideal.hostDivf_def, Ideal.mulf_def,
    Ideal.maximumf_def, Ideal.subf_def, Ideal.addf_def, Ideal.ofBits_def, Cert.Spec.wr, Cert.Spec.row]

/-- The second block's exponential at rows `n`, `m` is the weight of rows `n` and `m` of the second array. -/
theorem blk_yy (x1 : Arr) (n m : Fin 8192) :
    val_main_v41 (F := Ideal) x1 (ix2 n m) = Cert.Spec.wr (Cert.Spec.row x1 n) (Cert.Spec.row x1 m) := by
  simp only [val_main_v41_apply, val_main_v40_apply, val_main_v39_apply, val_main_cst_12_apply, val_main_v38_apply,
    val_main_v37_apply, val_main_cst_11_apply, val_main_v36_apply, val_main_v35_apply, val_main_cst_10_apply,
    val_main_v34_apply, val_main_v33_apply, val_main_v32_apply, val_main_cst_9_apply, val_main_v31_apply,
    val_main_v30_apply, val_main_v29_apply, val_main_v28_apply, val_main_v27_apply, val_main_v26_apply,
    val_main_v25_apply, val_main_v24_apply, val_main_cst_8_apply, val_main_v23_apply, val_main_v22_apply,
    val_main_cst_7_apply]
  simp only [idx_row_yy, idx_col_yy, idx_lhs_yy, idx_rhs_yy, Ideal.hostUnary_exp_def, Ideal.hostDivf_def, Ideal.mulf_def,
    Ideal.maximumf_def, Ideal.subf_def, Ideal.addf_def, Ideal.ofBits_def, Cert.Spec.wr, Cert.Spec.row]

/-- The third block's exponential at rows `n`, `m` is the weight of row `n` of the first array and row `m` of the second. -/
theorem blk_xy (x0 x1 : Arr) (n m : Fin 8192) :
    val_main_v64 (F := Ideal) x0 x1 (ix2 n m) = Cert.Spec.wr (Cert.Spec.row x0 n) (Cert.Spec.row x1 m) := by
  simp only [val_main_v64_apply, val_main_v63_apply, val_main_v62_apply, val_main_cst_20_apply, val_main_v61_apply,
    val_main_v60_apply, val_main_cst_19_apply, val_main_v59_apply, val_main_v58_apply, val_main_cst_18_apply,
    val_main_v57_apply, val_main_v56_apply, val_main_v55_apply, val_main_cst_17_apply, val_main_v54_apply,
    val_main_v53_apply, val_main_v52_apply, val_main_v51_apply, val_main_v50_apply, val_main_v49_apply,
    val_main_v48_apply, val_main_v47_apply, val_main_cst_16_apply, val_main_v46_apply, val_main_v45_apply,
    val_main_cst_15_apply]
  simp only [idx_row_xy, idx_col_xy, idx_lhs_xy, idx_rhs_xy, Ideal.hostUnary_exp_def, Ideal.hostDivf_def, Ideal.mulf_def,
    Ideal.maximumf_def, Ideal.subf_def, Ideal.addf_def, Ideal.ofBits_def, Cert.Spec.wr, Cert.Spec.row]

/-! ## The sum over all pairs of rows

A sum over the indices of the 8192 × 8192 array is the double sum over its two coordinates. -/

/-- The first block's total is the sum of the weights over all pairs of rows of the first array. -/
theorem sum_xx (x0 : Arr) :
    ∑ j : S8192x8192.Idx, val_main_v19 (F := Ideal) x0 j = Cert.Spec.pairSum x0 x0 := by
  unfold Cert.Spec.pairSum
  exact (sum_idx2 _).trans
    (Finset.sum_congr rfl fun n _ => Finset.sum_congr rfl fun m _ => blk_xx x0 n m)

/-- The second block's total is the sum of the weights over all pairs of rows of the second array. -/
theorem sum_yy (x1 : Arr) :
    ∑ j : S8192x8192.Idx, val_main_v41 (F := Ideal) x1 j = Cert.Spec.pairSum x1 x1 := by
  unfold Cert.Spec.pairSum
  exact (sum_idx2 _).trans
    (Finset.sum_congr rfl fun n _ => Finset.sum_congr rfl fun m _ => blk_yy x1 n m)

/-- The third block's total is the sum of the weights over all pairs of a row of the first array and a row of the second. -/
theorem sum_xy (x0 x1 : Arr) :
    ∑ j : S8192x8192.Idx, val_main_v64 (F := Ideal) x0 x1 j = Cert.Spec.pairSum x0 x1 := by
  unfold Cert.Spec.pairSum
  exact (sum_idx2 _).trans
    (Finset.sum_congr rfl fun n _ => Finset.sum_congr rfl fun m _ => blk_xy x0 x1 n m)

/-! ## The statistic -/

/-- The reference's result: each block's total, from a zero initial value, divided by 2^26; the first two means
    added, twice the third subtracted, and the square root taken. This is the specification's `tail` of the three
    sums of weights, at the result's one index. -/
theorem ref_result (x0 x1 : (⟨Cert.ReferenceIdeal.S8192x256, .f32⟩ : BufTy).Contents (Elt Ideal)) :
    Cert.ReferenceIdeal.Read.val_main_v69 (F := Ideal) x0 x1 = fun _ => Cert.Spec.result x0 x1 := by
  funext i
  simp only [val_main_v69_apply, val_main_v68_apply, val_main_v67_apply, val_main_cst_23_apply, val_main_v66_apply,
    val_main_cst_22_apply, val_main_v65_apply, val_main_cst_21_apply, val_main_v44_apply, val_main_v43_apply,
    val_main_cst_14_apply, val_main_v42_apply, val_main_cst_13_apply, val_main_v21_apply, val_main_cst_6_apply,
    val_main_v20_apply, val_main_cst_5_apply]
  simp only [Ideal.hostUnary_sqrt_def, Ideal.hostDivf_def, Ideal.mulf_def, Ideal.subf_def,
    Ideal.addf_def, Ideal.ofBits_def, Cert.Spec.result, Cert.Spec.tail]
  rw [sum_xx x0, sum_yy x1, sum_xy x0 x1]

end Cert.ReferenceIdeal.RefValue
-- ==== Proof.lean ====
/-
  The kernel computes a Gaussian-kernel MMD statistic of two arrays x, y of 8192 rows of 256 entries: for each of the
  pairs (x, x), (y, y), (x, y) a pallas_call accumulates, over an 8 × 8 grid of 1024-row tiles, the row sums of
  exp(-1/2 · max(|a|² + |b|² - 2 a·b, 0) · 2^-7) over all pairs of rows; the host sums the rows, divides by 2^26,
  and returns sqrt(m_xx + m_yy - 2 m_xy). The reference forms the full 8192 × 8192 matrices and divides by 128.

  Frames. @main is three kernel regions, each followed by host operations. Each region's body is run once per
  control case (the output block is reset when the column tile is 0, accumulated otherwise); the proof data name what every staging buffer holds after every point; the first two regions read ONE array through both
  input windows, which hold it by halves; one launch over the six segments gives termination without fault with every
  buffer at its final contents, at any instance: read at the word level it is the kernel program's frame, at the
  extended reals the idealized program's frame and value. The reference's frame is its run with the result dropped.

  Value. Over the extended reals the kernel's accumulated block is, row by row, the sum over all 8192 columns of the
  pair weight (sums regroup freely: the extended reals are a commutative monoid under addition), the zero words are 0,
  and multiplying by the word for 2^-7 is dividing by 128 on every extended real. No finiteness is used.
-/
import proofs.«168475_j46866683134277_1_alg».proof.Defs
import proofs.«168475_j46866683134277_1_alg».proof.Proof.Gen.Kernel
import proofs.«168475_j46866683134277_1_alg».proof.Proof.Gen.KernelIdeal
import proofs.«168475_j46866683134277_1_alg».proof.Proof.Gen.ReferenceIdeal
import proofs.«168475_j46866683134277_1_alg».proof.Proof.Gen.Pre_finite_inputs
import proofs.«168475_j46866683134277_1_alg».proof.Proof.Gen.ReferenceIdeal.Run
import proofs.«168475_j46866683134277_1_alg».proof.Proof.Gen.ReferenceIdeal.Read
import proofs.«168475_j46866683134277_1_alg».proof.Proof.Bits.Run
import proofs.«168475_j46866683134277_1_alg».proof.Proof.KVal
import proofs.«168475_j46866683134277_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the statistic of the arrays they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.value_run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v69_eq _ _).trans (Cert.ReferenceIdeal.RefValue.ref_result _ _))).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
